-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  reducesTo_S_S_d : S_.ReducesTo [] S_

variable [Facts]

def fn_part2 {F : FTy → Type} [FloatOps F] (main_arg8 : FVec F S128 .f32) (main_arg9 : FVec F S128 .f32) (main_arg10 : FVec F S_ .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S_ .f32 := Host.absf main_arg10
  let main_cst_16 : FVec F S_ .f32 := constant S_ .f32 0x7F800000#32
  let main_v45 : IVec S_ 1 := cmpf .olt main_v44 main_cst_16
  let main_c_17 : IVec S_ 1 := constantI S_ 1 1#1
  let main_v46 : IVec S_ 1 := (fun x v => Host.reduce IntOp.andi x v reducesTo_S_S_d h_S_) main_v45 main_c_17
  let main_v47 : IVec S_ 1 := andi main_v43 main_v46
  main_v47

def fn_part1 {F : FTy → Type} [FloatOps F] (main_arg5 : FVec F S16x128 .f32) (main_arg6 : FVec F S16 .f32) (main_arg7 : FVec F S16x128 .f32) (main_arg8 : FVec F S128 .f32) (main_arg9 : FVec F S128 .f32) (main_arg10 : FVec F S_ .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S16x128 .f32 := Host.absf main_arg5
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S16 .f32 := Host.absf main_arg6
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x128 .f32 := Host.absf main_arg7
  let main_cst_10 : FVec F S_ .f32 := constant S_ .f32 0x7F800000#32
  let main_v30 : FVec F S16x128 .f32 := broadcastInDim S16x128 ![] bcast_S_S16x128 main_cst_10
  let main_v31 : IVec S16x128 1 := cmpf .olt main_v29 main_v30
  let main_c_11 : IVec S_ 1 := constantI S_ 1 1#1
  let main_v32 : IVec S_ 1 := (fun x v => Host.reduce IntOp.andi x v reducesTo_S16x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S16x128 .f32) (main_arg6 : FVec F S16 .f32) (main_arg7 : FVec F S16x128 .f32) (main_arg8 : FVec F S128 .f32) (main_arg9 : FVec F S128 .f32) (main_arg10 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x16 : Shape := ⟨2, ![1, 16]⟩
abbrev S50000x16 : Shape := ⟨2, ![50000, 16]⟩
abbrev S5000x16 : Shape := ⟨2, ![5000, 16]⟩
abbrev S128x16 : Shape := ⟨2, ![128, 16]⟩
abbrev S5000 : Shape := ⟨1, ![5000]⟩
abbrev S5000x1 : Shape := ⟨2, ![5000, 1]⟩

abbrev nBuf : Space → Nat
  | .hbm => 74
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S16x128, .f32⟩
  | .hbm, ⟨6, _⟩ => ⟨S16, .f32⟩
  | .hbm, ⟨7, _⟩ => ⟨S16x128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S50000x128, .f32⟩
  | .hbm, ⟨71, _⟩ => ⟨S50000x128, .f32⟩
  | .hbm, ⟨72, _⟩ => ⟨S1x16, .f32⟩
  | .hbm, ⟨73, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S16x128, .f32⟩
  | .local _ .vmem, ⟨27, _⟩ => ⟨S1x16, .f32⟩
  | .local _ .vmem, ⟨28, _⟩ => ⟨S16x128, .f32⟩
  | .local _ .vmem, ⟨29, _⟩ => ⟨S5000x16, .f32⟩
  | .local _ .vmem, ⟨30, _⟩ => ⟨S5000x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S16x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S16_S1x16 : S16.ShapeCasts S1x16
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  reduces_S5000x16_S5000 : S5000x16.Reduces [1] S5000
  shapeCasts_S5000_S5000x1 : S5000.ShapeCasts S5000x1
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x128.size a ≤ S16x128.size a
  hwx2_2 : ∀ i : grid2.Coords, EltTy.bits .f32 = 32 ∨ (Rect.block (s := S16x128) S16x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S16x128.size a ≤ S16x128.size a
  hwx2_4 : ∀ i : grid2.Coords, EltTy.bits .f32 = 32 ∨ (Rect.block (s := S16x128) S16x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S50000x16.size a
  hwx2_5 : ∀ i : grid2.Coords, EltTy.bits .f32 = 32 ∨ (Rect.block (s := S50000x16) S5000x16.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v21) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v23_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S16x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S16x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S16x128 : Shape := ⟨2, ![16, 128]⟩
abbrev S16 : Shape := ⟨1, ![16]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x16 : Shape := ⟨2, ![128, 16]⟩
abbrev S50000x16 : Shape := ⟨2, ![50000, 16]⟩
abbrev S1x16 : Shape := ⟨2, ![1, 16]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S16x128, .f32⟩
  | 6 => ⟨S16, .f32⟩
  | 7 => ⟨S16x128, .f32⟩
  | 8 => ⟨S128, .f32⟩
  | 9 => ⟨S128, .f32⟩
  | 10 => ⟨S_, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S_, .f32⟩
  | 36 => ⟨S50000, .f32⟩
  | 37 => ⟨S50000, .f32⟩
  | 38 => ⟨S50000x1, .f32⟩
  | 39 => ⟨S50000x128, .f32⟩
  | 40 => ⟨S50000x128, .f32⟩
  | 41 => ⟨S128x128, .f32⟩
  | 42 => ⟨S50000x128, .f32⟩
  | 43 => ⟨S1x128, .f32⟩
  | 44 => ⟨S50000x128, .f32⟩
  | 45 => ⟨S50000x128, .f32⟩
  | 46 => ⟨S128x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .i1⟩
  | 96 => ⟨S50000x128, .f32⟩
  | 97 => ⟨S50000x128, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x128, .f32⟩
  | 109 => ⟨S_, .f32⟩
  | 110 => ⟨S50000x128, .f32⟩
  | 111 => ⟨S800000x1, .i32⟩
  | 112 => ⟨S50000x128, .f32⟩
  | 113 => ⟨S_, .f32⟩
  | 114 => ⟨S800000, .f32⟩
  | 115 => ⟨S_, .f32⟩
  | 116 => ⟨S50000, .f32⟩
  | 117 => ⟨S800000x1, .i32⟩
  | 118 => ⟨S50000, .f32⟩
  | 119 => ⟨S_, .f32⟩
  | 120 => ⟨S_, .f32⟩
  | 121 => ⟨S50000, .f32⟩
  | 122 => ⟨S50000, .f32⟩
  | 123 => ⟨S50000x1, .f32⟩
  | 124 => ⟨S50000x128, .f32⟩
  | 125 => ⟨S50000x128, .f32⟩
  | 126 => ⟨S128x16, .f32⟩
  | 127 => ⟨S50000x16, .f32⟩
  | _ => ⟨S50000x128, .f32⟩

abbrev hbmTy0_1 (i : Nat) : BufTy := match i % 128 with
  | 0 => ⟨S1x16, .f32⟩
  | 1 => ⟨S50000x16, .f32⟩
  | 2 => ⟨S50000x16, .f32⟩
  | 3 => ⟨S128x16, .f32⟩
  | 4 => ⟨S50000x16, .f32⟩
  | 5 => ⟨S50000x16, .f32⟩
  | 6 => ⟨S_, .f32⟩
  | 7 => ⟨S50000, .f32⟩
  | 8 => ⟨S_, .f32⟩
  | 9 => ⟨S50000, .f32⟩
  | 10 => ⟨S50000, .f32⟩
  | 11 => ⟨S50000x1, .f32⟩
  | 12 => ⟨S50000x16, .f32⟩
  | 13 => ⟨S50000x16, .f32⟩
  | 14 => ⟨S50000x16, .f32⟩
  | 15 => ⟨S_, .f32⟩
  | 16 => ⟨S50000, .f32⟩
  | 17 => ⟨S50000x1, .f32⟩
  | 18 => ⟨S50000x1, .f32⟩
  | 19 => ⟨S50000x16, .f32⟩
  | 20 => ⟨S50000x16, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_c_6 : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_cst_3 : Ref sig .tc := ⟨.hbm, 71, rfl⟩
abbrev main_call1_v12 : Ref sig .tc := ⟨.hbm, 72, rfl⟩
abbrev main_call1_cst_4 : Ref sig .tc := ⟨.hbm, 73, rfl⟩
abbrev main_call1_call0_v0 : Ref sig .tc := ⟨.hbm, 74, rfl⟩
abbrev main_call1_call0_v1 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_7 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_cst_8 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_9 : Ref sig .tc := ⟨.hbm, 100, rfl⟩
abbrev main_v55 : Ref sig .tc := ⟨.hbm, 101, rfl⟩
abbrev main_v56 : Ref sig .tc := ⟨.hbm, 102, rfl⟩
abbrev main_c_10 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_11 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_cst_12 : Ref sig .tc := ⟨.hbm, 113, rfl⟩
abbrev main_v65 : Ref sig .tc := ⟨.hbm, 114, rfl⟩
abbrev main_cst_13 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_cst_14 : Ref sig .tc := ⟨.hbm, 119, rfl⟩
abbrev main_call3_v0 : Ref sig .tc := ⟨.hbm, 120, rfl⟩
abbrev main_call3_v1 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_call4_cst : Ref sig .tc := ⟨.hbm, 134, rfl⟩
abbrev main_call4_v0 : Ref sig .tc := ⟨.hbm, 135, rfl⟩
abbrev main_call4_cst_0 : Ref sig .tc := ⟨.hbm, 136, rfl⟩
abbrev main_call4_v1 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_v6 : Ref sig .tc := ⟨.hbm, 142, rfl⟩
abbrev main_call4_cst_1 : Ref sig .tc := ⟨.hbm, 143, rfl⟩
abbrev main_call4_v7 : Ref sig .tc := ⟨.hbm, 144, rfl⟩
abbrev main_call4_v8 : Ref sig .tc := ⟨.hbm, 145, rfl⟩
abbrev main_call4_v9 : Ref sig .tc := ⟨.hbm, 146, rfl⟩
abbrev main_call4_v10 : Ref sig .tc := ⟨.hbm, 147, rfl⟩
abbrev main_v81 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  transposes_S16x128_S128x16_1_0 : S16x128.Transposes [1, 0] S128x16
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  reducesTo_S50000x16_S50000_d1 : S50000x16.ReducesTo [1] S50000
  bcast_S50000x1_S50000x16_0_1 : S50000x1.BroadcastsInDim S50000x16 (![0, 1] : Fin 2 → Fin S50000x16.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x16_S50000x16_1_0_0_1_n_n_wf : DotDims.WF S50000x128 S128x16 S50000x16 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.Layers.lean ====
/-
  The layers of the network as whole-array functions over the extended reals, index by index.
  A SAGE layer maps a node's aggregated neighbour features A and its own features X to
  A·Wlᵀ + b + X·Wrᵀ; batch normalisation needs, per feature, the sum and the sum of squares over all nodes;
  the normalised activation is γ·(h − μ)·(v + ε)^(-1/2) + β, passed through a leaky rectifier of slope a and added to the
  layer's input; the classifier's output is the row-wise log-softmax.
-/
import Idealize.ShloMosaic.PureOps.Ideal
import Idealize.ShloMosaic.PureOps.Ideal.Laws
import Idealize.ShloMosaic.Lib.ValueIdx

noncomputable section

namespace Cert.Layers

open Idealize.ShloMosaic Idealize.ShloMosaic.ValueIdx
open scoped BigOperators

/-- node features: 50000 nodes, 128 features -/
abbrev Nodes128 : Shape := ⟨2, ![50000, 128]⟩
/-- class scores: 50000 nodes, 16 classes -/
abbrev Nodes16 : Shape := ⟨2, ![50000, 16]⟩
/-- a per-feature row -/
abbrev Row128 : Shape := ⟨2, ![1, 128]⟩
abbrev Row16 : Shape := ⟨2, ![1, 16]⟩
abbrev Sq128 : Shape := ⟨2, ![128, 128]⟩
abbrev W16x128 : Shape := ⟨2, ![16, 128]⟩

/-- The hidden SAGE layer: entry (i, o) is ∑ₖ A(i,k)·Wl(o,k) + b(0,o) + ∑ₖ X(i,k)·Wr(o,k). -/
def sage128 (A X : Nodes128.Idx → EReal) (Wl : Sq128.Idx → EReal) (b : Row128.Idx → EReal) (Wr : Sq128.Idx → EReal) :
    Nodes128.Idx → EReal :=
  fun i => ((∑ k : Fin 128, A (ix2 (i 0) k) * Wl (ix2 (i 1) k)) + b (ix2 0 (i 1)))
    + ∑ k : Fin 128, X (ix2 (i 0) k) * Wr (ix2 (i 1) k)

/-- The output SAGE layer: the same map onto 16 classes. -/
def sage16 (A X : Nodes128.Idx → EReal) (Wl : W16x128.Idx → EReal) (b : Row16.Idx → EReal) (Wr : W16x128.Idx → EReal) :
    Nodes16.Idx → EReal :=
  fun i => ((∑ k : Fin 128, A (ix2 (i 0) k) * Wl (ix2 (i 1) k)) + b (ix2 0 (i 1)))
    + ∑ k : Fin 128, X (ix2 (i 0) k) * Wr (ix2 (i 1) k)

/-- Per feature, the sum over all nodes. -/
def colSum (H : Nodes128.Idx → EReal) : Row128.Idx → EReal :=
  fun j => ∑ i : Fin 50000, H (ix2 i (j 1))

/-- Per feature, the sum of squares over all nodes. -/
def colSumSq (H : Nodes128.Idx → EReal) : Row128.Idx → EReal :=
  fun j => ∑ i : Fin 50000, H (ix2 i (j 1)) * H (ix2 i (j 1))

/-- The small positive number added to the variance. -/
abbrev eps : EReal := Ideal.ofBits .f32 0x3727C5AC#32

/-- Batch normalisation with given per-feature mean μ and variance v, the leaky rectifier of slope a, and the residual:
    with n = (γ·(h − μ))·(v + ε)^(-1/2) + β the entry is (n if 0 ≤ n else a·n) + X. -/
def normAct (H X : Nodes128.Idx → EReal) (μ v γ β a : Row128.Idx → EReal) : Nodes128.Idx → EReal :=
  fun i =>
    let j : Row128.Idx := ix2 0 (i 1)
    let n : EReal := (γ j * (H i - μ j)) * Ideal.rsqrt (v j + eps) + β j
    Scalar.select (FloatOps.cmpf (F := Ideal) (φ := .f32) .oge n (Ideal.ofBits .f32 0x00000000#32)) n (a j * n) + X i

/-- A row's maximum, folded from −∞. -/
def rowMax (Z : Nodes16.Idx → EReal) (r : Fin 50000) : EReal :=
  (Finset.univ : Finset (Fin 16)).fold max (Ideal.ofBits .f32 0xFF800000#32) (fun k => Z (ix2 r k))

/-- The row-wise log-softmax: (z − max) − log ∑ₖ exp (zₖ − max). -/
def logSoftmax (Z : Nodes16.Idx → EReal) : Nodes16.Idx → EReal :=
  fun i => (Z i - rowMax Z (i 0)) - Ideal.log (∑ k : Fin 16, Ideal.exp (Z (ix2 (i 0) k) - rowMax Z (i 0)))

end Cert.Layers

end
-- ==== Proof.RefStages.lean ====
/-
  The reference network as a composition of whole-array stages: the mean of each node's in-neighbours' features
  (a gather along the edges' sources, a scatter with addition at their destinations, divided by the in-degree clipped
  at one), the SAGE layers as two matrix products and a bias, batch statistics over the nodes, the normalised
  activation with its leaky rectifier and residual, and the row-wise log-softmax.
-/
import proofs.«172143_j85615878078999_1_alg».proof.ReferenceIdeal

noncomputable section

namespace Cert.ReferenceIdeal.Stages

open Idealize.ShloMosaic Cert.ReferenceIdeal
open Cert.ReferenceIdeal.Facts₀ Cert.ReferenceIdeal.Facts

variable {F : FTy → Type} [FloatOps F] [Cert.ReferenceIdeal.Facts]

/-- an edge list's row r as a vector -/
def edgeRow0 (ei : (⟨S2x800000, .i32⟩ : BufTy).Contents (Elt F)) : (⟨S800000, .i32⟩ : BufTy).Contents (Elt F) :=
  fun i => shapeCast S800000 (extractStridedSlice S1x800000 ![0, 0] ei slices_S2x800000_S1x800000_0_0) shapeCasts_S1x800000_S800000 i
def edgeRow1 (ei : (⟨S2x800000, .i32⟩ : BufTy).Contents (Elt F)) : (⟨S800000, .i32⟩ : BufTy).Contents (Elt F) :=
  fun i => shapeCast S800000 (extractStridedSlice S1x800000 ![1, 0] ei slices_S2x800000_S1x800000_1_0) shapeCasts_S1x800000_S800000 i

/-- the sources, a negative index wrapped by the number of nodes, as a column -/
def srcCol (ei : (⟨S2x800000, .i32⟩ : BufTy).Contents (Elt F)) : (⟨S800000x1, .i32⟩ : BufTy).Contents (Elt F) :=
  broadcastInDim S800000x1 ![0] bcast_S800000_S800000x1_0
    (select (cmpi .slt (edgeRow0 (F := F) ei) (broadcastInDim S800000 ![] bcast_S_S800000 (constantI S_ 32 0#32)))
      (addi (edgeRow0 (F := F) ei) (broadcastInDim S800000 ![] bcast_S_S800000 (constantI S_ 32 50000#32)))
      (edgeRow0 (F := F) ei))

/-- the destinations as a column -/
def dstCol (ei : (⟨S2x800000, .i32⟩ : BufTy).Contents (Elt F)) : (⟨S800000x1, .i32⟩ : BufTy).Contents (Elt F) :=
  broadcastInDim S800000x1 ![0] bcast_S800000_S800000x1_0 (edgeRow1 (F := F) ei)

/-- per node, the sum of its in-neighbours' feature rows -/
def nbrSum (x : FVec F S50000x128 .f32) (ei : (⟨S2x800000, .i32⟩ : BufTy).Contents (Elt F)) : FVec F S50000x128 .f32 :=
  Host.scatterAdd scatter_S50000x128_S800000x1_S800000x128_1_0_0_1
    (broadcastInDim S50000x128 ![] bcast_S_S50000x128 (constant S_ .f32 0x00000000#32))
    (dstCol (F := F) ei)
    (Host.gather gather_S50000x128_S800000x1_S800000x128_1_0_n_n_0_1_1128 x (srcCol (F := F) ei))

/-- per node, its in-degree clipped below at one -/
def degClip (ei : (⟨S2x800000, .i32⟩ : BufTy).Contents (Elt F)) : FVec F S50000 .f32 :=
  maximumf (broadcastInDim S50000 ![] bcast_S_S50000 (id (constant S_ .f32 0x3F800000#32)))
    (Host.scatterAdd scatter_S50000_S800000x1_S800000_n_0_0_1
      (broadcastInDim S50000 ![] bcast_S_S50000 (constant S_ .f32 0x00000000#32))
      (dstCol (F := F) ei)
      (broadcastInDim S800000 ![] bcast_S_S800000 (constant S_ .f32 0x3F800000#32)))

/-- the clipped in-degree as a column -/
def degCol (ei : (⟨S2x800000, .i32⟩ : BufTy).Contents (Elt F)) : FVec F S50000x1 .f32 :=
  broadcastInDim S50000x1 ![0] bcast_S50000_S50000x1_0 (degClip (F := F) ei)

/-- per node, the mean of its in-neighbours' feature rows -/
def nbrMean (x : FVec F S50000x128 .f32) (ei : (⟨S2x800000, .i32⟩ : BufTy).Contents (Elt F)) : FVec F S50000x128 .f32 :=
  Host.divf (nbrSum x ei) (broadcastInDim S50000x128 ![0, 1] bcast_S50000x1_S50000x128_0_1 (degCol (F := F) ei))

/-- a per-feature vector laid along every node's row -/
def alongRows (v : FVec F S128 .f32) : FVec F S50000x128 .f32 :=
  broadcastInDim S50000x128 ![0, 1] bcast_S1x128_S50000x128_0_1 (broadcastInDim S1x128 ![1] bcast_S128_S1x128_1 v)

/-- the hidden SAGE layer: A·Wlᵀ + b + X·Wrᵀ -/
def lin128 (A X : FVec F S50000x128 .f32) (Wl : FVec F S128x128 .f32) (b : FVec F S128 .f32) (Wr : FVec F S128x128 .f32) :
    FVec F S50000x128 .f32 :=
  addf (addf (Host.dotGeneral dot_S50000x128_S128x128_S50000x128_1_0_0_1_n_n none A (transpose S128x128 [1, 0] Wl transposes_S128x128_S128x128_1_0))
      (alongRows b))
    (Host.dotGeneral dot_S50000x128_S128x128_S50000x128_1_0_0_1_n_n none X (transpose S128x128 [1, 0] Wr transposes_S128x128_S128x128_1_0))

/-- the output SAGE layer -/
def lin16 (A X : FVec F S50000x128 .f32) (Wl : FVec F S16x128 .f32) (b : FVec F S16 .f32) (Wr : FVec F S16x128 .f32) :
    FVec F S50000x16 .f32 :=
  addf (addf (Host.dotGeneral dot_S50000x128_S128x16_S50000x16_1_0_0_1_n_n none A (transpose S128x16 [1, 0] Wl transposes_S16x128_S128x16_1_0))
      (broadcastInDim S50000x16 ![0, 1] bcast_S1x16_S50000x16_0_1 (broadcastInDim S1x16 ![1] bcast_S16_S1x16_1 b)))
    (Host.dotGeneral dot_S50000x128_S128x16_S50000x16_1_0_0_1_n_n none X (transpose S128x16 [1, 0] Wr transposes_S16x128_S128x16_1_0))

/-- the number of nodes as a float -/
abbrev nNodes : FVec F S_ .f32 := constant S_ .f32 0x47435000#32

/-- per feature, the mean over the nodes -/
def colMean (H : FVec F S50000x128 .f32) : FVec F S128 .f32 :=
  Host.divf (Host.reduceAdd H (constant S_ .f32 0x00000000#32) reducesTo_S50000x128_S128_d0 h_S_)
    (broadcastInDim S128 ![] bcast_S_S128 nNodes)

/-- the divisor of the variance: the number of nodes less the zero degrees of freedom -/
def varDenom : FVec F S_ .f32 :=
  subf (nNodes (F := F)) (sitofp .f32 (constantI S_ 32 0#32))

/-- per feature, the biased variance over the nodes: the mean of the squared deviations from the mean -/
def colVar (H : FVec F S50000x128 .f32) : FVec F S128 .f32 :=
  let dev : FVec F S50000x128 .f32 :=
    subf H (broadcastInDim S50000x128 ![0, 1] bcast_S1x128_S50000x128_0_1
      (Host.divf (broadcastInDim S1x128 ![1] bcast_S128_S1x128_1
          (Host.reduceAdd H (constant S_ .f32 0x00000000#32) reducesTo_S50000x128_S128_d0 h_S_))
        (broadcastInDim S1x128 ![] bcast_S_S1x128 nNodes)))
  select (broadcastInDim S128 ![] bcast_S_S128 (cmpf .ogt (varDenom (F := F)) (constant S_ .f32 0x00000000#32)))
    (Host.divf (Host.reduceAdd (mulf dev dev) (constant S_ .f32 0x00000000#32) reducesTo_S50000x128_S128_d0 h_S_)
      (broadcastInDim S128 ![] bcast_S_S128 (varDenom (F := F))))
    (broadcastInDim S128 ![] bcast_S_S128 (id (constant S_ .f32 0x7FC00000#32)))

/-- batch normalisation with the batch's own statistics, the leaky rectifier of slope a, and the residual -/
def normAct (H X : FVec F S50000x128 .f32) (γ β : FVec F S128 .f32) (a : FVec F S_ .f32) : FVec F S50000x128 .f32 :=
  let n : FVec F S50000x128 .f32 :=
    addf (Host.divf (mulf (alongRows γ) (subf H (alongRows (colMean H))))
        (alongRows (Host.sqrt (addf (colVar H) (broadcastInDim S128 ![] bcast_S_S128 (constant S_ .f32 0x3727C5AC#32))))))
      (alongRows β)
  addf (select (cmpf .oge n (broadcastInDim S50000x128 ![] bcast_S_S50000x128 (constant S_ .f32 0x00000000#32)))
      n (mulf (broadcastInDim S50000x128 ![] bcast_S_S50000x128 a) n)) X

/-- a per-node column laid along every class -/
def alongClasses (v : FVec F S50000 .f32) : FVec F S50000x16 .f32 :=
  broadcastInDim S50000x16 ![0, 1] bcast_S50000x1_S50000x16_0_1 (broadcastInDim S50000x1 ![0] bcast_S50000_S50000x1_0 v)

/-- the row-wise log-softmax -/
def logSoftmax (Z : FVec F S50000x16 .f32) : FVec F S50000x16 .f32 :=
  let mx : FVec F S50000 .f32 :=
    maximumf (broadcastInDim S50000 ![] bcast_S_S50000 (constant S_ .f32 0xFF800000#32))
      (Host.reduce FloatOps.maximumf Z (constant S_ .f32 0xFF800000#32) reducesTo_S50000x16_S50000_d1 h_S_)
  let sh : FVec F S50000x16 .f32 := subf Z (alongClasses mx)
  subf sh (broadcastInDim S50000x16 ![0, 1] bcast_S50000x1_S50000x16_0_1
    (Host.log (broadcastInDim S50000x1 ![0] bcast_S50000_S50000x1_0
      (Host.reduceAdd (Host.exp sh) (constant S_ .f32 0x00000000#32) reducesTo_S50000x16_S50000_d1 h_S_))))

/-- the whole reference network -/
def out (x : FVec F S50000x128 .f32) (ei : (⟨S2x800000, .i32⟩ : BufTy).Contents (Elt F))
    (Wl1 : FVec F S128x128 .f32) (bl1 : FVec F S128 .f32) (Wr1 : FVec F S128x128 .f32)
    (Wl2 : FVec F S16x128 .f32) (bl2 : FVec F S16 .f32) (Wr2 : FVec F S16x128 .f32)
    (γ β : FVec F S128 .f32) (a : FVec F S_ .f32) : FVec F S50000x16 .f32 :=
  let H2 : FVec F S50000x128 .f32 := normAct (lin128 (nbrMean x ei) x Wl1 bl1 Wr1) x γ β a
  logSoftmax (lin16 (nbrMean H2 ei) H2 Wl2 bl2 Wr2)

end Cert.ReferenceIdeal.Stages

end
-- ==== Proof.KStages.lean ====
/-
  The kernel's network as a composition of whole-array stages: the host's neighbour means feed the hidden SAGE layer;
  its per-feature sum and sum of squares give the batch mean μ = S/n and variance v = Q/n − μ²; the normalised activation
  feeds the second neighbour mean and the output layer, whose rows go through the log-softmax.
-/
import proofs.«172143_j85615878078999_1_alg».proof.KernelIdeal
import proofs.«172143_j85615878078999_1_alg».proof.Proof.Layers
import proofs.«172143_j85615878078999_1_alg».proof.Proof.RefStages

noncomputable section

namespace Cert.KernelOut

open Idealize.ShloMosaic Cert.Layers
open Cert.ReferenceIdeal (S50000x128 S2x800000 S128x128 S128 S16x128 S16 S_ S50000x16)
open Cert.ReferenceIdeal.Stages (nbrMean)

variable [Cert.KernelIdeal.Facts] [Cert.ReferenceIdeal.Facts]

/-- a per-feature vector as a one-row matrix -/
abbrev asRow128 (v : FVec Ideal S128 .f32) : FVec Ideal Cert.KernelIdeal.S1x128 .f32 :=
  fun i => shapeCast Cert.KernelIdeal.S1x128 v Cert.KernelIdeal.Facts₀.shapeCasts_S128_S1x128 i
abbrev asRow16 (v : FVec Ideal S16 .f32) : FVec Ideal Cert.KernelIdeal.S1x16 .f32 :=
  fun i => shapeCast Cert.KernelIdeal.S1x16 v Cert.KernelIdeal.Facts₀.shapeCasts_S16_S1x16 i
/-- a scalar along a one-row matrix -/
abbrev splatRow128 (a : FVec Ideal S_ .f32) : FVec Ideal Cert.KernelIdeal.S1x128 .f32 :=
  broadcastInDim Cert.KernelIdeal.S1x128 ![] Cert.KernelIdeal.Facts₀.bcast_S_S1x128 a

/-- the hidden layer before normalisation -/
def hidden (x : FVec Ideal S50000x128 .f32) (ei : (⟨S2x800000, .i32⟩ : BufTy).Contents (Elt Ideal))
    (Wl1 : FVec Ideal S128x128 .f32) (bl1 : FVec Ideal S128 .f32) (Wr1 : FVec Ideal S128x128 .f32) : FVec Ideal S50000x128 .f32 :=
  sage128 (nbrMean (F := Ideal) x ei) x Wl1 (asRow128 bl1) Wr1

/-- the batch mean the kernel's program computes: the column sums over the number of nodes -/
def mean (H : FVec Ideal S50000x128 .f32) : FVec Ideal Cert.KernelIdeal.S1x128 .f32 :=
  Host.divf (colSum H : FVec Ideal Cert.KernelIdeal.S1x128 .f32) (splatRow128 (constant S_ .f32 0x47435000#32))

/-- the batch variance the kernel's program computes: the mean of squares less the squared mean -/
def var (H : FVec Ideal S50000x128 .f32) : FVec Ideal Cert.KernelIdeal.S1x128 .f32 :=
  subf (Host.divf (colSumSq H : FVec Ideal Cert.KernelIdeal.S1x128 .f32) (splatRow128 (constant S_ .f32 0x47435000#32)))
    (mulf (mean H) (mean H))

/-- the hidden layer after normalisation, rectifier and residual -/
def hidden2 (H x : FVec Ideal S50000x128 .f32) (γ β : FVec Ideal S128 .f32) (a : FVec Ideal S_ .f32) : FVec Ideal S50000x128 .f32 :=
  normAct H x (mean H) (var H) (asRow128 γ) (asRow128 β) (splatRow128 a)

/-- the whole network as the kernel's program computes it -/
def out (x : FVec Ideal S50000x128 .f32) (ei : (⟨S2x800000, .i32⟩ : BufTy).Contents (Elt Ideal))
    (Wl1 : FVec Ideal S128x128 .f32) (bl1 : FVec Ideal S128 .f32) (Wr1 : FVec Ideal S128x128 .f32)
    (Wl2 : FVec Ideal S16x128 .f32) (bl2 : FVec Ideal S16 .f32) (Wr2 : FVec Ideal S16x128 .f32)
    (γ β : FVec Ideal S128 .f32) (a : FVec Ideal S_ .f32) : FVec Ideal S50000x16 .f32 :=
  let H2 : FVec Ideal S50000x128 .f32 := hidden2 (hidden x ei Wl1 bl1 Wr1) x γ β a
  logSoftmax (sage16 (nbrMean (F := Ideal) H2 ei) H2 Wl2 (asRow16 bl2) Wr2)

end Cert.KernelOut

end
-- ==== Proof.Region0.lean ====
/-
  The first kernel, over any contents V of the buffers at its entry: ten row blocks of 5000 nodes. Each block of the
  first result is the hidden SAGE layer of the block's rows; the two one-row results accumulate, block after block from a
  zero written at the first block, the column sums and the column sums of squares of the blocks, and are written back once,
  after the last block: they end at the sums over all 50000 nodes.
-/
import proofs.«172143_j85615878078999_1_alg».proof.Proof.Gen.KernelIdeal.Frame
import proofs.«172143_j85615878078999_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.Layers

variable (V : (c : Dev nD) → (b : Ref sig .tc) → Buf (Elt Ideal) ((c : Thread nD τ).loc b))

/-- the hidden layer of the arrays the kernel's five input windows read -/
abbrev hidden (c : Dev nD) : Nodes128.Idx → EReal :=
  sage128 (V c (Pipeline.arrRef spec0 0)) (V c (Pipeline.arrRef spec0 1)) (V c (Pipeline.arrRef spec0 2))
    (V c (Pipeline.arrRef spec0 3)) (V c (Pipeline.arrRef spec0 4))

/-! ## What each case of the body leaves in the three results' buffers

At the first block the two one-row results are first set to zero; at every block the first result is the body's main
value of the five loaded blocks, and each one-row result is what it held plus a column sum of that value. -/

section Pieces

variable {F : FTy → Type} [FloatOps F]

/-- the zero offsets of a whole-block access, however they are spelt -/
theorem hz : (![0, 0] : Fin 2 → Nat) = fun _ => 0 := funext fun a => by fin_cases a <;> rfl

/-- First block, first result: the main value of the loaded blocks (the weight and bias blocks in the order the body loads them). -/
theorem pieceA5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_5 c i a1 h1 a2 h2 a3 h3 a4 h4 a5 h5 a6 h6 a7 h7 a8 h8 hc x0 x1 x2 x3 x4 = k0_pay4 x0 x1 x2 x4 x3 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S128x128) hz, View.ld_unit_zero (S := S1x128) hz]

/-- First block, second result: the zero row written first is read back and the block's column sums are added to it. -/
theorem pieceA6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_6 c i a1 h1 a2 h2 a3 h3 a4 h4 a5 h5 a6 h6 a7 h7 a8 h8 hc x0 x1 x2 x3 x4 = k0_pay5 x0 x1 x2 x4 x3 (k0_pay2 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S5000x128) hz, View.ld_unit_zero (S := S128x128) hz, View.ld_unit_zero (S := S1x128) hz]

/-- First block, third result: the same over the zero row, with the column sums of the squares. -/
theorem pieceA7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond0_0 i) (x0 : Vec F S5000x128 .f32) (x1 : Vec F S5000x128 .f32) (x2 : Vec F S128x128 .f32) (x3 : Vec F S1x128 .f32) (x4 : Vec F S128x128 .f32) :
    out0_A_7 c i a1 h1 a2 h2 a3 h3 a4 h4 a5 h5 a6 h6 a7 h7 a8 h8 hc x0 x1 x2 x3 x4 = k0_pay1 (k0_pay6 (k0_pay3 (F := F))) (k0_pay7 x0 x1 x2 x4 x3) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, View.ld_unit_zero (S := S5000x128) hz, View.ld_unit_zero (S := S128x128) hz, View.ld_unit_zero (S := S1x128) hz]

/-- A later block, first result: again the main value of the loaded blocks, whatever the one-row results hold. -/
theorem pieceB5 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 xo7 : Vec F S1x128 .f32) :
    out0_B_5 c i a1 h1 a2 h2 a3 h3 a4 h4 a5 h5 a6 h6 a7 h7 a8 h8 hc x0 x1 x2 x3 x4 xo6 xo7 = k0_pay4 x0 x1 x2 x4 x3 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S128x128) hz, View.ld_unit_zero (S := S1x128) hz]

/-- A later block, second result: the row carried from the block before plus this block's column sums. -/
theorem pieceB6 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 xo7 : Vec F S1x128 .f32) :
    out0_B_6 c i a1 h1 a2 h2 a3 h3 a4 h4 a5 h5 a6 h6 a7 h7 a8 h8 hc x0 x1 x2 x3 x4 xo6 xo7 = k0_pay5 x0 x1 x2 x4 x3 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

/-- A later block, third result: the carried row plus this block's column sums of squares. -/
theorem pieceB7 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond0_0 i) (x0 : Vec F S5000x128 .f32) (x1 : Vec F S5000x128 .f32) (x2 : Vec F S128x128 .f32) (x3 : Vec F S1x128 .f32) (x4 : Vec F S128x128 .f32) (xo6 xo7 : Vec F S1x128 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x4 x3) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread, h7.read_unread, h8.read_unread, View.ld_unit_zero (S := S5000x128) hz, View.ld_unit_zero (S := S128x128) hz, View.ld_unit_zero (S := S1x128) hz]

end Pieces

/-! ## The body's arithmetic read at an index, over the extended reals -/

section AtIndex

/-- the one contraction of the body's two products: rows of the left factor against rows of the transposed weight -/
abbrev DD := dot_S5000x128_S128x128_S5000x128_1_0_0_1_n_n

theorem lhs_axis0 (j : S5000x128.Idx) (k : DD.contr.Idx) : (DD.lhsIdx j k 0).val = (j 0).val := by
  simp [DotDims.lhsIdx, DD, dot_S5000x128_S128x128_S5000x128_1_0_0_1_n_n]; rfl
theorem lhs_axis1 (j : S5000x128.Idx) (k : DD.contr.Idx) : (DD.lhsIdx j k 1).val = (k ⟨0, by decide⟩).val :=
  DD.lhsIdx_val_of_single rfl j k
theorem rhs_axis0 (j : S5000x128.Idx) (k : DD.contr.Idx) : (DD.rhsIdx j k 0).val = (k ⟨0, by decide⟩).val :=
  DD.rhsIdx_val_of_single rfl j k
theorem rhs_axis1 (j : S5000x128.Idx) (k : DD.contr.Idx) : (DD.rhsIdx j k 1).val = (j 1).val := by
  simp [DotDims.rhsIdx, DD, dot_S5000x128_S128x128_S5000x128_1_0_0_1_n_n]; rfl

/-- A product into the zero accumulator, at row p and column q, is the sum over the shared axis. -/
theorem mm_apply {φ₁ φ₂ : FTy} (A : FVec Ideal S5000x128 φ₁) (B : FVec Ideal S128x128 φ₂) (p : Fin 5000) (q : Fin 128) :
    matmul DD none A B (constant (F := Ideal) S5000x128 .f32 0x00000000#32) (ix2 p q)
      = ∑ k : Fin 128, A (ix2 p k) * B (ix2 k q) := by
  show FloatOps.matmul DD none A B _ (ix2 p q) = _
  rw [Ideal.matmul_constant_zero_apply, ← Equiv.sum_comp (contrEquiv1 DD 128 rfl rfl).symm]
  refine Finset.sum_congr rfl fun k _ => ?_
  have ck := contrEquiv1_symm_val DD 128 rfl rfl k
  have el : DD.lhsIdx (ix2 p q) ((contrEquiv1 DD 128 rfl rfl).symm k) = ix2 p k := by
    funext ax; apply Fin.ext
    match ax with
    | ⟨0, _⟩ => exact lhs_axis0 _ _
    | ⟨1, _⟩ => exact (lhs_axis1 _ _).trans ck
  have er : DD.rhsIdx (ix2 p q) ((contrEquiv1 DD 128 rfl rfl).symm k) = ix2 k q := by
    funext ax; apply Fin.ext
    match ax with
    | ⟨0, _⟩ => exact (rhs_axis0 _ _).trans ck
    | ⟨1, _⟩ => exact rhs_axis1 _ _
  rw [el, er]

end AtIndex

section Payloads

/-- the body's main value, entry by entry: the two products and the bias row -/
theorem pay4_apply (a x : Vec Ideal S5000x128 .f32) (wl wr : Vec Ideal S128x128 .f32) (b : Vec Ideal S1x128 .f32)
    (p : Fin 5000) (q : Fin 128) :
    k0_pay4 (F := Ideal) a x wl wr b (ix2 p q)
      = ((∑ k : Fin 128, a (ix2 p k) * wl (ix2 q k)) + b (ix2 0 q)) + ∑ k : Fin 128, x (ix2 p k) * wr (ix2 q k) := by
  unfold k0_pay4
  refine (addf_apply _ _ (ix2 p q)).trans ?_
  refine congrArg₂ (· + ·) ((addf_apply _ _ (ix2 p q)).trans (congrArg₂ (· + ·) ?_ ?_)) ?_
  · refine (mm_apply _ _ p q).trans (Finset.sum_congr rfl fun k _ => congrArg₂ (· * ·) ?_ ?_)
    · exact congrFun (shapeCast_self a _) (ix2 p k)
    · exact transpose_apply [1, 0] _ _ (ix2 k q) (ix2 q k) (fun bb => match bb with | ⟨0, _⟩ => rfl | ⟨1, _⟩ => rfl)
  · refine (broadcastTo_apply _ _ (ix2 p q) (ix2 (0 : Fin 1) q) (fun aa => match aa with | ⟨0, _⟩ => rfl | ⟨1, _⟩ => rfl)).trans ?_
    exact congrFun (shapeCast_self b _) (ix2 0 q)
  · refine (mm_apply _ _ p q).trans (Finset.sum_congr rfl fun k _ => congrArg₂ (· * ·) rfl ?_)
    exact transpose_apply [1, 0] _ _ (ix2 k q) (ix2 q k) (fun bb => match bb with | ⟨0, _⟩ => rfl | ⟨1, _⟩ => rfl)

/-- a column sum into the zero accumulator, cast to one row: at column q the sum over the 5000 rows -/
theorem colsum_apply (src : FVec Ideal S5000x128 .f32) (hr : S5000x128.Reduces [0] S128) (hφ : FKind.Formats .f32)
    (hacc : (0x00000000#32 : BitVec 32) = 0x00000000#32) (hs : S128.ShapeCasts S1x128) (q : Fin 128) :
    shapeCast S1x128 (multiReduction .add [0] S128 src 0x00000000#32 hr hφ hacc) hs (ix2 0 q)
      = ∑ r : Fin 5000, src (ix2 r q) := by
  refine (shapeCast_apply _ hs (ix2 (0 : Fin 1) q) (ix1 q) ?_).trans ?_
  · rw [Shape.rowMajor_val_one, Shape.rowMajor_val_two]
    show q.val = 0 * 128 + q.val
    omega
  refine (Ideal.multiReduction_add_single src 0x00000000#32 hr hφ hacc (ix1 q)).trans ?_
  refine Finset.sum_congr rfl fun r _ => congrArg src ?_
  funext aa; apply Fin.ext
  match aa with
  | ⟨0, _⟩ => rfl
  | ⟨1, _⟩ => rfl

end Payloads

section Payloads2

/-- the running column sum after a block: what was there plus the block's column sums -/
theorem pay5_apply (a x : Vec Ideal S5000x128 .f32) (wl wr : Vec Ideal S128x128 .f32) (b acc : Vec Ideal S1x128 .f32)
    (q : Fin 128) :
    k0_pay5 (F := Ideal) a x wl wr b acc (ix2 0 q)
      = acc (ix2 0 q) + ∑ r : Fin 5000, k0_pay4 (F := Ideal) a x wl wr b (ix2 r q) := by
  unfold k0_pay5
  refine (addf_apply _ _ (ix2 0 q)).trans (congrArg₂ (· + ·) ?_ ?_)
  · exact congrFun (shapeCast_self acc _) (ix2 0 q)
  · exact colsum_apply _ _ _ _ _ q

/-- the running column sum of squares after a block -/
theorem pay1_apply (a x : Vec Ideal S5000x128 .f32) (wl wr : Vec Ideal S128x128 .f32) (b acc : Vec Ideal S1x128 .f32)
    (q : Fin 128) :
    k0_pay1 (F := Ideal) (k0_pay6 (F := Ideal) acc) (k0_pay7 (F := Ideal) a x wl wr b) (ix2 0 q)
      = acc (ix2 0 q) + ∑ r : Fin 5000, k0_pay4 (F := Ideal) a x wl wr b (ix2 r q) * k0_pay4 (F := Ideal) a x wl wr b (ix2 r q) := by
  unfold k0_pay1 k0_pay6 k0_pay7
  refine (addf_apply _ _ (ix2 0 q)).trans (congrArg₂ (· + ·) ?_ ?_)
  · exact congrFun (shapeCast_self acc _) (ix2 0 q)
  · refine (colsum_apply _ _ _ _ _ q).trans (Finset.sum_congr rfl fun r _ => ?_)
    exact mulf_apply _ _ (ix2 r q)

/-- the two zero rows written at the first block -/
theorem pay2_apply (q : Fin 128) : k0_pay2 (F := Ideal) (ix2 0 q) = 0 := Ideal.ofBits_zero_f32
theorem pay3_apply (q : Fin 128) : k0_pay3 (F := Ideal) (ix2 0 q) = 0 := Ideal.ofBits_zero_f32

end Payloads2

/-! ## The windows' blocks as rows of the arrays -/

section Blocks

/-- the five arrays the input windows read -/
abbrev arrA (c : Dev nD) : Nodes128.Idx → EReal := V c (Pipeline.arrRef spec0 0)
abbrev arrX (c : Dev nD) : Nodes128.Idx → EReal := V c (Pipeline.arrRef spec0 1)
abbrev arrWl (c : Dev nD) : Sq128.Idx → EReal := V c (Pipeline.arrRef spec0 2)
abbrev arrB (c : Dev nD) : Row128.Idx → EReal := V c (Pipeline.arrRef spec0 3)
abbrev arrWr (c : Dev nD) : Sq128.Idx → EReal := V c (Pipeline.arrRef spec0 4)

/-- and their blocks at a point -/
abbrev blkA (c : Dev nD) (t : Fin cfg0.N) : Vec Ideal S5000x128 .f32 := iblk0 V c 0 t
abbrev blkX (c : Dev nD) (t : Fin cfg0.N) : Vec Ideal S5000x128 .f32 := iblk0 V c 1 t
abbrev blkWl (c : Dev nD) (t : Fin cfg0.N) : Vec Ideal S128x128 .f32 := iblk0 V c 2 t
abbrev blkB (c : Dev nD) (t : Fin cfg0.N) : Vec Ideal S1x128 .f32 := iblk0 V c 3 t
abbrev blkWr (c : Dev nD) (t : Fin cfg0.N) : Vec Ideal S128x128 .f32 := iblk0 V c 4 t

/-- Where each window's block sits at point t: the three row-blocked windows at block row t, the others at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

theorem point_lt (t : Fin cfg0.N) : t.val < 10 := lt_of_lt_of_eq t.isLt (show cfg0.N = 10 from N_0)

/-- row r of block t is row 5000 t + r of the array -/
def rowOf (t : Fin cfg0.N) (r : Fin 5000) : Fin 50000 :=
  ⟨5000 * t.val + r.val, by have := point_lt t; have := r.isLt; omega⟩

theorem blkA_apply (c : Dev nD) (t : Fin cfg0.N) (r : Fin 5000) (k : Fin 128) :
    blkA V c t (ix2 r k) = arrA V c (ix2 (rowOf t r) k) := by
  obtain ⟨e0, e1, -⟩ := idx_facts t
  show V c (Pipeline.arrRef spec0 0) (((cfg0.win 0).blk t).view.emb (ix2 r k)) = V c (Pipeline.arrRef spec0 0) (ix2 (rowOf t r) k)
  refine congrArg _ ?_
  funext a; apply Fin.ext
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

theorem blkX_apply (c : Dev nD) (t : Fin cfg0.N) (r : Fin 5000) (k : Fin 128) :
    blkX V c t (ix2 r k) = arrX V c (ix2 (rowOf t r) k) := by
  obtain ⟨-, -, e0, e1, -⟩ := idx_facts t
  show V c (Pipeline.arrRef spec0 1) (((cfg0.win 1).blk t).view.emb (ix2 r k)) = V c (Pipeline.arrRef spec0 1) (ix2 (rowOf t r) k)
  refine congrArg _ ?_
  funext a; apply Fin.ext
  match a with
  | ⟨0, _⟩ => show win0_1.index t (0 : Fin 2) * 5000 + 1 * r.val = 5000 * t.val + r.val; rw [e0]; omega
  | ⟨1, _⟩ => show win0_1.index t (1 : Fin 2) * 128 + 1 * k.val = k.val; rw [e1]; omega

theorem blkWl_apply (c : Dev nD) (t : Fin cfg0.N) (o k : Fin 128) :
    blkWl V c t (ix2 o k) = arrWl V c (ix2 o k) := by
  obtain ⟨-, -, -, -, e0, e1, -⟩ := idx_facts t
  show V c (Pipeline.arrRef spec0 2) (((cfg0.win 2).blk t).view.emb (ix2 o k)) = V c (Pipeline.arrRef spec0 2) (ix2 o k)
  refine congrArg _ ?_
  funext a; apply Fin.ext
  match a with
  | ⟨0, _⟩ => show win0_2.index t (0 : Fin 2) * 128 + 1 * o.val = o.val; rw [e0]; omega
  | ⟨1, _⟩ => show win0_2.index t (1 : Fin 2) * 128 + 1 * k.val = k.val; rw [e1]; omega

theorem blkB_apply (c : Dev nD) (t : Fin cfg0.N) (o : Fin 128) :
    blkB V c t (ix2 0 o) = arrB V c (ix2 0 o) := by
  obtain ⟨-, -, -, -, -, -, e0, e1, -⟩ := idx_facts t
  show V c (Pipeline.arrRef spec0 3) (((cfg0.win 3).blk t).view.emb (ix2 0 o)) = V c (Pipeline.arrRef spec0 3) (ix2 0 o)
  refine congrArg _ ?_
  funext a; apply Fin.ext
  match a with
  | ⟨0, _⟩ => show win0_3.index t (0 : Fin 2) * 1 + 1 * 0 = 0; rw [e0]
  | ⟨1, _⟩ => show win0_3.index t (1 : Fin 2) * 128 + 1 * o.val = o.val; rw [e1]; omega

theorem blkWr_apply (c : Dev nD) (t : Fin cfg0.N) (o k : Fin 128) :
    blkWr V c t (ix2 o k) = arrWr V c (ix2 o k) := by
  obtain ⟨-, -, -, -, -, -, -, -, e0, e1, -⟩ := idx_facts t
  show V c (Pipeline.arrRef spec0 4) (((cfg0.win 4).blk t).view.emb (ix2 o k)) = V c (Pipeline.arrRef spec0 4) (ix2 o k)
  refine congrArg _ ?_
  funext a; apply Fin.ext
  match a with
  | ⟨0, _⟩ => show win0_4.index t (0 : Fin 2) * 128 + 1 * o.val = o.val; rw [e0]; omega
  | ⟨1, _⟩ => show win0_4.index t (1 : Fin 2) * 128 + 1 * k.val = k.val; rw [e1]; omega

/-- the body's main value at point t -/
abbrev hblk (c : Dev nD) (t : Fin cfg0.N) : Vec Ideal S5000x128 .f32 :=
  k0_pay4 (F := Ideal) (blkA V c t) (blkX V c t) (blkWl V c t) (blkWr V c t) (blkB V c t)

/-- it is the hidden layer at the block's rows -/
theorem hblk_apply (c : Dev nD) (t : Fin cfg0.N) (r : Fin 5000) (q : Fin 128) :
    hblk V c t (ix2 r q) = hidden V c (ix2 (rowOf t r) q) := by
  refine (pay4_apply (blkA V c t) (blkX V c t) (blkWl V c t) (blkWr V c t) (blkB V c t) r q).trans ?_
  show _ = ((∑ k : Fin 128, arrA V c (ix2 (rowOf t r) k) * arrWl V c (ix2 q k)) + arrB V c (ix2 0 q))
    + ∑ k : Fin 128, arrX V c (ix2 (rowOf t r) k) * arrWr V c (ix2 q k)
  exact congrArg₂ (· + ·)
    (congrArg₂ (· + ·)
      (Finset.sum_congr rfl fun k _ => congrArg₂ (· * ·) (blkA_apply V c t r k) (blkWl_apply V c t q k))
      (blkB_apply V c t q))
    (Finset.sum_congr rfl fun k _ => congrArg₂ (· * ·) (blkX_apply V c t r k) (blkWr_apply V c t q k))

end Blocks

/-! ## Regrouping a sum over all rows into the blocks' sums -/

section Regroup

/-- m consecutive runs of K terms are the first K m terms -/
theorem sum_runs {M : Type*} [AddCommMonoid M] (g : ℕ → M) (K : ℕ) :
    ∀ m : ℕ, ∑ s ∈ Finset.range m, ∑ r ∈ Finset.range K, g (K * s + r) = ∑ n ∈ Finset.range (K * m), g n
  | 0 => by simp
  | m + 1 => by rw [Finset.sum_range_succ, sum_runs g K m, Nat.mul_succ, Finset.sum_range_add]

/-- the ten blocks of 5000 rows are the 50000 rows -/
theorem sum_rows {M : Type*} [AddCommMonoid M] (g : ℕ → M) :
    ∑ s ∈ Finset.range 10, ∑ r : Fin 5000, g (5000 * s + r.val) = ∑ i : Fin 50000, g i.val :=
  calc ∑ s ∈ Finset.range 10, ∑ r : Fin 5000, g (5000 * s + r.val)
      = ∑ s ∈ Finset.range 10, ∑ r ∈ Finset.range 5000, g (5000 * s + r) :=
        Finset.sum_congr rfl fun s _ => Fin.sum_univ_eq_sum_range (fun r => g (5000 * s + r)) 5000
    _ = ∑ n ∈ Finset.range (5000 * 10), g n := sum_runs g 5000 10
    _ = ∑ i : Fin 50000, g i.val := (Fin.sum_univ_eq_sum_range g 50000).symm

/-- column q of a node array at row n, zero past the last row -/
def rowExt (H : Nodes128.Idx → EReal) (n : ℕ) (q : Fin 128) : EReal :=
  if h : n < 50000 then H (ix2 ⟨n, h⟩ q) else 0

theorem rowExt_fin (H : Nodes128.Idx → EReal) (i : Fin 50000) (q : Fin 128) : rowExt H i.val q = H (ix2 i q) :=
  dif_pos i.isLt

end Regroup

/-! ## What the three results' staging buffers hold after each point -/

section Running

/-- the first result's buffer holds the body's main value of the point's blocks, at every point -/
theorem outs5 (c : Dev nD) (t : Fin cfg0.N) : (outsAt0 V c t.val t.isLt).1 = hblk V c t := by
  by_cases h0 : t.val % 10 = 0
  · rw [outsAt0_A V c t h0]; dsimp only
    exact pieceA5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (blkA V c t) (blkX V c t) (blkWl V c t) (blkB V c t) (blkWr V c t)
  · rw [outsAt0_B V c t h0]; dsimp only
    exact pieceB5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (blkA V c t) (blkX V c t) (blkWl V c t) (blkB V c t) (blkWr V c t) (outsAt0 V c (t.val - 1) (Nat.lt_of_le_of_lt (Nat.sub_le _ _) t.isLt)).2.1 (outsAt0 V c (t.val - 1) (Nat.lt_of_le_of_lt (Nat.sub_le _ _) t.isLt)).2.2

/-- the second result's row: at the first point the block's column sums over the zero row, -/
theorem outs6_A (c : Dev nD) (t : Fin cfg0.N) (h0 : t.val % 10 = 0) :
    (outsAt0 V c t.val t.isLt).2.1
      = k0_pay5 (F := Ideal) (blkA V c t) (blkX V c t) (blkWl V c t) (blkWr V c t) (blkB V c t) (k0_pay2 (F := Ideal)) := by
  rw [outsAt0_A V c t h0]; dsimp only
  exact pieceA6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (blkA V c t) (blkX V c t) (blkWl V c t) (blkB V c t) (blkWr V c t)

/-- at a later point over the row the point before left; -/
theorem outs6_B (c : Dev nD) (t : Fin cfg0.N) (h0 : ¬t.val % 10 = 0) :
    (outsAt0 V c t.val t.isLt).2.1
      = k0_pay5 (F := Ideal) (blkA V c t) (blkX V c t) (blkWl V c t) (blkWr V c t) (blkB V c t)
          (outsAt0 V c (t.val - 1) (Nat.lt_of_le_of_lt (Nat.sub_le _ _) t.isLt)).2.1 := by
  rw [outsAt0_B V c t h0]; dsimp only
  exact pieceB6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (blkA V c t) (blkX V c t) (blkWl V c t) (blkB V c t) (blkWr V c t) (outsAt0 V c (t.val - 1) (Nat.lt_of_le_of_lt (Nat.sub_le _ _) t.isLt)).2.1 (outsAt0 V c (t.val - 1) (Nat.lt_of_le_of_lt (Nat.sub_le _ _) t.isLt)).2.2

/-- the third result's row likewise, with the squares. -/
theorem outs7_A (c : Dev nD) (t : Fin cfg0.N) (h0 : t.val % 10 = 0) :
    (outsAt0 V c t.val t.isLt).2.2
      = k0_pay1 (F := Ideal) (k0_pay6 (F := Ideal) (k0_pay3 (F := Ideal)))
          (k0_pay7 (F := Ideal) (blkA V c t) (blkX V c t) (blkWl V c t) (blkWr V c t) (blkB V c t)) := by
  rw [outsAt0_A V c t h0]; dsimp only
  exact pieceA7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (blkA V c t) (blkX V c t) (blkWl V c t) (blkB V c t) (blkWr V c t)

theorem outs7_B (c : Dev nD) (t : Fin cfg0.N) (h0 : ¬t.val % 10 = 0) :
    (outsAt0 V c t.val t.isLt).2.2
      = k0_pay1 (F := Ideal) (k0_pay6 (F := Ideal) (outsAt0 V c (t.val - 1) (Nat.lt_of_le_of_lt (Nat.sub_le _ _) t.isLt)).2.2)
          (k0_pay7 (F := Ideal) (blkA V c t) (blkX V c t) (blkWl V c t) (blkWr V c t) (blkB V c t)) := by
  rw [outsAt0_B V c t h0]; dsimp only
  exact pieceB7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (blkA V c t) (blkX V c t) (blkWl V c t) (blkB V c t) (blkWr V c t) (outsAt0 V c (t.val - 1) (Nat.lt_of_le_of_lt (Nat.sub_le _ _) t.isLt)).2.1 (outsAt0 V c (t.val - 1) (Nat.lt_of_le_of_lt (Nat.sub_le _ _) t.isLt)).2.2

/-- the block's column sums are the hidden layer's over the block's rows -/
theorem blocksum (c : Dev nD) (t : Fin cfg0.N) (q : Fin 128) :
    ∑ r : Fin 5000, hblk V c t (ix2 r q) = ∑ r : Fin 5000, rowExt (hidden V c) (5000 * t.val + r.val) q :=
  Finset.sum_congr rfl fun r _ => (hblk_apply V c t r q).trans (rowExt_fin (hidden V c) (rowOf t r) q).symm

/-- and so are the sums of squares -/
theorem blocksumsq (c : Dev nD) (t : Fin cfg0.N) (q : Fin 128) :
    ∑ r : Fin 5000, hblk V c t (ix2 r q) * hblk V c t (ix2 r q)
      = ∑ r : Fin 5000, rowExt (fun i => hidden V c i * hidden V c i) (5000 * t.val + r.val) q :=
  Finset.sum_congr rfl fun r _ => (congrArg₂ (· * ·) (hblk_apply V c t r q) (hblk_apply V c t r q)).trans
    (rowExt_fin (fun i => hidden V c i * hidden V c i) (rowOf t r) q).symm

/-- After point n the second result's row holds, at column q, the sum over the rows of blocks 0 … n. -/
theorem acc6 (c : Dev nD) (q : Fin 128) : ∀ (n : ℕ) (h : n < cfg0.N),
    (outsAt0 V c n h).2.1 (ix2 0 q)
      = ∑ s ∈ Finset.range (n + 1), ∑ r : Fin 5000, rowExt (hidden V c) (5000 * s + r.val) q
  | 0, h => by
    refine (congrFun (outs6_A V c ⟨0, h⟩ rfl) (ix2 0 q)).trans ?_
    refine (pay5_apply (blkA V c ⟨0, h⟩) (blkX V c ⟨0, h⟩) (blkWl V c ⟨0, h⟩) (blkWr V c ⟨0, h⟩) (blkB V c ⟨0, h⟩) _ q).trans ?_
    rw [pay2_apply, zero_add, Finset.sum_range_one]
    exact blocksum V c ⟨0, h⟩ q
  | n + 1, h => by
    have hB : ¬(⟨n + 1, h⟩ : Fin cfg0.N).val % 10 = 0 := by
      have := point_lt ⟨n + 1, h⟩; dsimp only at this ⊢; omega
    refine (congrFun (outs6_B V c ⟨n + 1, h⟩ hB) (ix2 0 q)).trans ?_
    refine (pay5_apply (blkA V c ⟨n + 1, h⟩) (blkX V c ⟨n + 1, h⟩) (blkWl V c ⟨n + 1, h⟩) (blkWr V c ⟨n + 1, h⟩) (blkB V c ⟨n + 1, h⟩) _ q).trans ?_
    rw [Finset.sum_range_succ _ (n + 1)]
    exact congrArg₂ (· + ·) (acc6 c q n (Nat.lt_of_succ_lt h)) (blocksum V c ⟨n + 1, h⟩ q)

/-- After point n the third result's row holds the sum of the squares over the same rows. -/
theorem acc7 (c : Dev nD) (q : Fin 128) : ∀ (n : ℕ) (h : n < cfg0.N),
    (outsAt0 V c n h).2.2 (ix2 0 q)
      = ∑ s ∈ Finset.range (n + 1), ∑ r : Fin 5000, rowExt (fun i => hidden V c i * hidden V c i) (5000 * s + r.val) q
  | 0, h => by
    refine (congrFun (outs7_A V c ⟨0, h⟩ rfl) (ix2 0 q)).trans ?_
    refine (pay1_apply (blkA V c ⟨0, h⟩) (blkX V c ⟨0, h⟩) (blkWl V c ⟨0, h⟩) (blkWr V c ⟨0, h⟩) (blkB V c ⟨0, h⟩) _ q).trans ?_
    rw [pay3_apply, zero_add, Finset.sum_range_one]
    exact blocksumsq V c ⟨0, h⟩ q
  | n + 1, h => by
    have hB : ¬(⟨n + 1, h⟩ : Fin cfg0.N).val % 10 = 0 := by
      have := point_lt ⟨n + 1, h⟩; dsimp only at this ⊢; omega
    refine (congrFun (outs7_B V c ⟨n + 1, h⟩ hB) (ix2 0 q)).trans ?_
    refine (pay1_apply (blkA V c ⟨n + 1, h⟩) (blkX V c ⟨n + 1, h⟩) (blkWl V c ⟨n + 1, h⟩) (blkWr V c ⟨n + 1, h⟩) (blkB V c ⟨n + 1, h⟩) _ q).trans ?_
    rw [Finset.sum_range_succ _ (n + 1)]
    exact congrArg₂ (· + ·) (acc7 c q n (Nat.lt_of_succ_lt h)) (blocksumsq V c ⟨n + 1, h⟩ q)

end Running

/-! ## The result arrays after the run -/

section Finals

/-- What point t writes back of the first result is block t of the hidden layer. -/
theorem hblk_eq_read (c : Dev nD) (t : Fin cfg0.N) :
    hblk V c t = ((cfg0.win 5).blk t).view.read (Elt Ideal) (hidden V c) := by
  obtain ⟨-, -, -, -, -, -, -, -, -, -, e0, e1, -⟩ := idx_facts t
  funext y
  obtain ⟨r, q, rfl⟩ : ∃ (r : Fin 5000) (q : Fin 128), y = ix2 r q := ⟨y 0, y 1, eq_ix2 y⟩
  refine (hblk_apply V c t r q).trans ?_
  show hidden V c (ix2 (rowOf t r) q) = hidden V c (((cfg0.win 5).blk t).view.emb (ix2 r q))
  refine congrArg _ ?_
  funext a; apply Fin.ext
  match a with
  | ⟨0, _⟩ => show 5000 * t.val + r.val = win0_5.index t (0 : Fin 2) * 5000 + 1 * r.val; rw [e0]; omega
  | ⟨1, _⟩ => show q.val = win0_5.index t (1 : Fin 2) * 128 + 1 * q.val; rw [e1]; omega

theorem flushed5_eq (c : Dev nD) (t : Fin cfg0.N) :
    (dat0 (F := Ideal) V c).flushed 5 t = ((cfg0.win 5).blk t).view.read (Elt Ideal) (hidden V c) := by
  show (cfg0.win 5).cut (grid0.coords t) ((dat0 (F := Ideal) V c).after 5 t) = _
  rw [after0_5, outs5]
  exact hblk_eq_read V c t

/-- the first result array ends at the hidden layer -/
theorem final5 (c : Dev nD) : (dat0 (F := Ideal) V c).arrAt 5 cfg0.N = hidden V c :=
  (dat0 (F := Ideal) V c).arrAt_eq_of_cover 5 (hidden V c) (fun t _ => flushed5_eq V c t) fun i => by
    have hi0 : (i 0).val < 50000 := (i 0).isLt
    have hi1 : (i 1).val < 128 := (i 1).isLt
    have hlt : (i 0).val / 5000 < cfg0.N := by rw [show cfg0.N = 10 from N_0]; omega
    obtain ⟨-, -, -, -, -, -, -, -, -, -, e0, e1, -⟩ := idx_facts ⟨(i 0).val / 5000, hlt⟩
    refine ⟨⟨(i 0).val / 5000, hlt⟩, flush0_5 _, ?_⟩
    show i ∈ ((View.whole main_v23_0).slice (win0_5.rect ⟨(i 0).val / 5000, hlt⟩)).set
    rw [View.set_slice_whole, Rect.mem_set_unit]
    intro a
    match a with
    | ⟨0, _⟩ =>
      show win0_5.index ⟨(i 0).val / 5000, hlt⟩ (0 : Fin 2) * 5000 ≤ (i 0).val
        ∧ (i 0).val < win0_5.index ⟨(i 0).val / 5000, hlt⟩ (0 : Fin 2) * 5000 + 5000
      rw [e0]; dsimp only; omega
    | ⟨1, _⟩ =>
      show win0_5.index ⟨(i 0).val / 5000, hlt⟩ (1 : Fin 2) * 128 ≤ (i 1).val
        ∧ (i 1).val < win0_5.index ⟨(i 0).val / 5000, hlt⟩ (1 : Fin 2) * 128 + 128
      rw [e1]; omega

/-- The block of a one-row result is the whole row, whatever the row holds. -/
theorem read6_apply (t : Fin cfg0.N) (G : Row128.Idx → EReal) (q : Fin 128) :
    ((cfg0.win 6).blk t).view.read (Elt Ideal) G (ix2 0 q) = G (ix2 0 q) := by
  obtain ⟨-, -, -, -, -, -, -, -, -, -, -, -, e0, e1, -⟩ := idx_facts t
  show G (((cfg0.win 6).blk t).view.emb (ix2 (0 : Fin 1) q)) = G (ix2 0 q)
  refine congrArg G ?_
  funext a; apply Fin.ext
  match a with
  | ⟨0, _⟩ => show win0_6.index t (0 : Fin 2) * 1 + 1 * 0 = 0; rw [e0]
  | ⟨1, _⟩ => show win0_6.index t (1 : Fin 2) * 128 + 1 * q.val = q.val; rw [e1]; omega

theorem read7_apply (t : Fin cfg0.N) (G : Row128.Idx → EReal) (q : Fin 128) :
    ((cfg0.win 7).blk t).view.read (Elt Ideal) G (ix2 0 q) = G (ix2 0 q) := by
  obtain ⟨-, -, -, -, -, -, -, -, -, -, -, -, -, -, e0, e1⟩ := idx_facts t
  show G (((cfg0.win 7).blk t).view.emb (ix2 (0 : Fin 1) q)) = G (ix2 0 q)
  refine congrArg G ?_
  funext a; apply Fin.ext
  match a with
  | ⟨0, _⟩ => show win0_7.index t (0 : Fin 2) * 1 + 1 * 0 = 0; rw [e0]
  | ⟨1, _⟩ => show win0_7.index t (1 : Fin 2) * 128 + 1 * q.val = q.val; rw [e1]; omega

/-- The one write-back of the second result, at the last point, writes the column sums over all rows. -/
theorem row6_eq (c : Dev nD) (t : Fin cfg0.N) (h9 : t.val = 9) :
    (outsAt0 V c t.val t.isLt).2.1 = ((cfg0.win 6).blk t).view.read (Elt Ideal) (colSum (hidden V c)) := by
  funext y
  obtain ⟨y0, q, rfl⟩ : ∃ (y0 : Fin 1) (q : Fin 128), y = ix2 y0 q := ⟨y 0, y 1, eq_ix2 y⟩
  obtain rfl : y0 = 0 := Subsingleton.elim _ _
  refine (acc6 V c q t.val t.isLt).trans ?_
  refine Eq.trans ?_ (read6_apply t (colSum (hidden V c)) q).symm
  rw [h9]
  show ∑ s ∈ Finset.range 10, _ = ∑ i : Fin 50000, hidden V c (ix2 i q)
  exact (sum_rows fun n => rowExt (hidden V c) n q).trans (Finset.sum_congr rfl fun i _ => rowExt_fin (hidden V c) i q)

theorem flushed6_eq (c : Dev nD) (t : Fin cfg0.N) (hf : (cfg0.win 6).flush t = true) :
    (dat0 (F := Ideal) V c).flushed 6 t = ((cfg0.win 6).blk t).view.read (Elt Ideal) (colSum (hidden V c)) := by
  have h9 : t.val = 9 := by have := (flush0_6 t).mp hf; have := point_lt t; omega
  show (cfg0.win 6).cut (grid0.coords t) ((dat0 (F := Ideal) V c).after 6 t) = _
  rw [after0_6]
  exact row6_eq V c t h9

/-- the second result array ends at the hidden layer's column sums -/
theorem final6 (c : Dev nD) : (dat0 (F := Ideal) V c).arrAt 6 cfg0.N = colSum (hidden V c) :=
  (dat0 (F := Ideal) V c).arrAt_eq_of_cover 6 (colSum (hidden V c)) (fun t hf => flushed6_eq V c t hf) fun i => by
    have hi0 : (i 0).val < 1 := (i 0).isLt
    have hi1 : (i 1).val < 128 := (i 1).isLt
    obtain ⟨-, -, -, -, -, -, -, -, -, -, -, -, e0, e1, -⟩ := idx_facts t0_9
    refine ⟨t0_9, (flush0_6 t0_9).mpr rfl, ?_⟩
    show i ∈ ((View.whole main_v23_1).slice (win0_6.rect t0_9)).set
    rw [View.set_slice_whole, Rect.mem_set_unit]
    intro a
    match a with
    | ⟨0, _⟩ =>
      show win0_6.index t0_9 (0 : Fin 2) * 1 ≤ (i 0).val ∧ (i 0).val < win0_6.index t0_9 (0 : Fin 2) * 1 + 1
      rw [e0]; omega
    | ⟨1, _⟩ =>
      show win0_6.index t0_9 (1 : Fin 2) * 128 ≤ (i 1).val ∧ (i 1).val < win0_6.index t0_9 (1 : Fin 2) * 128 + 128
      rw [e1]; omega

/-- The one write-back of the third result writes the column sums of squares over all rows. -/
theorem row7_eq (c : Dev nD) (t : Fin cfg0.N) (h9 : t.val = 9) :
    (outsAt0 V c t.val t.isLt).2.2 = ((cfg0.win 7).blk t).view.read (Elt Ideal) (colSumSq (hidden V c)) := by
  funext y
  obtain ⟨y0, q, rfl⟩ : ∃ (y0 : Fin 1) (q : Fin 128), y = ix2 y0 q := ⟨y 0, y 1, eq_ix2 y⟩
  obtain rfl : y0 = 0 := Subsingleton.elim _ _
  refine (acc7 V c q t.val t.isLt).trans ?_
  refine Eq.trans ?_ (read7_apply t (colSumSq (hidden V c)) q).symm
  rw [h9]
  show ∑ s ∈ Finset.range 10, _ = ∑ i : Fin 50000, hidden V c (ix2 i q) * hidden V c (ix2 i q)
  exact (sum_rows fun n => rowExt (fun i => hidden V c i * hidden V c i) n q).trans
    (Finset.sum_congr rfl fun i _ => rowExt_fin (fun i => hidden V c i * hidden V c i) i q)

theorem flushed7_eq (c : Dev nD) (t : Fin cfg0.N) (hf : (cfg0.win 7).flush t = true) :
    (dat0 (F := Ideal) V c).flushed 7 t = ((cfg0.win 7).blk t).view.read (Elt Ideal) (colSumSq (hidden V c)) := by
  have h9 : t.val = 9 := by have := (flush0_7 t).mp hf; have := point_lt t; omega
  show (cfg0.win 7).cut (grid0.coords t) ((dat0 (F := Ideal) V c).after 7 t) = _
  rw [after0_7]
  exact row7_eq V c t h9

/-- the third result array ends at the hidden layer's column sums of squares -/
theorem final7 (c : Dev nD) : (dat0 (F := Ideal) V c).arrAt 7 cfg0.N = colSumSq (hidden V c) :=
  (dat0 (F := Ideal) V c).arrAt_eq_of_cover 7 (colSumSq (hidden V c)) (fun t hf => flushed7_eq V c t hf) fun i => by
    have hi0 : (i 0).val < 1 := (i 0).isLt
    have hi1 : (i 1).val < 128 := (i 1).isLt
    obtain ⟨-, -, -, -, -, -, -, -, -, -, -, -, -, -, e0, e1⟩ := idx_facts t0_9
    refine ⟨t0_9, (flush0_7 t0_9).mpr rfl, ?_⟩
    show i ∈ ((View.whole main_v23_2).slice (win0_7.rect t0_9)).set
    rw [View.set_slice_whole, Rect.mem_set_unit]
    intro a
    match a with
    | ⟨0, _⟩ =>
      show win0_7.index t0_9 (0 : Fin 2) * 1 ≤ (i 0).val ∧ (i 0).val < win0_7.index t0_9 (0 : Fin 2) * 1 + 1
      rw [e0]; omega
    | ⟨1, _⟩ =>
      show win0_7.index t0_9 (1 : Fin 2) * 128 ≤ (i 1).val ∧ (i 1).val < win0_7.index t0_9 (1 : Fin 2) * 128 + 128
      rw [e1]; omega

end Finals

end Cert.KernelIdeal.Region0

end
-- ==== Proof.Region1.lean ====
/-
  The second kernel, over any contents V of the buffers at its entry: each of its ten row blocks of the result is the
  normalised activation of the block's rows, the per-feature rows read whole at every block.
-/
import proofs.«172143_j85615878078999_1_alg».proof.Proof.Gen.KernelIdeal.Frame
import proofs.«172143_j85615878078999_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Layers

variable (V : (c : Dev nD) → (b : Ref sig .tc) → Buf (Elt Ideal) ((c : Thread nD τ).loc b))

/-- The zero offsets of a whole-block access are the constant zero. -/
private theorem hz : (![0, 0] : Fin 2 → Nat) = fun _ => 0 :=
  funext fun a => by match a with | ⟨0, _⟩ => rfl | ⟨1, _⟩ => rfl

/-- The body's arithmetic at entry (p, q) of a block: with n = (γ·(h − μ))·(v + ε)^(-1/2) + β, the per-feature rows read at
    column q of their one row, the entry is (n if 0 ≤ n else a·n) + x. -/
private theorem body_apply (h x : Vec Ideal S5000x128 .f32) (μ v γ β a : Vec Ideal S1x128 .f32) (p : Fin 5000) (q : Fin 128) :
    k1_pay1 (F := Ideal) h μ v γ β a x (ix2 p q)
      = Scalar.select (FloatOps.cmpf (F := Ideal) (φ := .f32) .oge
            ((γ (ix2 0 q) * (h (ix2 p q) - μ (ix2 0 q))) * Ideal.rsqrt (v (ix2 0 q) + eps) + β (ix2 0 q))
            (Ideal.ofBits .f32 0x00000000#32))
          ((γ (ix2 0 q) * (h (ix2 p q) - μ (ix2 0 q))) * Ideal.rsqrt (v (ix2 0 q) + eps) + β (ix2 0 q))
          (a (ix2 0 q) * ((γ (ix2 0 q) * (h (ix2 p q) - μ (ix2 0 q))) * Ideal.rsqrt (v (ix2 0 q) + eps) + β (ix2 0 q)))
        + x (ix2 p q) := by
  have row : ∀ (y : Vec Ideal S1x128 .f32) (hb : S1x128.Broadcasts S5000x128),
      broadcastTo S5000x128 y hb (ix2 p q) = y (ix2 (0 : Fin 1) q) :=
    fun y hb => broadcastTo_1b_ab_apply y hb p q
  unfold k1_pay1
  simp only [shapeCast_self]
  dsimp only [addf_apply, select_apply, cmpf_apply, mulf_apply, subf_apply, broadcast_apply]
  simp only [row]
  rfl

/-- An entry of a block's result is the normalised activation at the array entry it stands for: the block's entries of h and x
    are the arrays' there, the column is the same, and the per-feature rows are the arrays' rows. -/
private theorem point_eq (H X : Nodes128.Idx → EReal) (M W Γ B A : Row128.Idx → EReal)
    (h x : Vec Ideal S5000x128 .f32) (μ v γ β a : Vec Ideal S1x128 .f32) (y : S5000x128.Idx) (i : Nodes128.Idx)
    (hh : h y = H i) (hx : x y = X i) (hq : (i 1).val = (y 1).val)
    (hμ : ∀ k : Fin 128, μ (ix2 0 k) = M (ix2 0 k)) (hv : ∀ k : Fin 128, v (ix2 0 k) = W (ix2 0 k))
    (hγ : ∀ k : Fin 128, γ (ix2 0 k) = Γ (ix2 0 k)) (hβ : ∀ k : Fin 128, β (ix2 0 k) = B (ix2 0 k))
    (ha : ∀ k : Fin 128, a (ix2 0 k) = A (ix2 0 k)) :
    k1_pay1 (F := Ideal) h μ v γ β a x y = normAct H X M W Γ B A i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  obtain rfl : q' = q := Fin.ext hq
  rw [body_apply, hh, hx, hμ, hv, hγ, hβ, ha]
  rfl

/-- The blocks' index maps over the ten points: the row-block windows (h, x and the result) sit at block (t, 0), the
    per-feature rows at block (0, 0). -/
private theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- Entry y of window 0's block at point t is the array's entry at row 5000·t + y₀, column y₁. -/
private theorem blk_read0 (c : Dev nD) (t : Fin cfg1.N) (y : S5000x128.Idx) (i : S50000x128.Idx)
    (h0 : (i 0).val = 5000 * t.val + (y 0).val) (h1 : (i 1).val = (y 1).val) :
    (iblk1 V c 0 t : Vec Ideal S5000x128 .f32) y = (V c (Pipeline.arrRef spec1 0) : S50000x128.Idx → EReal) i := by
  obtain ⟨⟨a0, b0⟩, ⟨a1, b1⟩, -⟩ := idx_facts t
  show V c (Pipeline.arrRef spec1 0) (((cfg1.win 0).blk t).view.emb y) = V c (Pipeline.arrRef spec1 0) i
  refine congrArg (V c (Pipeline.arrRef spec1 0)) (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Entry y of window 1's block at point t is the array's entry at row 5000·t + y₀, column y₁. -/
private theorem blk_read1 (c : Dev nD) (t : Fin cfg1.N) (y : S5000x128.Idx) (i : S50000x128.Idx)
    (h0 : (i 0).val = 5000 * t.val + (y 0).val) (h1 : (i 1).val = (y 1).val) :
    (iblk1 V c 1 t : Vec Ideal S5000x128 .f32) y = (V c (Pipeline.arrRef spec1 1) : S50000x128.Idx → EReal) i := by
  obtain ⟨⟨a0, b0⟩, ⟨a1, b1⟩, -⟩ := idx_facts t
  show V c (Pipeline.arrRef spec1 1) (((cfg1.win 1).blk t).view.emb y) = V c (Pipeline.arrRef spec1 1) i
  refine congrArg (V c (Pipeline.arrRef spec1 1)) (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- Window 2's block at any point is its whole one-row array. -/
private theorem row_read2 (c : Dev nD) (t : Fin cfg1.N) (k : Fin 128) :
    (iblk1 V c 2 t : Vec Ideal S1x128 .f32) (ix2 0 k) = (V c (Pipeline.arrRef spec1 2) : S1x128.Idx → EReal) (ix2 0 k) := by
  obtain ⟨-, -, ⟨a2, b2⟩, ⟨a3, b3⟩, ⟨a4, b4⟩, ⟨a5, b5⟩, ⟨a6, b6⟩, -⟩ := idx_facts t
  show V c (Pipeline.arrRef spec1 2) (((cfg1.win 2).blk t).view.emb (ix2 0 k)) = V c (Pipeline.arrRef spec1 2) (ix2 0 k)
  refine congrArg (V c (Pipeline.arrRef spec1 2)) (funext fun a => Fin.ext ?_)
  match a with
  | ⟨0, _⟩ => show win1_2.index t (0 : Fin 2) * 1 + 1 * 0 = 0; omega
  | ⟨1, _⟩ => show win1_2.index t (1 : Fin 2) * 128 + 1 * k.val = k.val; omega

/-- Window 3's block at any point is its whole one-row array. -/
private theorem row_read3 (c : Dev nD) (t : Fin cfg1.N) (k : Fin 128) :
    (iblk1 V c 3 t : Vec Ideal S1x128 .f32) (ix2 0 k) = (V c (Pipeline.arrRef spec1 3) : S1x128.Idx → EReal) (ix2 0 k) := by
  obtain ⟨-, -, ⟨a2, b2⟩, ⟨a3, b3⟩, ⟨a4, b4⟩, ⟨a5, b5⟩, ⟨a6, b6⟩, -⟩ := idx_facts t
  show V c (Pipeline.arrRef spec1 3) (((cfg1.win 3).blk t).view.emb (ix2 0 k)) = V c (Pipeline.arrRef spec1 3) (ix2 0 k)
  refine congrArg (V c (Pipeline.arrRef spec1 3)) (funext fun a => Fin.ext ?_)
  match a with
  | ⟨0, _⟩ => show win1_3.index t (0 : Fin 2) * 1 + 1 * 0 = 0; omega
  | ⟨1, _⟩ => show win1_3.index t (1 : Fin 2) * 128 + 1 * k.val = k.val; omega

/-- Window 4's block at any point is its whole one-row array. -/
private theorem row_read4 (c : Dev nD) (t : Fin cfg1.N) (k : Fin 128) :
    (iblk1 V c 4 t : Vec Ideal S1x128 .f32) (ix2 0 k) = (V c (Pipeline.arrRef spec1 4) : S1x128.Idx → EReal) (ix2 0 k) := by
  obtain ⟨-, -, ⟨a2, b2⟩, ⟨a3, b3⟩, ⟨a4, b4⟩, ⟨a5, b5⟩, ⟨a6, b6⟩, -⟩ := idx_facts t
  show V c (Pipeline.arrRef spec1 4) (((cfg1.win 4).blk t).view.emb (ix2 0 k)) = V c (Pipeline.arrRef spec1 4) (ix2 0 k)
  refine congrArg (V c (Pipeline.arrRef spec1 4)) (funext fun a => Fin.ext ?_)
  match a with
  | ⟨0, _⟩ => show win1_4.index t (0 : Fin 2) * 1 + 1 * 0 = 0; omega
  | ⟨1, _⟩ => show win1_4.index t (1 : Fin 2) * 128 + 1 * k.val = k.val; omega

/-- Window 5's block at any point is its whole one-row array. -/
private theorem row_read5 (c : Dev nD) (t : Fin cfg1.N) (k : Fin 128) :
    (iblk1 V c 5 t : Vec Ideal S1x128 .f32) (ix2 0 k) = (V c (Pipeline.arrRef spec1 5) : S1x128.Idx → EReal) (ix2 0 k) := by
  obtain ⟨-, -, ⟨a2, b2⟩, ⟨a3, b3⟩, ⟨a4, b4⟩, ⟨a5, b5⟩, ⟨a6, b6⟩, -⟩ := idx_facts t
  show V c (Pipeline.arrRef spec1 5) (((cfg1.win 5).blk t).view.emb (ix2 0 k)) = V c (Pipeline.arrRef spec1 5) (ix2 0 k)
  refine congrArg (V c (Pipeline.arrRef spec1 5)) (funext fun a => Fin.ext ?_)
  match a with
  | ⟨0, _⟩ => show win1_5.index t (0 : Fin 2) * 1 + 1 * 0 = 0; omega
  | ⟨1, _⟩ => show win1_5.index t (1 : Fin 2) * 128 + 1 * k.val = k.val; omega

/-- Window 6's block at any point is its whole one-row array. -/
private theorem row_read6 (c : Dev nD) (t : Fin cfg1.N) (k : Fin 128) :
    (iblk1 V c 6 t : Vec Ideal S1x128 .f32) (ix2 0 k) = (V c (Pipeline.arrRef spec1 6) : S1x128.Idx → EReal) (ix2 0 k) := by
  obtain ⟨-, -, ⟨a2, b2⟩, ⟨a3, b3⟩, ⟨a4, b4⟩, ⟨a5, b5⟩, ⟨a6, b6⟩, -⟩ := idx_facts t
  show V c (Pipeline.arrRef spec1 6) (((cfg1.win 6).blk t).view.emb (ix2 0 k)) = V c (Pipeline.arrRef spec1 6) (ix2 0 k)
  refine congrArg (V c (Pipeline.arrRef spec1 6)) (funext fun a => Fin.ext ?_)
  match a with
  | ⟨0, _⟩ => show win1_6.index t (0 : Fin 2) * 1 + 1 * 0 = 0; omega
  | ⟨1, _⟩ => show win1_6.index t (1 : Fin 2) * 128 + 1 * k.val = k.val; omega

/-- Entry y of the result's block at point t stands for row 5000·t + y₀, column y₁ of the result array. -/
private theorem out_emb (t : Fin cfg1.N) (y : S5000x128.Idx) :
    ((((cfg1.win 7).blk t).view.emb y : S50000x128.Idx) 0).val = 5000 * t.val + (y 0).val
      ∧ ((((cfg1.win 7).blk t).view.emb y : S50000x128.Idx) 1).val = (y 1).val := by
  obtain ⟨-, -, -, -, -, -, -, a7, b7⟩ := idx_facts t
  refine ⟨?_, ?_⟩
  · show win1_7.index t (0 : Fin 2) * 5000 + 1 * (y 0).val = _; omega
  · show win1_7.index t (1 : Fin 2) * 128 + 1 * (y 1).val = _; omega

/-- What point t writes back is block t of the normalised activation of the arrays: entry (p, q) of the block stands for row
    5000·t + p, column q, where the blocks of h and x hold the arrays' entries, and each per-feature row is read whole. -/
private theorem flushed_eq (c : Dev nD) (t : Fin cfg1.N) :
    (dat1 (F := Ideal) V c).flushed 7 t
      = ((cfg1.win 7).blk t).view.read (Elt Ideal) (normAct (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))) := by
  show (cfg1.win 7).cut (grid1.coords t) ((dat1 (F := Ideal) V c).after 7 t) = _
  rw [after1_7]
  unfold out1_7
  rw [View.canon_unit_zero hz]
  simp only [View.ld_unit_zero (S := S5000x128) hz, View.ld_unit_zero (S := S1x128) hz]
  funext j
  show k1_pay1 (F := Ideal) (iblk1 V c 0 t) (iblk1 V c 2 t) (iblk1 V c 3 t) (iblk1 V c 4 t) (iblk1 V c 5 t) (iblk1 V c 6 t) (iblk1 V c 1 t) j
      = normAct (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (((cfg1.win 7).blk t).view.emb j)
  exact point_eq (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6))
    (iblk1 V c 0 t) (iblk1 V c 1 t) (iblk1 V c 2 t) (iblk1 V c 3 t) (iblk1 V c 4 t) (iblk1 V c 5 t) (iblk1 V c 6 t)
    j (((cfg1.win 7).blk t).view.emb j)
    (blk_read0 V c t j (((cfg1.win 7).blk t).view.emb j) (out_emb t j).1 (out_emb t j).2)
    (blk_read1 V c t j (((cfg1.win 7).blk t).view.emb j) (out_emb t j).1 (out_emb t j).2)
    (out_emb t j).2
    (row_read2 V c t) (row_read3 V c t) (row_read4 V c t) (row_read5 V c t) (row_read6 V c t)

/-- An entry of the result array is in point t's block iff each coordinate is in the block's range on its axis. -/
private theorem mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v33).slice (win1_7.rect t)).set ↔ _
  rw [View.set_slice_whole, Rect.mem_set_unit]
  exact Iff.rfl

/-- Every entry of the result array is written back: row r lies in the block of point r / 5000. -/
private theorem cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, a7, b7⟩ := idx_facts t
  refine ⟨t, flush1_7 t, ?_⟩
  rw [mem_blk]
  intro a
  match a with
  | ⟨0, _⟩ =>
    show win1_7.index t (0 : Fin 2) * 5000 ≤ (i 0).val ∧ (i 0).val < win1_7.index t (0 : Fin 2) * 5000 + 5000
    omega
  | ⟨1, _⟩ =>
    show win1_7.index t (1 : Fin 2) * 128 ≤ (i 1).val ∧ (i 1).val < win1_7.index t (1 : Fin 2) * 128 + 128
    omega

/-- the result array ends at the normalised activation of the arrays the seven input windows read
    (in the windows' order: h, x, mean, variance, gamma, beta, slope) -/
theorem final7 (c : Dev nD) : (dat1 (F := Ideal) V c).arrAt 7 cfg1.N
    = normAct (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) :=
  (dat1 (F := Ideal) V c).arrAt_eq_of_cover 7 _ (fun t _ => flushed_eq V c t) cover

end Cert.KernelIdeal.Region1

end
-- ==== Proof.Region2.lean ====
/-
  The third kernel, over any contents V of the buffers at its entry: each of its ten row blocks of the result is the
  log-softmax of the output SAGE layer of the block's rows.
-/
import proofs.«172143_j85615878078999_1_alg».proof.Proof.Gen.KernelIdeal.Frame
import proofs.«172143_j85615878078999_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Idealize.ShloMosaic Idealize.ShloMosaic.TcCoe Idealize.SL.Sem Idealize.ShloMosaic.ValueIdx
open Idealize.ShloMosaic.Pipeline (Dat)
open Cert.KernelIdeal Cert.KernelIdeal.Gen Cert.Layers
open scoped BigOperators

variable (V : (c : Dev nD) → (b : Ref sig .tc) → Buf (Elt Ideal) ((c : Thread nD τ).loc b))

/-- The zero offsets of a whole-block access are the constant zero. -/
private theorem hz : (![0, 0] : Fin 2 → Nat) = fun _ => 0 :=
  funext fun a => by match a with | ⟨0, _⟩ => rfl | ⟨1, _⟩ => rfl

/-! ## The body as two steps: the output layer of the block, then its row-wise log-softmax -/

/-- The block of the output layer as the body computes it: the block of aggregated features times the transposed left
    weights, plus the bias row on every row, plus the block of own features times the transposed right weights. -/
private def layerBlk (a x : Vec Ideal S5000x128 .f32) (wl wr : Vec Ideal S16x128 .f32) (b : Vec Ideal S1x16 .f32) :
    FVec Ideal S5000x16 .f32 :=
  addf
    (addf
      (matmul dot_S5000x128_S128x16_S5000x16_1_0_0_1_n_n none
        (truncf .bf16 (shapeCast S5000x128 a shapeCasts_S5000x128_S5000x128) bitsLt_bf16_f32)
        (transpose S128x16 [1, 0] (truncf .bf16 wl bitsLt_bf16_f32) transposes_S16x128_p1_0_S128x16)
        (constant S5000x16 .f32 0x00000000#32))
      (broadcastTo S5000x16 (shapeCast S1x16 b shapeCasts_S1x16_S1x16) broadcasts_S1x16_S5000x16))
    (matmul dot_S5000x128_S128x16_S5000x16_1_0_0_1_n_n none
      (truncf .bf16 (shapeCast S5000x128 x shapeCasts_S5000x128_S5000x128) bitsLt_bf16_f32)
      (transpose S128x16 [1, 0] (truncf .bf16 wr bitsLt_bf16_f32) transposes_S16x128_p1_0_S128x16)
      (constant S5000x16 .f32 0x00000000#32))

/-- Each row's maximum (folded from −∞), as a column, spread over the row. -/
private def maxCol (z : FVec Ideal S5000x16 .f32) : FVec Ideal S5000x16 .f32 :=
  broadcastTo S5000x16
    (shapeCast S5000x1 (multiReduction .maximumf [1] S5000 z 0xFF800000#32 reduces_S5000x16_S5000 (.inl rfl) rfl)
      shapeCasts_S5000_S5000x1)
    broadcasts_S5000x1_S5000x16

/-- The row-wise log-softmax of a block as the body computes it: (z − max) − log ∑ exp (z − max), the row's sum and its
    logarithm kept as a column and spread over the row. -/
private def lsmBlk (z : FVec Ideal S5000x16 .f32) : FVec Ideal S5000x16 .f32 :=
  subf (subf z (maxCol z))
    (broadcastTo S5000x16
      (log (shapeCast S5000x1
        (multiReduction .add [1] S5000 (exp (subf z (maxCol z))) 0x00000000#32 reduces_S5000x16_S5000 (.inl rfl) rfl)
        shapeCasts_S5000_S5000x1))
      broadcasts_S5000x1_S5000x16)

/-- The body's arithmetic is the log-softmax of the output layer of its blocks. -/
private theorem pay_eq (a x : Vec Ideal S5000x128 .f32) (wl wr : Vec Ideal S16x128 .f32) (b : Vec Ideal S1x16 .f32) :
    k2_pay1 (F := Ideal) a x wl wr b = lsmBlk (layerBlk a x wl wr b) := rfl

/-! ## A product against transposed weights at an entry -/

/-- The left operand is read at the result's row, -/
private theorem lhs_axis0 (i : S5000x16.Idx) (q : dot_S5000x128_S128x16_S5000x16_1_0_0_1_n_n.contr.Idx) :
    (dot_S5000x128_S128x16_S5000x16_1_0_0_1_n_n.lhsIdx i q 0).val = (i 0).val := by
  unfold DotDims.lhsIdx
  rw [dif_neg (show ¬(0 : Fin S5000x128.rank) ∈ dot_S5000x128_S128x16_S5000x16_1_0_0_1_n_n.lhsBatch by decide),
    dif_pos (show (0 : Fin S5000x128.rank) ∈ dot_S5000x128_S128x16_S5000x16_1_0_0_1_n_n.lhsNonContracting by decide)]
  rfl
/-- and at the summed coordinate; -/
private theorem lhs_axis1 (i : S5000x16.Idx) (q : dot_S5000x128_S128x16_S5000x16_1_0_0_1_n_n.contr.Idx) :
    (dot_S5000x128_S128x16_S5000x16_1_0_0_1_n_n.lhsIdx i q 1).val = (q ⟨0, by decide⟩).val :=
  dot_S5000x128_S128x16_S5000x16_1_0_0_1_n_n.lhsIdx_val_of_single rfl i q
/-- the right operand at the summed coordinate, -/
private theorem rhs_axis0 (i : S5000x16.Idx) (q : dot_S5000x128_S128x16_S5000x16_1_0_0_1_n_n.contr.Idx) :
    (dot_S5000x128_S128x16_S5000x16_1_0_0_1_n_n.rhsIdx i q 0).val = (q ⟨0, by decide⟩).val :=
  dot_S5000x128_S128x16_S5000x16_1_0_0_1_n_n.rhsIdx_val_of_single rfl i q
/-- and at the result's column. -/
private theorem rhs_axis1 (i : S5000x16.Idx) (q : dot_S5000x128_S128x16_S5000x16_1_0_0_1_n_n.contr.Idx) :
    (dot_S5000x128_S128x16_S5000x16_1_0_0_1_n_n.rhsIdx i q 1).val = (i 1).val := by
  unfold DotDims.rhsIdx
  rw [dif_neg (show ¬(1 : Fin S128x16.rank) ∈ dot_S5000x128_S128x16_S5000x16_1_0_0_1_n_n.rhsBatch by decide),
    dif_pos (show (1 : Fin S128x16.rank) ∈ dot_S5000x128_S128x16_S5000x16_1_0_0_1_n_n.rhsNonContracting by decide)]
  rfl

/-- A product into zero at entry (p, o) is the sum over the 128 shared coordinates of the operands' products. -/
private theorem matmul_at (l : FVec Ideal S5000x128 .bf16) (r : FVec Ideal S128x16 .bf16) (p : Fin 5000) (o : Fin 16) :
    matmul dot_S5000x128_S128x16_S5000x16_1_0_0_1_n_n none l r (constant S5000x16 .f32 0x00000000#32) (ix2 p o)
      = ∑ k : Fin 128, l (ix2 p k) * r (ix2 k o) := by
  simp only [matmul]
  rw [Ideal.matmul_constant_zero_apply, ← Equiv.sum_comp (contrEquiv1 dot_S5000x128_S128x16_S5000x16_1_0_0_1_n_n 128 rfl rfl).symm]
  refine Finset.sum_congr rfl fun k _ => ?_
  have hk := contrEquiv1_symm_val dot_S5000x128_S128x16_S5000x16_1_0_0_1_n_n 128 rfl rfl k
  have el : dot_S5000x128_S128x16_S5000x16_1_0_0_1_n_n.lhsIdx (ix2 p o) ((contrEquiv1 dot_S5000x128_S128x16_S5000x16_1_0_0_1_n_n 128 rfl rfl).symm k) = ix2 p k :=
    funext fun a => Fin.ext (by
      match a with
      | ⟨0, _⟩ => exact lhs_axis0 _ _
      | ⟨1, _⟩ => exact (lhs_axis1 _ _).trans hk)
  have er : dot_S5000x128_S128x16_S5000x16_1_0_0_1_n_n.rhsIdx (ix2 p o) ((contrEquiv1 dot_S5000x128_S128x16_S5000x16_1_0_0_1_n_n 128 rfl rfl).symm k) = ix2 k o :=
    funext fun a => Fin.ext (by
      match a with
      | ⟨0, _⟩ => exact (rhs_axis0 _ _).trans hk
      | ⟨1, _⟩ => exact rhs_axis1 _ _)
  rw [el, er]

/-- So a block times the transposed weights, at entry (p, o), is ∑ₖ block(p, k)·W(o, k): the narrowing of the operands
    changes no value, and the transposed weights at (k, o) are the weights at (o, k). -/
private theorem prod_at (a : Vec Ideal S5000x128 .f32) (w : Vec Ideal S16x128 .f32) (p : Fin 5000) (o : Fin 16) :
    matmul (F := Ideal) dot_S5000x128_S128x16_S5000x16_1_0_0_1_n_n none
        (truncf .bf16 (shapeCast S5000x128 a shapeCasts_S5000x128_S5000x128) bitsLt_bf16_f32)
        (transpose S128x16 [1, 0] (truncf .bf16 w bitsLt_bf16_f32) transposes_S16x128_p1_0_S128x16)
        (constant S5000x16 .f32 0x00000000#32) (ix2 p o)
      = ∑ k : Fin 128, a (ix2 p k) * w (ix2 o k) := by
  refine (matmul_at _ _ p o).trans (Finset.sum_congr rfl fun k _ => ?_)
  rw [transpose_ix2_apply, shapeCast_self]
  rfl

/-- The output layer of the block at entry (p, o). -/
private theorem layer_at (a x : Vec Ideal S5000x128 .f32) (wl wr : Vec Ideal S16x128 .f32) (b : Vec Ideal S1x16 .f32)
    (p : Fin 5000) (o : Fin 16) :
    layerBlk a x wl wr b (ix2 p o)
      = ((∑ k : Fin 128, a (ix2 p k) * wl (ix2 o k)) + b (ix2 0 o)) + ∑ k : Fin 128, x (ix2 p k) * wr (ix2 o k) := by
  unfold layerBlk
  rw [addf_apply, addf_apply, prod_at, prod_at, broadcastTo_1b_ab_apply, shapeCast_self]

/-! ## A row's maximum and sum, kept as a column and spread over the row -/

/-- A vector of 5000 entries cast to a column reads its entry at the row. -/
private theorem col_cast (v : Vec Ideal S5000 .f32) (h : S5000.ShapeCasts S5000x1) (p : Fin 5000) (u : Fin 1) :
    shapeCast S5000x1 v h (ix2 p u) = v (ix1 p) :=
  shapeCast_apply v h _ _ (by
    have hu : u.val = 0 := by omega
    rw [Shape.rowMajor_val_two, Shape.rowMajor_val_one]
    show p.val = p.val * 1 + u.val
    omega)

/-- A column spread over 16 columns reads, at (p, o), the column's entry at row p. -/
private theorem col_bcast (v : Vec Ideal S5000x1 .f32) (h : S5000x1.Broadcasts S5000x16) (p : Fin 5000) (o : Fin 16) :
    broadcastTo S5000x16 v h (ix2 p o) = v (ix2 p (0 : Fin 1)) :=
  broadcastTo_apply v h (ix2 p o) (ix2 p (0 : Fin 1)) fun ax => by
    match ax with
    | ⟨0, _⟩ => rfl
    | ⟨1, _⟩ => rfl

/-- The index of a row's k-th entry. -/
private theorem lift_eq (h : S5000x16.Reduces [1] S5000) (p : Fin 5000) (k : Fin 16) :
    h.lift (ix1 p) k = ix2 p k :=
  funext fun c => Fin.ext (by match c with | ⟨0, _⟩ => rfl | ⟨1, _⟩ => rfl)

/-- A row's maximum: the fold of max from −∞ over the row's 16 entries. -/
private abbrev rowMaxBlk (z : FVec Ideal S5000x16 .f32) (p : Fin 5000) : EReal :=
  (Finset.univ : Finset (Fin 16)).fold max (Ideal.ofBits .f32 0xFF800000#32) (fun k => z (ix2 p k))

/-- The maximum spread over the row reads the row's maximum at every entry of the row. -/
private theorem maxCol_at (z : FVec Ideal S5000x16 .f32) (p : Fin 5000) (o : Fin 16) :
    maxCol z (ix2 p o) = rowMaxBlk z p := by
  unfold maxCol
  rw [col_bcast, col_cast]
  refine (Ideal.multiReduction_maximumf_single z _ _ _ _ (ix1 p)).trans ?_
  show (Finset.univ : Finset (Fin 16)).fold max (Ideal.ofBits .f32 0xFF800000#32)
      (fun k => z (reduces_S5000x16_S5000.lift (ix1 p) k)) = _
  exact congrArg (Finset.fold max (Ideal.ofBits .f32 0xFF800000#32) · Finset.univ)
    (funext fun k => congrArg z (lift_eq _ p k))

/-- The log-softmax of a block at entry (p, o): (z − max) − log ∑ₖ exp (zₖ − max), over row p. -/
private theorem lsm_at (z : FVec Ideal S5000x16 .f32) (p : Fin 5000) (o : Fin 16) :
    lsmBlk z (ix2 p o)
      = (z (ix2 p o) - rowMaxBlk z p) - Ideal.log (∑ k : Fin 16, Ideal.exp (z (ix2 p k) - rowMaxBlk z p)) := by
  unfold lsmBlk
  rw [subf_apply, subf_apply, maxCol_at, col_bcast]
  show _ - Ideal.log (shapeCast S5000x1 _ shapeCasts_S5000_S5000x1 (ix2 p (0 : Fin 1))) = _
  rw [col_cast]
  refine congrArg (fun s => (z (ix2 p o) - rowMaxBlk z p) - Ideal.log s) ?_
  refine (Ideal.multiReduction_add_single _ _ _ _ _ (ix1 p)).trans ?_
  show ∑ k : Fin 16, Ideal.exp (z (reduces_S5000x16_S5000.lift (ix1 p) k)
      - maxCol z (reduces_S5000x16_S5000.lift (ix1 p) k)) = _
  refine Finset.sum_congr rfl fun k _ => ?_
  rw [lift_eq, maxCol_at]

/-! ## From the blocks to the array -/

/-- An entry of a block's result is the log-softmax of the output layer at the array entry it stands for, when the block's
    rows of the two feature arrays are the arrays' rows there, the column is the same, and the weights and the bias row are
    the arrays'. -/
private theorem point_eq (A X : Nodes128.Idx → EReal) (WL : W16x128.Idx → EReal) (B : Row16.Idx → EReal)
    (WR : W16x128.Idx → EReal)
    (a x : Vec Ideal S5000x128 .f32) (wl : Vec Ideal S16x128 .f32) (b : Vec Ideal S1x16 .f32) (wr : Vec Ideal S16x128 .f32)
    (y : S5000x16.Idx) (i : Nodes16.Idx) (ho : (i 1).val = (y 1).val)
    (ha : ∀ (p : Fin 5000) (r : Fin 50000) (k : Fin 128), p.val = (y 0).val → r.val = (i 0).val → a (ix2 p k) = A (ix2 r k))
    (hx : ∀ (p : Fin 5000) (r : Fin 50000) (k : Fin 128), p.val = (y 0).val → r.val = (i 0).val → x (ix2 p k) = X (ix2 r k))
    (hwl : ∀ (o : Fin 16) (k : Fin 128), wl (ix2 o k) = WL (ix2 o k))
    (hb : ∀ o : Fin 16, b (ix2 0 o) = B (ix2 0 o))
    (hwr : ∀ (o : Fin 16) (k : Fin 128), wr (ix2 o k) = WR (ix2 o k)) :
    k2_pay1 (F := Ideal) a x wl wr b y = logSoftmax (sage16 A X WL B WR) i := by
  obtain ⟨p, o, rfl⟩ : ∃ (p : Fin 5000) (o : Fin 16), y = ix2 p o := ⟨y 0, y 1, eq_ix2 y⟩
  obtain ⟨r, o', rfl⟩ : ∃ (r : Fin 50000) (o' : Fin 16), i = ix2 r o' := ⟨i 0, i 1, eq_ix2 i⟩
  obtain rfl : o' = o := Fin.ext ho
  have ha' : ∀ k : Fin 128, a (ix2 p k) = A (ix2 r k) := fun k => ha p r k rfl rfl
  have hx' : ∀ k : Fin 128, x (ix2 p k) = X (ix2 r k) := fun k => hx p r k rfl rfl
  have hZ : ∀ k : Fin 16, layerBlk a x wl wr b (ix2 p k) = sage16 A X WL B WR (ix2 r k) := fun k => by
    rw [layer_at]
    simp only [ha', hx', hwl, hwr, hb]
    rfl
  have hM : rowMaxBlk (layerBlk a x wl wr b) p = rowMax (sage16 A X WL B WR) r :=
    congrArg (Finset.fold max (Ideal.ofBits .f32 0xFF800000#32) · Finset.univ) (funext hZ)
  rw [pay_eq, lsm_at, hM]
  simp only [hZ]
  rfl

/-- The blocks' index maps over the ten points: the row-block windows (the two feature arrays and the result) sit at block
    (t, 0), the weights and the bias row at block (0, 0). -/
private theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0) :=
  (by decide +kernel : ∀ t : Fin grid2.N, _)

/-- Entry (p, k) of window 0's block at point t is the array's entry at row 5000·t + p, column k. -/
private theorem blk_read0 (c : Dev nD) (t : Fin cfg2.N) (p : Fin 5000) (r : Fin 50000) (k : Fin 128)
    (hr : r.val = 5000 * t.val + p.val) :
    (iblk2 V c 0 t : Vec Ideal S5000x128 .f32) (ix2 p k)
      = (V c (Pipeline.arrRef spec2 0) : S50000x128.Idx → EReal) (ix2 r k) := by
  obtain ⟨⟨a0, b0⟩, ⟨a1, b1⟩, -⟩ := idx_facts t
  show V c (Pipeline.arrRef spec2 0) (((cfg2.win 0).blk t).view.emb (ix2 p k)) = V c (Pipeline.arrRef spec2 0) (ix2 r k)
  refine congrArg (V c (Pipeline.arrRef spec2 0)) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- Entry (p, k) of window 1's block at point t is the array's entry at row 5000·t + p, column k. -/
private theorem blk_read1 (c : Dev nD) (t : Fin cfg2.N) (p : Fin 5000) (r : Fin 50000) (k : Fin 128)
    (hr : r.val = 5000 * t.val + p.val) :
    (iblk2 V c 1 t : Vec Ideal S5000x128 .f32) (ix2 p k)
      = (V c (Pipeline.arrRef spec2 1) : S50000x128.Idx → EReal) (ix2 r k) := by
  obtain ⟨⟨a0, b0⟩, ⟨a1, b1⟩, -⟩ := idx_facts t
  show V c (Pipeline.arrRef spec2 1) (((cfg2.win 1).blk t).view.emb (ix2 p k)) = V c (Pipeline.arrRef spec2 1) (ix2 r k)
  refine congrArg (V c (Pipeline.arrRef spec2 1)) (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

/-- Window 2's block at any point is its whole array of weights. -/
private theorem whole_read2 (c : Dev nD) (t : Fin cfg2.N) (o : Fin 16) (k : Fin 128) :
    (iblk2 V c 2 t : Vec Ideal S16x128 .f32) (ix2 o k)
      = (V c (Pipeline.arrRef spec2 2) : S16x128.Idx → EReal) (ix2 o k) := by
  obtain ⟨-, -, ⟨a2, b2⟩, ⟨a3, b3⟩, ⟨a4, b4⟩, -⟩ := idx_facts t
  show V c (Pipeline.arrRef spec2 2) (((cfg2.win 2).blk t).view.emb (ix2 o k)) = V c (Pipeline.arrRef spec2 2) (ix2 o k)
  refine congrArg (V c (Pipeline.arrRef spec2 2)) (funext fun a => Fin.ext ?_)
  match a with
  | ⟨0, _⟩ => show win2_2.index t (0 : Fin 2) * 16 + 1 * o.val = o.val; omega
  | ⟨1, _⟩ => show win2_2.index t (1 : Fin 2) * 128 + 1 * k.val = k.val; omega

/-- Window 4's block at any point is its whole array of weights. -/
private theorem whole_read4 (c : Dev nD) (t : Fin cfg2.N) (o : Fin 16) (k : Fin 128) :
    (iblk2 V c 4 t : Vec Ideal S16x128 .f32) (ix2 o k)
      = (V c (Pipeline.arrRef spec2 4) : S16x128.Idx → EReal) (ix2 o k) := by
  obtain ⟨-, -, ⟨a2, b2⟩, ⟨a3, b3⟩, ⟨a4, b4⟩, -⟩ := idx_facts t
  show V c (Pipeline.arrRef spec2 4) (((cfg2.win 4).blk t).view.emb (ix2 o k)) = V c (Pipeline.arrRef spec2 4) (ix2 o k)
  refine congrArg (V c (Pipeline.arrRef spec2 4)) (funext fun a => Fin.ext ?_)
  match a with
  | ⟨0, _⟩ => show win2_4.index t (0 : Fin 2) * 16 + 1 * o.val = o.val; omega
  | ⟨1, _⟩ => show win2_4.index t (1 : Fin 2) * 128 + 1 * k.val = k.val; omega

/-- Window 3's block at any point is its whole one-row array. -/
private theorem row_read3 (c : Dev nD) (t : Fin cfg2.N) (o : Fin 16) :
    (iblk2 V c 3 t : Vec Ideal S1x16 .f32) (ix2 0 o) = (V c (Pipeline.arrRef spec2 3) : S1x16.Idx → EReal) (ix2 0 o) := by
  obtain ⟨-, -, -, ⟨a3, b3⟩, -⟩ := idx_facts t
  show V c (Pipeline.arrRef spec2 3) (((cfg2.win 3).blk t).view.emb (ix2 0 o)) = V c (Pipeline.arrRef spec2 3) (ix2 0 o)
  refine congrArg (V c (Pipeline.arrRef spec2 3)) (funext fun a => Fin.ext ?_)
  match a with
  | ⟨0, _⟩ => show win2_3.index t (0 : Fin 2) * 1 + 1 * 0 = 0; omega
  | ⟨1, _⟩ => show win2_3.index t (1 : Fin 2) * 16 + 1 * o.val = o.val; omega

/-- Entry y of the result's block at point t stands for row 5000·t + y₀, column y₁ of the result array. -/
private theorem out_emb (t : Fin cfg2.N) (y : S5000x16.Idx) :
    ((((cfg2.win 5).blk t).view.emb y : S50000x16.Idx) 0).val = 5000 * t.val + (y 0).val
      ∧ ((((cfg2.win 5).blk t).view.emb y : S50000x16.Idx) 1).val = (y 1).val := by
  obtain ⟨-, -, -, -, -, a5, b5⟩ := idx_facts t
  refine ⟨?_, ?_⟩
  · show win2_5.index t (0 : Fin 2) * 5000 + 1 * (y 0).val = _; omega
  · show win2_5.index t (1 : Fin 2) * 16 + 1 * (y 1).val = _; omega

/-- What point t writes back is block t of the log-softmax of the output layer of the arrays: entry (p, o) of the block stands
    for row 5000·t + p, column o; the blocks of the two feature arrays hold the arrays' rows there, and the weights and the
    bias row are read whole. -/
private theorem flushed_eq (c : Dev nD) (t : Fin cfg2.N) :
    (dat2 (F := Ideal) V c).flushed 5 t
      = ((cfg2.win 5).blk t).view.read (Elt Ideal) (logSoftmax (sage16 (V c (Pipeline.arrRef spec2 0)) (V c (Pipeline.arrRef spec2 1)) (V c (Pipeline.arrRef spec2 2)) (V c (Pipeline.arrRef spec2 3)) (V c (Pipeline.arrRef spec2 4)))) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S16x128) hz, View.ld_unit_zero (S := S1x16) hz]
  funext j
  show k2_pay1 (F := Ideal) (iblk2 V c 0 t) (iblk2 V c 1 t) (iblk2 V c 2 t) (iblk2 V c 4 t) (iblk2 V c 3 t) j
      = logSoftmax (sage16 (V c (Pipeline.arrRef spec2 0)) (V c (Pipeline.arrRef spec2 1)) (V c (Pipeline.arrRef spec2 2)) (V c (Pipeline.arrRef spec2 3)) (V c (Pipeline.arrRef spec2 4))) (((cfg2.win 5).blk t).view.emb j)
  exact point_eq (V c (Pipeline.arrRef spec2 0)) (V c (Pipeline.arrRef spec2 1)) (V c (Pipeline.arrRef spec2 2)) (V c (Pipeline.arrRef spec2 3)) (V c (Pipeline.arrRef spec2 4))
    (iblk2 V c 0 t) (iblk2 V c 1 t) (iblk2 V c 2 t) (iblk2 V c 3 t) (iblk2 V c 4 t)
    j (((cfg2.win 5).blk t).view.emb j) (out_emb t j).2
    (fun p r k hp hr => blk_read0 V c t p r k (by have := (out_emb t j).1; omega))
    (fun p r k hp hr => blk_read1 V c t p r k (by have := (out_emb t j).1; omega))
    (whole_read2 V c t) (row_read3 V c t) (whole_read4 V c t)

/-- An entry of the result array is in point t's block iff each coordinate is in the block's range on its axis. -/
private theorem mem_blk (t : Fin cfg2.N) (i : S50000x16.Idx) :
    i ∈ ((cfg2.win 5).blk t).view.set ↔ ∀ a : Fin 2, win2_5.index t a * S5000x16.size a ≤ (i a).val
      ∧ (i a).val < win2_5.index t a * S5000x16.size a + S5000x16.size a := by
  show i ∈ ((View.whole main_v47).slice (win2_5.rect t)).set ↔ _
  rw [View.set_slice_whole, Rect.mem_set_unit]
  exact Iff.rfl

/-- Every entry of the result array is written back: row r lies in the block of point r / 5000. -/
private theorem cover (i : S50000x16.Idx) :
    ∃ t : Fin cfg2.N, (cfg2.win 5).flush t = true ∧ i ∈ ((cfg2.win 5).blk t).view.set := by
  have hi0 : (i 0).val < 50000 := (i 0).isLt
  have hi1 : (i 1).val < 16 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, a5, b5⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 16 ≤ (i 1).val ∧ (i 1).val < win2_5.index t (1 : Fin 2) * 16 + 16
    omega

/-- the result array ends at the log-softmax of the output layer of the arrays the five input windows read
    (in the windows' order: aggregated features, own features, Wl, bias row, Wr) -/
theorem final5 (c : Dev nD) : (dat2 (F := Ideal) V c).arrAt 5 cfg2.N
    = logSoftmax (sage16 (V c (Pipeline.arrRef spec2 0)) (V c (Pipeline.arrRef spec2 1)) (V c (Pipeline.arrRef spec2 2))
        (V c (Pipeline.arrRef spec2 3)) (V c (Pipeline.arrRef spec2 4))) :=
  (dat2 (F := Ideal) V c).arrAt_eq_of_cover 5 _ (fun t _ => flushed_eq V c t) cover

end Cert.KernelIdeal.Region2

end
-- ==== Proof.KHost.lean ====
/-
  The kernel's program between its three kernels: the buffers each kernel finds at its entry are the host operations'
  results over the launch memory and the earlier kernels' result arrays, and the program's result buffer ends at the
  network of Proof/KStages.lean applied to the launch contents of the arguments.
-/
import proofs.«172143_j85615878078999_1_alg».proof.Proof.Gen.KernelIdeal.Frame
import proofs.«172143_j85615878078999_1_alg».proof.Proof.KStages
import proofs.«172143_j85615878078999_1_alg».proof.Proof.Region0
import proofs.«172143_j85615878078999_1_alg».proof.Proof.Region1
import proofs.«172143_j85615878078999_1_alg».proof.Proof.Region2
import Idealize.ShloMosaic.Lib.StableHlo.Run

noncomputable section

namespace Cert.KernelIdeal.HostValue

open Idealize.ShloMosaic Idealize.ShloMosaic.TcCoe Idealize.SL.Sem
open Cert.KernelIdeal Cert.KernelIdeal.Gen

variable [Cert.ReferenceIdeal.Facts]
variable (m : (ℓ : Loc nD τ sig) → Buf (Elt Ideal) ℓ) (ρ : Dev nD → PrngReg)

open Cert.ReferenceIdeal.Stages Cert.Layers

/-! ## Congruences of the layers -/

private theorem sage128_congr {A A' X X' : Nodes128.Idx → EReal} {Wl Wl' Wr Wr' : Sq128.Idx → EReal} {b b' : Row128.Idx → EReal}
    (hA : A = A') (hX : X = X') (hl : Wl = Wl') (hb : b = b') (hr : Wr = Wr') :
    sage128 A X Wl b Wr = sage128 A' X' Wl' b' Wr' := by
  subst hA hX hl hb hr; rfl

private theorem sage16_congr {A A' X X' : Nodes128.Idx → EReal} {Wl Wl' Wr Wr' : W16x128.Idx → EReal} {b b' : Row16.Idx → EReal}
    (hA : A = A') (hX : X = X') (hl : Wl = Wl') (hb : b = b') (hr : Wr = Wr') :
    sage16 A X Wl b Wr = sage16 A' X' Wl' b' Wr' := by
  subst hA hX hl hb hr; rfl

private theorem normAct_congr {H H' X X' : Nodes128.Idx → EReal} {μ μ' v v' γ γ' β β' a a' : Row128.Idx → EReal}
    (hH : H = H') (hX : X = X') (hμ : μ = μ') (hv : v = v') (hγ : γ = γ') (hβ : β = β') (ha : a = a') :
    Cert.Layers.normAct H X μ v γ β a = Cert.Layers.normAct H' X' μ' v' γ' β' a' := by
  subst hH hX hμ hv hγ hβ ha; rfl

/-! ## The argument buffers: no host operation writes one -/

/-- the eleven argument buffers -/
private abbrev argRefs : List (Ref sig .tc) :=
  [main_arg0, main_arg1, main_arg2, main_arg3, main_arg4, main_arg5, main_arg6, main_arg7, main_arg8, main_arg9, main_arg10]

section Stretches

variable (V : Valuation τ sig (Elt Ideal))

private theorem keep0 {b : Ref sig .tc} (hb : b ∈ argRefs) : StableHlo.after hostOps0 V (Proc.devRef .tc b) = V (Proc.devRef .tc b) := by
  simp only [argRefs, List.mem_cons, List.not_mem_nil, or_false] at hb
  rcases hb with rfl | rfl | rfl | rfl | rfl | rfl | rfl | rfl | rfl | rfl | rfl <;> after_results

private theorem keep0_1 {b : Ref sig .tc} (hb : b ∈ argRefs ++ [main_v1, main_v3, main_v13]) :
    StableHlo.after hostOps0_1 V (Proc.devRef .tc b) = V (Proc.devRef .tc b) := by
  simp only [argRefs, List.cons_append, List.nil_append, List.mem_cons, List.not_mem_nil, or_false] at hb
  rcases hb with rfl | rfl | rfl | rfl | rfl | rfl | rfl | rfl | rfl | rfl | rfl | rfl | rfl | rfl <;> after_results

private theorem keep0_2 {b : Ref sig .tc} (hb : b ∈ argRefs ++ [main_v1, main_v3]) :
    StableHlo.after hostOps0_2 V (Proc.devRef .tc b) = V (Proc.devRef .tc b) := by
  simp only [argRefs, List.cons_append, List.nil_append, List.mem_cons, List.not_mem_nil, or_false] at hb
  rcases hb with rfl | rfl | rfl | rfl | rfl | rfl | rfl | rfl | rfl | rfl | rfl | rfl | rfl <;> after_results

private theorem keep1 {b : Ref sig .tc} (hb : b ∈ argRefs ++ [main_v1, main_v3, main_v19, main_v23_0]) :
    StableHlo.after hostOps1 V (Proc.devRef .tc b) = V (Proc.devRef .tc b) := by
  simp only [argRefs, List.cons_append, List.nil_append, List.mem_cons, List.not_mem_nil, or_false] at hb
  rcases hb with rfl | rfl | rfl | rfl | rfl | rfl | rfl | rfl | rfl | rfl | rfl | rfl | rfl | rfl | rfl <;> after_results

private theorem keep2 {b : Ref sig .tc} (hb : b ∈ argRefs ++ [main_v33]) :
    StableHlo.after hostOps2 V (Proc.devRef .tc b) = V (Proc.devRef .tc b) := by
  simp only [argRefs, List.cons_append, List.nil_append, List.mem_cons, List.not_mem_nil, or_false] at hb
  rcases hb with rfl | rfl | rfl | rfl | rfl | rfl | rfl | rfl | rfl | rfl | rfl | rfl <;> after_results

/-! ## What each stretch of host operations writes, over any contents before it -/

private theorem ops0_v1 : StableHlo.after hostOps0 V (Proc.devRef .tc main_v1) = edgeRow0 (F := Ideal) (V (Proc.devRef .tc main_arg1)) := by
  after_results; rfl

private theorem ops0_v3 : StableHlo.after hostOps0 V (Proc.devRef .tc main_v3) = edgeRow1 (F := Ideal) (V (Proc.devRef .tc main_arg1)) := by
  after_results; rfl

private theorem ops0_v13 : StableHlo.after hostOps0 V (Proc.devRef .tc main_v13)
    = nbrSum (F := Ideal) (V (Proc.devRef .tc main_arg0)) (V (Proc.devRef .tc main_arg1)) := by
  after_results; rfl

/-- the clip of the in-degree, over the first stretch's constant and scatter -/
private theorem ops0_deg : (maximumf (broadcastInDim S50000 ![] bcast_S_S50000 (id (StableHlo.after hostOps0 V (Proc.devRef .tc main_cst_3))))
      (StableHlo.after hostOps0 V (Proc.devRef .tc main_v17)) : FVec Ideal S50000 .f32)
    = degClip (F := Ideal) (V (Proc.devRef .tc main_arg1)) := by
  after_results; rfl

private theorem ops0_1_v18 : StableHlo.after hostOps0_1 V (Proc.devRef .tc main_v18)
    = (maximumf (broadcastInDim S50000 ![] bcast_S_S50000 (id (V (Proc.devRef .tc main_cst_3)))) (V (Proc.devRef .tc main_v17)) : FVec Ideal S50000 .f32) := by
  after_results; rfl

private theorem ops0_2_v19 : StableHlo.after hostOps0_2 V (Proc.devRef .tc main_v19)
    = (broadcastInDim S50000x1 ![0] bcast_S50000_S50000x1_0 (V (Proc.devRef .tc main_v18)) : FVec Ideal S50000x1 .f32) := by
  after_results

private theorem ops0_2_v21 : StableHlo.after hostOps0_2 V (Proc.devRef .tc main_v21)
    = (Host.divf (V (Proc.devRef .tc main_v13)) (broadcastInDim S50000x128 ![0, 1] bcast_S50000x1_S50000x128_0_1
        (broadcastInDim S50000x1 ![0] bcast_S50000_S50000x1_0 (V (Proc.devRef .tc main_v18)))) : FVec Ideal S50000x128 .f32) := by
  after_results

private theorem ops0_2_v22 : StableHlo.after hostOps0_2 V (Proc.devRef .tc main_v22) = Cert.KernelOut.asRow128 (V (Proc.devRef .tc main_arg3)) := by
  after_results; rfl

private theorem ops1_v25 : StableHlo.after hostOps1 V (Proc.devRef .tc main_v25)
    = (Host.divf (V (Proc.devRef .tc main_v23_1)) (Cert.KernelOut.splatRow128 (constant (F := Ideal) S_ .f32 0x47435000#32)) : FVec Ideal S1x128 .f32) := by
  after_results

private theorem ops1_v29 : StableHlo.after hostOps1 V (Proc.devRef .tc main_v29)
    = (subf (Host.divf (V (Proc.devRef .tc main_v23_2)) (Cert.KernelOut.splatRow128 (constant (F := Ideal) S_ .f32 0x47435000#32)))
        (mulf (Host.divf (V (Proc.devRef .tc main_v23_1)) (Cert.KernelOut.splatRow128 (constant (F := Ideal) S_ .f32 0x47435000#32)))
          (Host.divf (V (Proc.devRef .tc main_v23_1)) (Cert.KernelOut.splatRow128 (constant (F := Ideal) S_ .f32 0x47435000#32)))) : FVec Ideal S1x128 .f32) := by
  after_results

private theorem ops1_v30 : StableHlo.after hostOps1 V (Proc.devRef .tc main_v30) = Cert.KernelOut.splatRow128 (V (Proc.devRef .tc main_arg10)) := by
  after_results

private theorem ops1_v31 : StableHlo.after hostOps1 V (Proc.devRef .tc main_v31) = Cert.KernelOut.asRow128 (V (Proc.devRef .tc main_arg8)) := by
  after_results; rfl

private theorem ops1_v32 : StableHlo.after hostOps1 V (Proc.devRef .tc main_v32) = Cert.KernelOut.asRow128 (V (Proc.devRef .tc main_arg9)) := by
  after_results; rfl

/-- the third stretch's neighbour mean, the edge rows and the degree column as the first stretches left them -/
private theorem ops2_v45 (ei : (⟨S2x800000, .i32⟩ : BufTy).Contents (Elt Ideal))
    (h1 : V (Proc.devRef .tc main_v1) = edgeRow0 (F := Ideal) ei) (h3 : V (Proc.devRef .tc main_v3) = edgeRow1 (F := Ideal) ei)
    (h19 : V (Proc.devRef .tc main_v19) = degCol (F := Ideal) ei) :
    StableHlo.after hostOps2 V (Proc.devRef .tc main_v45) = nbrMean (F := Ideal) (V (Proc.devRef .tc main_v33)) ei := by
  after_results_simp
  rw [h1, h3, h19]; rfl

private theorem ops2_v46 : StableHlo.after hostOps2 V (Proc.devRef .tc main_v46) = Cert.KernelOut.asRow16 (V (Proc.devRef .tc main_arg6)) := by
  after_results; rfl

end Stretches

/-! ## The boundaries' contents -/

/-- the hidden layer before normalisation, of the launch contents -/
private abbrev H1 (c : Dev nD) : FVec Ideal S50000x128 .f32 :=
  Cert.KernelOut.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- the hidden layer after normalisation, of the launch contents -/
private abbrev H2 (c : Dev nD) : FVec Ideal S50000x128 .f32 :=
  Cert.KernelOut.hidden2 (H1 m c) (m ((c.tc : Thread nD τ).loc main_arg0)) (m ((c.tc : Thread nD τ).loc main_arg8)) (m ((c.tc : Thread nD τ).loc main_arg9)) (m ((c.tc : Thread nD τ).loc main_arg10))

/-! ### The arguments stay as launched -/

private theorem W1_args (c : Dev nD) {b : Ref sig .tc} (hb : b ∈ argRefs) :
    W1 (F := Ideal) m ρ c (Proc.devRef .tc b) = m ((c.tc : Thread nD τ).loc b) :=
  keep0 (W0 m ρ c) hb

private theorem W2_args (c : Dev nD) {b : Ref sig .tc} (hb : b ∈ argRefs) :
    W2 (F := Ideal) m ρ c (Proc.devRef .tc b) = m ((c.tc : Thread nD τ).loc b) :=
  (keep0_1 (W1 m ρ c) (List.mem_append_left _ hb)).trans (W1_args m ρ c hb)

private theorem W3_args (c : Dev nD) {b : Ref sig .tc} (hb : b ∈ argRefs) :
    W3 (F := Ideal) m ρ c (Proc.devRef .tc b) = m ((c.tc : Thread nD τ).loc b) :=
  (keep0_2 (W2 m ρ c) (List.mem_append_left _ hb)).trans (W2_args m ρ c hb)

/-- across the first kernel: an argument is an input window's array, or no window's -/
private theorem W4_args (c : Dev nD) {b : Ref sig .tc} (hb : b ∈ argRefs) :
    W4 (F := Ideal) m ρ c (Proc.devRef .tc b) = m ((c.tc : Thread nD τ).loc b) := by
  refine Eq.trans ?_ (W3_args m ρ c hb)
  simp only [argRefs, List.mem_cons, List.not_mem_nil, or_false] at hb
  rcases hb with rfl | rfl | rfl | rfl | rfl | rfl | rfl | rfl | rfl | rfl | rfl
  · exact (W4_arr m ρ c 1).trans (((dat0 (V3 m ρ) c).arrAt_in 1 rfl _).trans (A_eq0 (V3 m ρ) c 1))
  · exact W4_of_ne m ρ c main_arg1 (by decide)
  · exact (W4_arr m ρ c 2).trans (((dat0 (V3 m ρ) c).arrAt_in 2 rfl _).trans (A_eq0 (V3 m ρ) c 2))
  · exact W4_of_ne m ρ c main_arg3 (by decide)
  · exact (W4_arr m ρ c 4).trans (((dat0 (V3 m ρ) c).arrAt_in 4 rfl _).trans (A_eq0 (V3 m ρ) c 4))
  · exact W4_of_ne m ρ c main_arg5 (by decide)
  · exact W4_of_ne m ρ c main_arg6 (by decide)
  · exact W4_of_ne m ρ c main_arg7 (by decide)
  · exact W4_of_ne m ρ c main_arg8 (by decide)
  · exact W4_of_ne m ρ c main_arg9 (by decide)
  · exact W4_of_ne m ρ c main_arg10 (by decide)

private theorem W5_args (c : Dev nD) {b : Ref sig .tc} (hb : b ∈ argRefs) :
    W5 (F := Ideal) m ρ c (Proc.devRef .tc b) = m ((c.tc : Thread nD τ).loc b) :=
  (keep1 (W4 m ρ c) (List.mem_append_left _ hb)).trans (W4_args m ρ c hb)

/-- across the second kernel -/
private theorem W6_args (c : Dev nD) {b : Ref sig .tc} (hb : b ∈ argRefs) :
    W6 (F := Ideal) m ρ c (Proc.devRef .tc b) = m ((c.tc : Thread nD τ).loc b) := by
  refine Eq.trans ?_ (W5_args m ρ c hb)
  simp only [argRefs, List.mem_cons, List.not_mem_nil, or_false] at hb
  rcases hb with rfl | rfl | rfl | rfl | rfl | rfl | rfl | rfl | rfl | rfl | rfl
  · exact (W6_arr m ρ c 1).trans (((dat1 (V5 m ρ) c).arrAt_in 1 rfl _).trans (A_eq1 (V5 m ρ) c 1))
  · exact W6_of_ne m ρ c main_arg1 (by decide)
  · exact W6_of_ne m ρ c main_arg2 (by decide)
  · exact W6_of_ne m ρ c main_arg3 (by decide)
  · exact W6_of_ne m ρ c main_arg4 (by decide)
  · exact W6_of_ne m ρ c main_arg5 (by decide)
  · exact W6_of_ne m ρ c main_arg6 (by decide)
  · exact W6_of_ne m ρ c main_arg7 (by decide)
  · exact W6_of_ne m ρ c main_arg8 (by decide)
  · exact W6_of_ne m ρ c main_arg9 (by decide)
  · exact W6_of_ne m ρ c main_arg10 (by decide)

private theorem W7_args (c : Dev nD) {b : Ref sig .tc} (hb : b ∈ argRefs) :
    W7 (F := Ideal) m ρ c (Proc.devRef .tc b) = m ((c.tc : Thread nD τ).loc b) :=
  (keep2 (W6 m ρ c) (List.mem_append_left _ hb)).trans (W6_args m ρ c hb)

/-! ### The edge rows and the degree column, from the first stretches to the third -/

private theorem W6_v1 (c : Dev nD) : W6 (F := Ideal) m ρ c (Proc.devRef .tc main_v1) = edgeRow0 (F := Ideal) (m ((c.tc : Thread nD τ).loc main_arg1)) :=
  (W6_of_ne m ρ c main_v1 (by decide)).trans <| (keep1 (W4 m ρ c) (b := main_v1) (by decide)).trans <|
    (W4_of_ne m ρ c main_v1 (by decide)).trans <| (keep0_2 (W2 m ρ c) (b := main_v1) (by decide)).trans <|
    (keep0_1 (W1 m ρ c) (b := main_v1) (by decide)).trans (ops0_v1 (W0 m ρ c))

private theorem W6_v3 (c : Dev nD) : W6 (F := Ideal) m ρ c (Proc.devRef .tc main_v3) = edgeRow1 (F := Ideal) (m ((c.tc : Thread nD τ).loc main_arg1)) :=
  (W6_of_ne m ρ c main_v3 (by decide)).trans <| (keep1 (W4 m ρ c) (b := main_v3) (by decide)).trans <|
    (W4_of_ne m ρ c main_v3 (by decide)).trans <| (keep0_2 (W2 m ρ c) (b := main_v3) (by decide)).trans <|
    (keep0_1 (W1 m ρ c) (b := main_v3) (by decide)).trans (ops0_v3 (W0 m ρ c))

private theorem W2_v18 (c : Dev nD) : W2 (F := Ideal) m ρ c (Proc.devRef .tc main_v18) = degClip (F := Ideal) (m ((c.tc : Thread nD τ).loc main_arg1)) :=
  (ops0_1_v18 (W1 m ρ c)).trans (ops0_deg (W0 m ρ c))

private theorem W2_v13 (c : Dev nD) : W2 (F := Ideal) m ρ c (Proc.devRef .tc main_v13) = nbrSum (F := Ideal) (m ((c.tc : Thread nD τ).loc main_arg0)) (m ((c.tc : Thread nD τ).loc main_arg1)) :=
  (keep0_1 (W1 m ρ c) (b := main_v13) (by decide)).trans (ops0_v13 (W0 m ρ c))

private theorem W3_v19 (c : Dev nD) : W3 (F := Ideal) m ρ c (Proc.devRef .tc main_v19) = degCol (F := Ideal) (m ((c.tc : Thread nD τ).loc main_arg1)) :=
  (ops0_2_v19 (W2 m ρ c)).trans (by rw [W2_v18 m ρ c]; rfl)

private theorem W6_v19 (c : Dev nD) : W6 (F := Ideal) m ρ c (Proc.devRef .tc main_v19) = degCol (F := Ideal) (m ((c.tc : Thread nD τ).loc main_arg1)) :=
  (W6_of_ne m ρ c main_v19 (by decide)).trans <| (keep1 (W4 m ρ c) (b := main_v19) (by decide)).trans <|
    (W4_of_ne m ρ c main_v19 (by decide)).trans (W3_v19 m ρ c)

/-! ### The first kernel's entry and results -/

private theorem W3_v21 (c : Dev nD) : W3 (F := Ideal) m ρ c (Proc.devRef .tc main_v21) = nbrMean (F := Ideal) (m ((c.tc : Thread nD τ).loc main_arg0)) (m ((c.tc : Thread nD τ).loc main_arg1)) :=
  (ops0_2_v21 (W2 m ρ c)).trans (by rw [W2_v13 m ρ c, W2_v18 m ρ c]; rfl)

private theorem W3_v22 (c : Dev nD) : W3 (F := Ideal) m ρ c (Proc.devRef .tc main_v22) = Cert.KernelOut.asRow128 (m ((c.tc : Thread nD τ).loc main_arg3)) :=
  (ops0_2_v22 (W2 m ρ c)).trans (congrArg Cert.KernelOut.asRow128 (W2_args m ρ c (b := main_arg3) (by decide)))

private theorem hidden0 (c : Dev nD) : Region0.hidden (V3 m ρ) c = (H1 m c) := by
  unfold H1 Cert.KernelOut.hidden
  exact sage128_congr (W3_v21 m ρ c) (W3_args m ρ c (b := main_arg0) (by decide)) (W3_args m ρ c (b := main_arg2) (by decide)) (W3_v22 m ρ c) (W3_args m ρ c (b := main_arg4) (by decide))

private theorem W4_v23_0 (c : Dev nD) : W4 (F := Ideal) m ρ c (Proc.devRef .tc main_v23_0) = (H1 m c) :=
  (W4_arr m ρ c 5).trans ((Region0.final5 (V3 m ρ) c).trans (hidden0 m ρ c))

private theorem W4_v23_1 (c : Dev nD) : W4 (F := Ideal) m ρ c (Proc.devRef .tc main_v23_1) = colSum (H1 m c) :=
  (W4_arr m ρ c 6).trans ((Region0.final6 (V3 m ρ) c).trans (congrArg colSum (hidden0 m ρ c)))

private theorem W4_v23_2 (c : Dev nD) : W4 (F := Ideal) m ρ c (Proc.devRef .tc main_v23_2) = colSumSq (H1 m c) :=
  (W4_arr m ρ c 7).trans ((Region0.final7 (V3 m ρ) c).trans (congrArg colSumSq (hidden0 m ρ c)))

/-! ### The second kernel's entry and result -/

private theorem W5_v23_0 (c : Dev nD) : W5 (F := Ideal) m ρ c (Proc.devRef .tc main_v23_0) = (H1 m c) :=
  (keep1 (W4 m ρ c) (b := main_v23_0) (by decide)).trans (W4_v23_0 m ρ c)

private theorem W5_v25 (c : Dev nD) : W5 (F := Ideal) m ρ c (Proc.devRef .tc main_v25) = Cert.KernelOut.mean (H1 m c) :=
  (ops1_v25 (W4 m ρ c)).trans (by rw [W4_v23_1 m ρ c]; rfl)

private theorem W5_v29 (c : Dev nD) : W5 (F := Ideal) m ρ c (Proc.devRef .tc main_v29) = Cert.KernelOut.var (H1 m c) :=
  (ops1_v29 (W4 m ρ c)).trans (by rw [W4_v23_1 m ρ c, W4_v23_2 m ρ c]; rfl)

private theorem W5_v30 (c : Dev nD) : W5 (F := Ideal) m ρ c (Proc.devRef .tc main_v30) = Cert.KernelOut.splatRow128 (m ((c.tc : Thread nD τ).loc main_arg10)) :=
  (ops1_v30 (W4 m ρ c)).trans (congrArg Cert.KernelOut.splatRow128 (W4_args m ρ c (b := main_arg10) (by decide)))

private theorem W5_v31 (c : Dev nD) : W5 (F := Ideal) m ρ c (Proc.devRef .tc main_v31) = Cert.KernelOut.asRow128 (m ((c.tc : Thread nD τ).loc main_arg8)) :=
  (ops1_v31 (W4 m ρ c)).trans (congrArg Cert.KernelOut.asRow128 (W4_args m ρ c (b := main_arg8) (by decide)))

private theorem W5_v32 (c : Dev nD) : W5 (F := Ideal) m ρ c (Proc.devRef .tc main_v32) = Cert.KernelOut.asRow128 (m ((c.tc : Thread nD τ).loc main_arg9)) :=
  (ops1_v32 (W4 m ρ c)).trans (congrArg Cert.KernelOut.asRow128 (W4_args m ρ c (b := main_arg9) (by decide)))

private theorem W6_v33 (c : Dev nD) : W6 (F := Ideal) m ρ c (Proc.devRef .tc main_v33) = (H2 m c) :=
  (W6_arr m ρ c 7).trans ((Region1.final7 (V5 m ρ) c).trans (by
    unfold H2 Cert.KernelOut.hidden2
    exact normAct_congr (W5_v23_0 m ρ c) (W5_args m ρ c (b := main_arg0) (by decide)) (W5_v25 m ρ c) (W5_v29 m ρ c) (W5_v31 m ρ c) (W5_v32 m ρ c)
      (W5_v30 m ρ c)))

/-! ### The third kernel's entry -/

private theorem W7_v33 (c : Dev nD) : W7 (F := Ideal) m ρ c (Proc.devRef .tc main_v33) = (H2 m c) :=
  (keep2 (W6 m ρ c) (b := main_v33) (by decide)).trans (W6_v33 m ρ c)

private theorem W7_v45 (c : Dev nD) : W7 (F := Ideal) m ρ c (Proc.devRef .tc main_v45) = nbrMean (F := Ideal) (H2 m c) (m ((c.tc : Thread nD τ).loc main_arg1)) :=
  (ops2_v45 (W6 m ρ c) (m ((c.tc : Thread nD τ).loc main_arg1)) (W6_v1 m ρ c) (W6_v3 m ρ c) (W6_v19 m ρ c)).trans
    (congrArg (fun X : FVec Ideal S50000x128 .f32 => nbrMean (F := Ideal) X (m ((c.tc : Thread nD τ).loc main_arg1))) (W6_v33 m ρ c))

private theorem W7_v46 (c : Dev nD) : W7 (F := Ideal) m ρ c (Proc.devRef .tc main_v46) = Cert.KernelOut.asRow16 (m ((c.tc : Thread nD τ).loc main_arg6)) :=
  (ops2_v46 (W6 m ρ c)).trans (congrArg Cert.KernelOut.asRow16 (W6_args m ρ c (b := main_arg6) (by decide)))

/-- The result buffer's final contents are the kernel's network of the arguments' launch contents. -/
theorem result_eq (c : Dev nD) :
    W8 (F := Ideal) m ρ c (Proc.devRef .tc main_v47) = Cert.KernelOut.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (W8_arr m ρ c 5).trans ((Region2.final5 (V7 m ρ) c).trans (by
    unfold Cert.KernelOut.out
    exact congrArg Cert.Layers.logSoftmax (sage16_congr (W7_v45 m ρ c) (W7_v33 m ρ c) (W7_args m ρ c (b := main_arg5) (by decide)) (W7_v46 m ρ c) (W7_args m ρ c (b := main_arg7) (by decide)))))

end Cert.KernelIdeal.HostValue

end
-- ==== Proof.RefRun.lean ====
/-
  The reference's run: @main's hundred host operations with its five called functions' bodies in line, every weakly
  fair execution terminating with the result buffer at the composition of Proof/RefStages.lean and the arguments unchanged.
-/
import proofs.«172143_j85615878078999_1_alg».proof.ReferenceIdeal
import proofs.«172143_j85615878078999_1_alg».proof.Proof.Gen.ReferenceIdeal
import proofs.«172143_j85615878078999_1_alg».proof.Proof.RefStages
import Idealize.ShloMosaic.Lib.StableHlo.Run
import Idealize.ShloMosaic.Lib.Tactic

noncomputable section

namespace Cert.ReferenceIdeal.Value

open Idealize.ShloMosaic Idealize.ShloMosaic.TcCoe Idealize.SL.Sem Idealize.ShloMosaic.StableHlo
open Cert.ReferenceIdeal Cert.ReferenceIdeal.Gen

variable {F : FTy → Type} [FloatOps F]

/-! ## The operations

@main's 138 operations in order, cut where the network's layers meet: a called function's operations stand at its
call site over that call's buffers, its arguments the caller's buffers as typed references. -/

/-- The first aggregation (30 operations): the edge list's two rows; the sources, a negative one wrapped; the gather
    along them and the scatter with addition at the destinations; the in-degree, clipped below at one by @clip; the
    quotient. -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S800000x1 ![0] bcast_S800000_S800000x1_0 : (⟨S800000, .i32⟩ : BufTy).Contents (Elt F) → (⟨S800000x1, .i32⟩ : BufTy).Contents (Elt F)),
    StableHlo.ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    TRef.unary (.of main_cst_3 : TRef sig ⟨S_, .f32⟩) main_call0.v0 id,
    TRef.unary main_call0.v0 main_call0.v1 (broadcastInDim S50000 ![] bcast_S_S50000),
    TRef.binary main_call0.v1 (.of main_v17 : TRef sig ⟨S50000, .f32⟩) main_call0.v2 maximumf,
    StableHlo.unary main_v18 main_v19 (broadcastInDim S50000x1 ![0] bcast_S50000_S50000x1_0 : (⟨S50000, .f32⟩ : BufTy).Contents (Elt F) → (⟨S50000x1, .f32⟩ : BufTy).Contents (Elt F)),
    StableHlo.unary main_v19 main_v20 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v20 main_v21 (Host.divf : (⟨S50000x128, .f32⟩ : BufTy).Contents (Elt F) → (⟨S50000x128, .f32⟩ : BufTy).Contents (Elt F) → (⟨S50000x128, .f32⟩ : BufTy).Contents (Elt F)) ]

/-- The hidden SAGE layer (8 operations): the two weights transposed, the two matrix products, the bias along the rows, the sums. -/
abbrev opsB : List (HloOp τ sig (Elt F)) :=
  [ StableHlo.unary main_arg2 main_v22 ((transpose S128x128 [1, 0] · transposes_S128x128_S128x128_1_0) : (⟨S128x128, .f32⟩ : BufTy).Contents (Elt F) → (⟨S128x128, .f32⟩ : BufTy).Contents (Elt F)),
    StableHlo.binary main_v21 main_v22 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg3 main_v24 (broadcastInDim S1x128 ![1] bcast_S128_S1x128_1 : (⟨S128, .f32⟩ : BufTy).Contents (Elt F) → (⟨S1x128, .f32⟩ : BufTy).Contents (Elt F)),
    StableHlo.unary main_v24 main_v25 (broadcastInDim S50000x128 ![0, 1] bcast_S1x128_S50000x128_0_1 : (⟨S1x128, .f32⟩ : BufTy).Contents (Elt F) → (⟨S50000x128, .f32⟩ : BufTy).Contents (Elt F)),
    StableHlo.binary main_v23 main_v25 main_v26 (addf : (⟨S50000x128, .f32⟩ : BufTy).Contents (Elt F) → (⟨S50000x128, .f32⟩ : BufTy).Contents (Elt F) → (⟨S50000x128, .f32⟩ : BufTy).Contents (Elt F)),
    StableHlo.unary main_arg4 main_v27 ((transpose S128x128 [1, 0] · transposes_S128x128_S128x128_1_0) : (⟨S128x128, .f32⟩ : BufTy).Contents (Elt F) → (⟨S128x128, .f32⟩ : BufTy).Contents (Elt F)),
    StableHlo.binary main_arg0 main_v27 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v26 main_v28 main_v29 (addf : (⟨S50000x128, .f32⟩ : BufTy).Contents (Elt F) → (⟨S50000x128, .f32⟩ : BufTy).Contents (Elt F) → (⟨S50000x128, .f32⟩ : BufTy).Contents (Elt F)) ]

/-- The batch statistics (28 operations): per feature the mean over the nodes, and @_var's biased variance — the mean
    again, the squared deviations' mean over the node count less zero degrees of freedom, @_where's guard on that count. -/
abbrev opsC : List (HloOp τ sig (Elt F)) :=
  [ StableHlo.nullary main_cst_4 (constant S_ .f32 0x00000000#32),
    StableHlo.binary main_v29 main_cst_4 main_v30 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_5 (constant S_ .f32 0x47435000#32),
    StableHlo.unary main_cst_5 main_v31 (broadcastInDim S128 ![] bcast_S_S128 : (⟨S_, .f32⟩ : BufTy).Contents (Elt F) → (⟨S128, .f32⟩ : BufTy).Contents (Elt F)),
    StableHlo.binary main_v30 main_v31 main_v32 (Host.divf : (⟨S128, .f32⟩ : BufTy).Contents (Elt F) → (⟨S128, .f32⟩ : BufTy).Contents (Elt F) → (⟨S128, .f32⟩ : BufTy).Contents (Elt F)),
    StableHlo.nullary main_c_6 (constantI S_ 32 0#32),
    TRef.nullary main_call1.cst (constant S_ .f32 0x00000000#32),
    TRef.binary (.of main_v29 : TRef sig ⟨S50000x128, .f32⟩) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v29 : TRef sig ⟨S50000x128, .f32⟩) main_call1.v4 main_call1.v5 subf,
    TRef.binary main_call1.v5 main_call1.v5 main_call1.v6 mulf,
    TRef.unary (.of main_c_6 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- The normalised activation (23 operations): the centred layer scaled, over the root of the variance plus ε, shifted;
    @_where_0's leaky rectifier; the residual. -/
abbrev opsD : List (HloOp τ sig (Elt F)) :=
  [ StableHlo.unary main_v32 main_v34 (broadcastInDim S1x128 ![1] bcast_S128_S1x128_1 : (⟨S128, .f32⟩ : BufTy).Contents (Elt F) → (⟨S1x128, .f32⟩ : BufTy).Contents (Elt F)),
    StableHlo.unary main_v34 main_v35 (broadcastInDim S50000x128 ![0, 1] bcast_S1x128_S50000x128_0_1 : (⟨S1x128, .f32⟩ : BufTy).Contents (Elt F) → (⟨S50000x128, .f32⟩ : BufTy).Contents (Elt F)),
    StableHlo.binary main_v29 main_v35 main_v36 (subf : (⟨S50000x128, .f32⟩ : BufTy).Contents (Elt F) → (⟨S50000x128, .f32⟩ : BufTy).Contents (Elt F) → (⟨S50000x128, .f32⟩ : BufTy).Contents (Elt F)),
    StableHlo.unary main_arg8 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v38 main_v36 main_v39 (mulf : (⟨S50000x128, .f32⟩ : BufTy).Contents (Elt F) → (⟨S50000x128, .f32⟩ : BufTy).Contents (Elt F) → (⟨S50000x128, .f32⟩ : BufTy).Contents (Elt F)),
    StableHlo.nullary main_cst_7 (constant S_ .f32 0x3727C5AC#32),
    StableHlo.unary main_cst_7 main_v40 (broadcastInDim S128 ![] bcast_S_S128 : (⟨S_, .f32⟩ : BufTy).Contents (Elt F) → (⟨S128, .f32⟩ : BufTy).Contents (Elt F)),
    StableHlo.binary main_v33 main_v40 main_v41 (addf : (⟨S128, .f32⟩ : BufTy).Contents (Elt F) → (⟨S128, .f32⟩ : BufTy).Contents (Elt F) → (⟨S128, .f32⟩ : BufTy).Contents (Elt F)),
    StableHlo.unary main_v41 main_v42 (Host.sqrt : (⟨S128, .f32⟩ : BufTy).Contents (Elt F) → (⟨S128, .f32⟩ : BufTy).Contents (Elt F)),
    StableHlo.unary main_v42 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v44 main_v45 (Host.divf : (⟨S50000x128, .f32⟩ : BufTy).Contents (Elt F) → (⟨S50000x128, .f32⟩ : BufTy).Contents (Elt F) → (⟨S50000x128, .f32⟩ : BufTy).Contents (Elt F)),
    StableHlo.unary main_arg9 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S50000x128 ![0, 1] bcast_S1x128_S50000x128_0_1 : (⟨S1x128, .f32⟩ : BufTy).Contents (Elt F) → (⟨S50000x128, .f32⟩ : BufTy).Contents (Elt F)),
    StableHlo.binary main_v45 main_v47 main_v48 (addf : (⟨S50000x128, .f32⟩ : BufTy).Contents (Elt F) → (⟨S50000x128, .f32⟩ : BufTy).Contents (Elt F) → (⟨S50000x128, .f32⟩ : BufTy).Contents (Elt F)),
    StableHlo.nullary main_cst_8 (constant S_ .f32 0x00000000#32),
    StableHlo.unary main_cst_8 main_v49 (broadcastInDim S50000x128 ![] bcast_S_S50000x128 : (⟨S_, .f32⟩ : BufTy).Contents (Elt F) → (⟨S50000x128, .f32⟩ : BufTy).Contents (Elt F)),
    StableHlo.binary main_v48 main_v49 main_v50 (cmpf .oge : (⟨S50000x128, .f32⟩ : BufTy).Contents (Elt F) → (⟨S50000x128, .f32⟩ : BufTy).Contents (Elt F) → (⟨S50000x128, .i1⟩ : BufTy).Contents (Elt F)),
    StableHlo.unary main_arg10 main_v51 (broadcastInDim S50000x128 ![] bcast_S_S50000x128 : (⟨S_, .f32⟩ : BufTy).Contents (Elt F) → (⟨S50000x128, .f32⟩ : BufTy).Contents (Elt F)),
    StableHlo.binary main_v51 main_v48 main_v52 (mulf : (⟨S50000x128, .f32⟩ : BufTy).Contents (Elt F) → (⟨S50000x128, .f32⟩ : BufTy).Contents (Elt F) → (⟨S50000x128, .f32⟩ : BufTy).Contents (Elt F)),
    TRef.ternary (.of main_v50 : TRef sig ⟨S50000x128, .i1⟩) (.of main_v48 : TRef sig ⟨S50000x128, .f32⟩) (.of main_v52 : TRef sig ⟨S50000x128, .f32⟩) main_call2.v0 select,
    StableHlo.binary main_v53 main_arg0 main_v54 (addf : (⟨S50000x128, .f32⟩ : BufTy).Contents (Elt F) → (⟨S50000x128, .f32⟩ : BufTy).Contents (Elt F) → (⟨S50000x128, .f32⟩ : BufTy).Contents (Elt F)) ]

/-- The second aggregation (26 operations): as the first, of the activation, along the same two rows of the edge list. -/
abbrev opsE : List (HloOp τ sig (Elt F)) :=
  [ StableHlo.nullary main_c_9 (constantI S_ 32 0#32),
    StableHlo.unary main_c_9 main_v55 (broadcastInDim S800000 ![] bcast_S_S800000 : (⟨S_, .i32⟩ : BufTy).Contents (Elt F) → (⟨S800000, .i32⟩ : BufTy).Contents (Elt F)),
    StableHlo.binary main_v1 main_v55 main_v56 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v57 (broadcastInDim S800000 ![] bcast_S_S800000 : (⟨S_, .i32⟩ : BufTy).Contents (Elt F) → (⟨S800000, .i32⟩ : BufTy).Contents (Elt F)),
    StableHlo.binary main_v1 main_v57 main_v58 (addi : (⟨S800000, .i32⟩ : BufTy).Contents (Elt F) → (⟨S800000, .i32⟩ : BufTy).Contents (Elt F) → (⟨S800000, .i32⟩ : BufTy).Contents (Elt F)),
    StableHlo.ternary main_v56 main_v58 main_v1 main_v59 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v59 main_v60 (broadcastInDim S800000x1 ![0] bcast_S800000_S800000x1_0 : (⟨S800000, .i32⟩ : BufTy).Contents (Elt F) → (⟨S800000x1, .i32⟩ : BufTy).Contents (Elt F)),
    StableHlo.binary main_v54 main_v60 main_v61 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_11 (constant S_ .f32 0x00000000#32),
    StableHlo.unary main_cst_11 main_v62 (broadcastInDim S50000x128 ![] bcast_S_S50000x128 : (⟨S_, .f32⟩ : BufTy).Contents (Elt F) → (⟨S50000x128, .f32⟩ : BufTy).Contents (Elt F)),
    StableHlo.unary main_v3 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_12 (constant S_ .f32 0x3F800000#32),
    StableHlo.unary main_cst_12 main_v65 (broadcastInDim S800000 ![] bcast_S_S800000 : (⟨S_, .f32⟩ : BufTy).Contents (Elt F) → (⟨S800000, .f32⟩ : BufTy).Contents (Elt F)),
    StableHlo.nullary main_cst_13 (constant S_ .f32 0x00000000#32),
    StableHlo.unary main_cst_13 main_v66 (broadcastInDim S50000 ![] bcast_S_S50000 : (⟨S_, .f32⟩ : BufTy).Contents (Elt F) → (⟨S50000, .f32⟩ : BufTy).Contents (Elt F)),
    StableHlo.unary main_v3 main_v67 (broadcastInDim S800000x1 ![0] bcast_S800000_S800000x1_0 : (⟨S800000, .i32⟩ : BufTy).Contents (Elt F) → (⟨S800000x1, .i32⟩ : BufTy).Contents (Elt F)),
    StableHlo.ternary main_v66 main_v67 main_v65 main_v68 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_14 (constant S_ .f32 0x3F800000#32),
    TRef.unary (.of main_cst_14 : TRef sig ⟨S_, .f32⟩) main_call3.v0 id,
    TRef.unary main_call3.v0 main_call3.v1 (broadcastInDim S50000 ![] bcast_S_S50000),
    TRef.binary main_call3.v1 (.of main_v68 : TRef sig ⟨S50000, .f32⟩) main_call3.v2 maximumf,
    StableHlo.unary main_v69 main_v70 (broadcastInDim S50000x1 ![0] bcast_S50000_S50000x1_0 : (⟨S50000, .f32⟩ : BufTy).Contents (Elt F) → (⟨S50000x1, .f32⟩ : BufTy).Contents (Elt F)),
    StableHlo.unary main_v70 main_v71 (broadcastInDim S50000x128 ![0, 1] bcast_S50000x1_S50000x128_0_1 : (⟨S50000x1, .f32⟩ : BufTy).Contents (Elt F) → (⟨S50000x128, .f32⟩ : BufTy).Contents (Elt F)),
    StableHlo.binary main_v64 main_v71 main_v72 (Host.divf : (⟨S50000x128, .f32⟩ : BufTy).Contents (Elt F) → (⟨S50000x128, .f32⟩ : BufTy).Contents (Elt F) → (⟨S50000x128, .f32⟩ : BufTy).Contents (Elt F)) ]

/-- The output SAGE layer (8 operations). -/
abbrev opsF : List (HloOp τ sig (Elt F)) :=
  [ StableHlo.unary main_arg5 main_v73 ((transpose S128x16 [1, 0] · transposes_S16x128_S128x16_1_0) : (⟨S16x128, .f32⟩ : BufTy).Contents (Elt F) → (⟨S128x16, .f32⟩ : BufTy).Contents (Elt F)),
    StableHlo.binary main_v72 main_v73 main_v74 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.unary main_arg6 main_v75 (broadcastInDim S1x16 ![1] bcast_S16_S1x16_1 : (⟨S16, .f32⟩ : BufTy).Contents (Elt F) → (⟨S1x16, .f32⟩ : BufTy).Contents (Elt F)),
    StableHlo.unary main_v75 main_v76 (broadcastInDim S50000x16 ![0, 1] bcast_S1x16_S50000x16_0_1 : (⟨S1x16, .f32⟩ : BufTy).Contents (Elt F) → (⟨S50000x16, .f32⟩ : BufTy).Contents (Elt F)),
    StableHlo.binary main_v74 main_v76 main_v77 (addf : (⟨S50000x16, .f32⟩ : BufTy).Contents (Elt F) → (⟨S50000x16, .f32⟩ : BufTy).Contents (Elt F) → (⟨S50000x16, .f32⟩ : BufTy).Contents (Elt F)),
    StableHlo.unary main_arg7 main_v78 ((transpose S128x16 [1, 0] · transposes_S16x128_S128x16_1_0) : (⟨S16x128, .f32⟩ : BufTy).Contents (Elt F) → (⟨S128x16, .f32⟩ : BufTy).Contents (Elt F)),
    StableHlo.binary main_v54 main_v78 main_v79 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    StableHlo.binary main_v77 main_v79 main_v80 (addf : (⟨S50000x16, .f32⟩ : BufTy).Contents (Elt F) → (⟨S50000x16, .f32⟩ : BufTy).Contents (Elt F) → (⟨S50000x16, .f32⟩ : BufTy).Contents (Elt F)) ]

/-- @log_softmax (15 operations): the row maximum, the shift by it, the logarithm of the row sum of exponentials, the difference. -/
abbrev opsG : List (HloOp τ sig (Elt F)) :=
  [ TRef.nullary main_call4.cst (constant S_ .f32 0xFF800000#32),
    TRef.binary (.of main_v80 : TRef sig ⟨S50000x16, .f32⟩) main_call4.cst main_call4.v0 (fun x v => Host.reduce FloatOps.maximumf x v reducesTo_S50000x16_S50000_d1 h_S_),
    TRef.nullary main_call4.cst_0 (constant S_ .f32 0xFF800000#32),
    TRef.unary main_call4.cst_0 main_call4.v1 (broadcastInDim S50000 ![] bcast_S_S50000),
    TRef.binary main_call4.v1 main_call4.v0 main_call4.v2 maximumf,
    TRef.unary main_call4.v2 main_call4.v3 (broadcastInDim S50000x1 ![0] bcast_S50000_S50000x1_0),
    TRef.unary main_call4.v3 main_call4.v4 (broadcastInDim S50000x16 ![0, 1] bcast_S50000x1_S50000x16_0_1),
    TRef.binary (.of main_v80 : TRef sig ⟨S50000x16, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S50000x16_S50000_d1 h_S_),
    TRef.unary main_call4.v7 main_call4.v8 (broadcastInDim S50000x1 ![0] bcast_S50000_S50000x1_0),
    TRef.unary main_call4.v8 main_call4.v9 Host.log,
    TRef.unary main_call4.v9 main_call4.v10 (broadcastInDim S50000x16 ![0, 1] bcast_S50000x1_S50000x16_0_1),
    TRef.binary main_call4.v5 main_call4.v10 main_call4.v11 subf ]

/-- @main's operations, in order. -/
abbrev ops : List (HloOp τ sig (Elt F)) := opsA ++ (opsB ++ (opsC ++ (opsD ++ (opsE ++ (opsF ++ opsG)))))

/-! ## @main is that line -/

-- 138 binds re-associated: the rewrite under the chain recurses once per statement
set_option maxRecDepth 8192 in
set_option maxHeartbeats 4000000 in
/-- @main is the straight line of those operations: the two windows and the five functions' bodies unfolded, the records
    read at their fields, both sides are one chain of steps once sequencing is re-associated. -/
theorem main_eq (c : Dev nD) : main (F := F) c = seq ops := by
  simp only [main, main_part0, main_part1, fn_clip.body, fn_var.body, fn_where.body, fn_where_0.body, fn_log_softmax.body,
    seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and none leaves its result unchosen: layer by layer. -/

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., unary_bufs_sub .., binary_bufs_sub .., unary_bufs_sub .., unary_bufs_sub .., binary_bufs_sub ..⟩
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opsB_sub : (opsB : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub ..⟩
theorem opsB_fresh : (opsB : List (HloOp τ sig (Elt F))).Forall fun op => op.fresh = ∅ :=
  ⟨rfl, rfl, rfl, rfl, rfl, rfl, rfl, rfl⟩

theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub ..⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

theorem opsD_sub : (opsD : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., ternary_bufs_sub .., binary_bufs_sub ..⟩
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., unary_bufs_sub .., binary_bufs_sub .., unary_bufs_sub ..,
    unary_bufs_sub .., binary_bufs_sub ..⟩
theorem opsE_fresh : (opsE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem opsF_sub : (opsF : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub ..⟩
theorem opsF_fresh : (opsF : List (HloOp τ sig (Elt F))).Forall fun op => op.fresh = ∅ :=
  ⟨rfl, rfl, rfl, rfl, rfl, rfl, rfl, rfl⟩

theorem opsG_sub : (opsG : List (HloOp τ sig (Elt F))).Forall fun op => op.bufs ⊆ tcRefs τ sig :=
  ⟨nullary_bufs_sub .., binary_bufs_sub .., nullary_bufs_sub .., unary_bufs_sub .., binary_bufs_sub .., unary_bufs_sub ..,
    unary_bufs_sub .., binary_bufs_sub .., unary_bufs_sub .., nullary_bufs_sub .., binary_bufs_sub .., unary_bufs_sub ..,
    unary_bufs_sub .., unary_bufs_sub .., binary_bufs_sub ..⟩
theorem opsG_fresh : (opsG : List (HloOp τ sig (Elt F))).Forall fun op => op.fresh = ∅ :=
  ⟨rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_append.mpr ⟨opsA_sub, List.forall_append.mpr ⟨opsB_sub, List.forall_append.mpr ⟨opsC_sub,
    List.forall_append.mpr ⟨opsD_sub, List.forall_append.mpr ⟨opsE_sub, List.forall_append.mpr ⟨opsF_sub, opsG_sub⟩⟩⟩⟩⟩⟩
theorem ops_fresh : (ops : List (HloOp τ sig (Elt F))).Forall fun op => op.fresh = ∅ :=
  List.forall_append.mpr ⟨opsA_fresh, List.forall_append.mpr ⟨opsB_fresh, List.forall_append.mpr ⟨opsC_fresh,
    List.forall_append.mpr ⟨opsD_fresh, List.forall_append.mpr ⟨opsE_fresh, List.forall_append.mpr ⟨opsF_fresh, opsG_fresh⟩⟩⟩⟩⟩⟩

/-- Every weakly fair execution of @main terminates with each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## The fold, layer by layer

What the result buffer holds after the line is computed one layer at a time, from ANY contents W before the layer:
each layer's value is a stage of Proof/RefStages.lean of the buffers it reads, and a buffer it does not write is as
before. The whole fold is then the layers' composition. -/

/-- The fold over two lines in a row. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A result buffer among a list's is written inside that list's buffers. -/
private theorem writes_sub_of_mem {L : List (Ref sig .tc)} {y : Ref sig .tc} (h : y ∈ L) :
    ({Proc.devRef .tc y} : Finset (DevRef τ sig)) ⊆ (L.map (Proc.devRef (τ := τ) .tc)).toFinset :=
  Finset.singleton_subset_iff.mpr (List.mem_toFinset.mpr (List.mem_map_of_mem h))

local macro "w!" : term => `(writes_sub_of_mem (by decide))

/-- The buffers each layer writes. -/
abbrev wrA : List (Ref sig .tc) :=
  [main_v0, main_v1, main_v2, main_v3, main_c, main_v4, main_v5, main_c_0, main_v6, main_v7, main_v8, main_v9, main_v10, main_cst,
    main_v11, main_v12, main_v13, main_cst_1, main_v14, main_cst_2, main_v15, main_v16, main_v17, main_cst_3, main_call0_v0,
    main_call0_v1, main_v18, main_v19, main_v20, main_v21]
abbrev wrB : List (Ref sig .tc) := [main_v22, main_v23, main_v24, main_v25, main_v26, main_v27, main_v28, main_v29]
abbrev wrC : List (Ref sig .tc) :=
  [main_cst_4, main_v30, main_cst_5, main_v31, main_v32, main_c_6, main_call1_cst, main_call1_v0, main_call1_v1, main_call1_cst_0,
    main_call1_v2, main_call1_v3, main_call1_v4, main_call1_v5, main_call1_v6, main_call1_v7, main_call1_cst_1, main_call1_v8,
    main_call1_cst_2, main_call1_v9, main_call1_v10, main_call1_v11, main_call1_cst_3, main_call1_v12, main_call1_cst_4,
    main_call1_call0_v0, main_call1_call0_v1, main_v33]
abbrev wrD : List (Ref sig .tc) :=
  [main_v34, main_v35, main_v36, main_v37, main_v38, main_v39, main_cst_7, main_v40, main_v41, main_v42, main_v43, main_v44,
    main_v45, main_v46, main_v47, main_v48, main_cst_8, main_v49, main_v50, main_v51, main_v52, main_v53, main_v54]
abbrev wrE : List (Ref sig .tc) :=
  [main_c_9, main_v55, main_v56, main_c_10, main_v57, main_v58, main_v59, main_v60, main_v61, main_cst_11, main_v62, main_v63,
    main_v64, main_cst_12, main_v65, main_cst_13, main_v66, main_v67, main_v68, main_cst_14, main_call3_v0, main_call3_v1,
    main_v69, main_v70, main_v71, main_v72]
abbrev wrF : List (Ref sig .tc) := [main_v73, main_v74, main_v75, main_v76, main_v77, main_v78, main_v79, main_v80]
abbrev wrG : List (Ref sig .tc) :=
  [main_call4_cst, main_call4_v0, main_call4_cst_0, main_call4_v1, main_call4_v2, main_call4_v3, main_call4_v4, main_call4_v5,
    main_call4_v6, main_call4_cst_1, main_call4_v7, main_call4_v8, main_call4_v9, main_call4_v10, main_v81]

theorem wrA_sub : (opsA : List (HloOp τ sig (Elt F))).Forall fun op => op.writes ⊆ (wrA.map (Proc.devRef (τ := τ) .tc)).toFinset :=
  ⟨w!, w!, w!, w!, w!, w!, w!, w!, w!, w!, w!, w!, w!, w!, w!, w!, w!, w!, w!, w!, w!, w!, w!, w!, w!, w!, w!, w!, w!, w!⟩
/-- A buffer layer A does not write is as before it. -/
theorem frameA (W : Valuation τ sig (Elt F)) {r : Ref sig .tc} (hr : r ∉ wrA) :
    after opsA W (no_index (Proc.devRef .tc r)) = W (Proc.devRef .tc r) :=
  after_of_writes_sub opsA W wrA_sub hr

theorem wrB_sub : (opsB : List (HloOp τ sig (Elt F))).Forall fun op => op.writes ⊆ (wrB.map (Proc.devRef (τ := τ) .tc)).toFinset :=
  ⟨w!, w!, w!, w!, w!, w!, w!, w!⟩
/-- A buffer layer B does not write is as before it. -/
theorem frameB (W : Valuation τ sig (Elt F)) {r : Ref sig .tc} (hr : r ∉ wrB) :
    after opsB W (no_index (Proc.devRef .tc r)) = W (Proc.devRef .tc r) :=
  after_of_writes_sub opsB W wrB_sub hr

theorem wrC_sub : (opsC : List (HloOp τ sig (Elt F))).Forall fun op => op.writes ⊆ (wrC.map (Proc.devRef (τ := τ) .tc)).toFinset :=
  ⟨w!, w!, w!, w!, w!, w!, w!, w!, w!, w!, w!, w!, w!, w!, w!, w!, w!, w!, w!, w!, w!, w!, w!, w!, w!, w!, w!, w!⟩
/-- A buffer layer C does not write is as before it. -/
theorem frameC (W : Valuation τ sig (Elt F)) {r : Ref sig .tc} (hr : r ∉ wrC) :
    after opsC W (no_index (Proc.devRef .tc r)) = W (Proc.devRef .tc r) :=
  after_of_writes_sub opsC W wrC_sub hr

theorem wrD_sub : (opsD : List (HloOp τ sig (Elt F))).Forall fun op => op.writes ⊆ (wrD.map (Proc.devRef (τ := τ) .tc)).toFinset :=
  ⟨w!, w!, w!, w!, w!, w!, w!, w!, w!, w!, w!, w!, w!, w!, w!, w!, w!, w!, w!, w!, w!, w!, w!⟩
/-- A buffer layer D does not write is as before it. -/
theorem frameD (W : Valuation τ sig (Elt F)) {r : Ref sig .tc} (hr : r ∉ wrD) :
    after opsD W (no_index (Proc.devRef .tc r)) = W (Proc.devRef .tc r) :=
  after_of_writes_sub opsD W wrD_sub hr

theorem wrE_sub : (opsE : List (HloOp τ sig (Elt F))).Forall fun op => op.writes ⊆ (wrE.map (Proc.devRef (τ := τ) .tc)).toFinset :=
  ⟨w!, w!, w!, w!, w!, w!, w!, w!, w!, w!, w!, w!, w!, w!, w!, w!, w!, w!, w!, w!, w!, w!, w!, w!, w!, w!⟩
/-- A buffer layer E does not write is as before it. -/
theorem frameE (W : Valuation τ sig (Elt F)) {r : Ref sig .tc} (hr : r ∉ wrE) :
    after opsE W (no_index (Proc.devRef .tc r)) = W (Proc.devRef .tc r) :=
  after_of_writes_sub opsE W wrE_sub hr

theorem wrF_sub : (opsF : List (HloOp τ sig (Elt F))).Forall fun op => op.writes ⊆ (wrF.map (Proc.devRef (τ := τ) .tc)).toFinset :=
  ⟨w!, w!, w!, w!, w!, w!, w!, w!⟩
/-- A buffer layer F does not write is as before it. -/
theorem frameF (W : Valuation τ sig (Elt F)) {r : Ref sig .tc} (hr : r ∉ wrF) :
    after opsF W (no_index (Proc.devRef .tc r)) = W (Proc.devRef .tc r) :=
  after_of_writes_sub opsF W wrF_sub hr

theorem wrG_sub : (opsG : List (HloOp τ sig (Elt F))).Forall fun op => op.writes ⊆ (wrG.map (Proc.devRef (τ := τ) .tc)).toFinset :=
  ⟨w!, w!, w!, w!, w!, w!, w!, w!, w!, w!, w!, w!, w!, w!, w!⟩
/-- A buffer layer G does not write is as before it. -/
theorem frameG (W : Valuation τ sig (Elt F)) {r : Ref sig .tc} (hr : r ∉ wrG) :
    after opsG W (no_index (Proc.devRef .tc r)) = W (Proc.devRef .tc r) :=
  after_of_writes_sub opsG W wrG_sub hr

/-! ### The layers' values -/

/-- The mean of each node's in-neighbours' rows, of the edge list's two rows as given: Stages.nbrMean with the rows
    named, which is how the second aggregation reads them (from the first's buffers). -/
def nbrMeanOf (x : FVec F S50000x128 .f32) (r0 r1 : (⟨S800000, .i32⟩ : BufTy).Contents (Elt F)) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 r1)
      (Host.gather gather_S50000x128_S800000x1_S800000x128_1_0_n_n_0_1_1128 x
        (broadcastInDim S800000x1 ![0] bcast_S800000_S800000x1_0
          (select (cmpi .slt r0 (broadcastInDim S800000 ![] bcast_S_S800000 (constantI S_ 32 0#32)))
            (addi r0 (broadcastInDim S800000 ![] bcast_S_S800000 (constantI S_ 32 50000#32)))
            r0))))
    (broadcastInDim S50000x128 ![0, 1] bcast_S50000x1_S50000x128_0_1
      (broadcastInDim S50000x1 ![0] bcast_S50000_S50000x1_0
        (maximumf (broadcastInDim S50000 ![] bcast_S_S50000 (id (constant S_ .f32 0x3F800000#32)))
          (Host.scatterAdd scatter_S50000_S800000x1_S800000_n_0_0_1
            (broadcastInDim S50000 ![] bcast_S_S50000 (constant S_ .f32 0x00000000#32))
            (broadcastInDim S800000x1 ![0] bcast_S800000_S800000x1_0 r1)
            (broadcastInDim S800000 ![] bcast_S_S800000 (constant S_ .f32 0x3F800000#32))))))

/-- At the edge list's own rows it is the stage. -/
theorem nbrMeanOf_rows (x : FVec F S50000x128 .f32) (ei : (⟨S2x800000, .i32⟩ : BufTy).Contents (Elt F)) :
    nbrMeanOf x (Stages.edgeRow0 (F := F) ei) (Stages.edgeRow1 (F := F) ei) = Stages.nbrMean x ei := rfl

/-- The normalised activation of a layer with its statistics as given: Stages.normAct with the mean and the variance named,
    which is how the program reads them (from the statistics' buffers). -/
def normActOf (H : FVec F S50000x128 .f32) (μ v : FVec F S128 .f32) (X : FVec F S50000x128 .f32) (γ β : FVec F S128 .f32)
    (a : FVec F S_ .f32) : FVec F S50000x128 .f32 :=
  let n : FVec F S50000x128 .f32 :=
    addf (Host.divf (mulf (Stages.alongRows γ) (subf H (Stages.alongRows μ)))
        (Stages.alongRows (Host.sqrt (addf v (broadcastInDim S128 ![] bcast_S_S128 (constant S_ .f32 0x3727C5AC#32))))))
      (Stages.alongRows β)
  addf (select (cmpf .oge n (broadcastInDim S50000x128 ![] bcast_S_S50000x128 (constant S_ .f32 0x00000000#32)))
      n (mulf (broadcastInDim S50000x128 ![] bcast_S_S50000x128 a) n)) X

/-- At the layer's own statistics it is the stage. -/
theorem normActOf_stats (H X : FVec F S50000x128 .f32) (γ β : FVec F S128 .f32) (a : FVec F S_ .f32) :
    normActOf H (Stages.colMean H) (Stages.colVar H) X γ β a = Stages.normAct H X γ β a := rfl

-- the gathers, scatters, products and reductions stay folded while a layer's fold is compared with its stage: the
-- equation never looks inside them
attribute [local irreducible] Host.gather Host.scatterAdd Host.reduce Host.reduceAdd

/-- After the first aggregation: the edge list's row 0, -/
theorem A_v1 (W : Valuation τ sig (Elt F)) :
    after opsA W (no_index (main_v1 : DevRef τ sig)) = Stages.edgeRow0 (F := F) (W (main_arg1 : DevRef τ sig)) := by
  after_results_simp <;> rfl
/-- its row 1, -/
theorem A_v3 (W : Valuation τ sig (Elt F)) :
    after opsA W (no_index (main_v3 : DevRef τ sig)) = Stages.edgeRow1 (F := F) (W (main_arg1 : DevRef τ sig)) := by
  after_results_simp <;> rfl
/-- and the in-neighbours' mean of the features. -/
theorem A_v21 (W : Valuation τ sig (Elt F)) :
    after opsA W (no_index (main_v21 : DevRef τ sig))
      = Stages.nbrMean (F := F) (W (main_arg0 : DevRef τ sig)) (W (main_arg1 : DevRef τ sig)) := by
  after_results_simp <;> rfl

/-- After the hidden layer: its value of the mean, the features and the weights. -/
theorem B_v29 (W : Valuation τ sig (Elt F)) :
    after opsB W (no_index (main_v29 : DevRef τ sig))
      = Stages.lin128 (F := F) (W (main_v21 : DevRef τ sig)) (W (main_arg0 : DevRef τ sig)) (W (main_arg2 : DevRef τ sig))
          (W (main_arg3 : DevRef τ sig)) (W (main_arg4 : DevRef τ sig)) := by
  after_results_simp <;> rfl

/-- After the statistics: the layer's mean over the nodes, -/
theorem C_v32 (W : Valuation τ sig (Elt F)) :
    after opsC W (no_index (main_v32 : DevRef τ sig)) = Stages.colMean (F := F) (W (main_v29 : DevRef τ sig)) := by
  after_results_simp <;> rfl
/-- and its variance. -/
theorem C_v33 (W : Valuation τ sig (Elt F)) :
    after opsC W (no_index (main_v33 : DevRef τ sig)) = Stages.colVar (F := F) (W (main_v29 : DevRef τ sig)) := by
  after_results_simp <;> rfl

/-- After the activation: its value of the layer, the statistics as they stand, the features and the parameters. -/
theorem D_v54 (W : Valuation τ sig (Elt F)) :
    after opsD W (no_index (main_v54 : DevRef τ sig))
      = normActOf (F := F) (W (main_v29 : DevRef τ sig)) (W (main_v32 : DevRef τ sig)) (W (main_v33 : DevRef τ sig))
          (W (main_arg0 : DevRef τ sig)) (W (main_arg8 : DevRef τ sig)) (W (main_arg9 : DevRef τ sig)) (W (main_arg10 : DevRef τ sig)) := by
  after_results_simp <;> rfl

/-- After the second aggregation: the in-neighbours' mean of the activation, along the rows as they stand. -/
theorem E_v72 (W : Valuation τ sig (Elt F)) :
    after opsE W (no_index (main_v72 : DevRef τ sig))
      = nbrMeanOf (F := F) (W (main_v54 : DevRef τ sig)) (W (main_v1 : DevRef τ sig)) (W (main_v3 : DevRef τ sig)) := by
  after_results_simp <;> rfl

/-- After the output layer: its value. -/
theorem F_v80 (W : Valuation τ sig (Elt F)) :
    after opsF W (no_index (main_v80 : DevRef τ sig))
      = Stages.lin16 (F := F) (W (main_v72 : DevRef τ sig)) (W (main_v54 : DevRef τ sig)) (W (main_arg5 : DevRef τ sig))
          (W (main_arg6 : DevRef τ sig)) (W (main_arg7 : DevRef τ sig)) := by
  after_results_simp <;> rfl

/-- After @log_softmax: the log-softmax of the output layer. -/
theorem G_v81 (W : Valuation τ sig (Elt F)) :
    after opsG W (no_index (main_v81 : DevRef τ sig)) = Stages.logSoftmax (F := F) (W (main_v80 : DevRef τ sig)) := by
  after_results_simp <;> rfl

/-! ### The whole fold -/

/-- The fold at the result buffer is the reference network of the arguments: layer after layer, each reading what the
    layers before left — the arguments and the edge list's rows untouched since they were made. -/
theorem out_eq (V : Valuation τ sig (Elt F)) :
    after ops V (main_v81 : DevRef τ sig)
      = Stages.out (F := F) (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  simp (disch := decide) only [ops, after_app, G_v81, F_v80, E_v72, D_v54, C_v32, C_v33, B_v29, A_v21, A_v1, A_v3,
    frameA, frameB, frameC, frameD, frameE, frameF, frameG, nbrMeanOf_rows, normActOf_stats]
  rfl

/-- A buffer no layer writes is as launched after the whole line. -/
theorem frame_all (V : Valuation τ sig (Elt F)) {r : Ref sig .tc}
    (h : r ∉ wrA ++ (wrB ++ (wrC ++ (wrD ++ (wrE ++ (wrF ++ wrG)))))) :
    after ops V (Proc.devRef .tc r) = V (Proc.devRef .tc r) := by
  simp only [List.mem_append, not_or] at h
  obtain ⟨hA, hB, hC, hD, hE, hF, hG⟩ := h
  simp only [ops, after_app]
  rw [frameG _ hG, frameF _ hF, frameE _ hE, frameD _ hD, frameC _ hC, frameB _ hB, frameA _ hA]

/-- Every weakly fair execution of @main terminates, nothing faulting, with the result buffer at the reference network of
    the arguments' launch contents and every argument as launched. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v81) = Cert.ReferenceIdeal.Stages.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run defs _ _).mono (fun _ h c => ?_) (run_main m ρ)
  exact ⟨(h c main_v81).trans (out_eq (launchContents m c)),
    (h c main_arg0).trans (frame_all _ (by decide)),
    (h c main_arg1).trans (frame_all _ (by decide)),
    (h c main_arg2).trans (frame_all _ (by decide)),
    (h c main_arg3).trans (frame_all _ (by decide)),
    (h c main_arg4).trans (frame_all _ (by decide)),
    (h c main_arg5).trans (frame_all _ (by decide)),
    (h c main_arg6).trans (frame_all _ (by decide)),
    (h c main_arg7).trans (frame_all _ (by decide)),
    (h c main_arg8).trans (frame_all _ (by decide)),
    (h c main_arg9).trans (frame_all _ (by decide)),
    (h c main_arg10).trans (frame_all _ (by decide))⟩

end Cert.ReferenceIdeal.Value

end
-- ==== Proof.BridgeLinear.lean ====
/-
  The SAGE layers and the log-softmax, index by index, are the reference's whole-array operations: a matrix product with a
  transposed weight is the sum over the shared axis of products; a bias vector laid along the rows reads its entry at the
  column; a row's maximum folded from −∞ is unchanged by one more maximum with −∞; the host's exponential, logarithm and
  sums are the kernel's.
-/
import proofs.«172143_j85615878078999_1_alg».proof.Proof.KStages
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

namespace Cert.Bridge

open Idealize.ShloMosaic Idealize.ShloMosaic.ValueIdx Cert.Layers
open Cert.ReferenceIdeal (S50000x128 S128x128 S128 S16x128 S16 S_ S50000x16)
open Cert.ReferenceIdeal (S50000 S50000x1)

variable [Cert.KernelIdeal.Facts] [Cert.ReferenceIdeal.Facts]

/-! ## A product with a transposed weight, and a bias laid along the rows -/

/-- A plain matrix product whose right factor is a transposed weight, read at (p, q): the sum over the shared axis
    of A(p,k)·W(q,k). -/
private theorem dot_transposed_apply {m n : ℕ} (D : DotDims ⟨2, ![m, 128]⟩ ⟨2, ![128, n]⟩ ⟨2, ![m, n]⟩)
    (hD : D = DotDims.plain m 128 n) (A : FVec Ideal ⟨2, ![m, 128]⟩ .f32) (W : FVec Ideal ⟨2, ![n, 128]⟩ .f32)
    (h : (⟨2, ![n, 128]⟩ : Shape).Transposes [1, 0] ⟨2, ![128, n]⟩) (p : Fin m) (q : Fin n) :
    Host.dotGeneral D none A (transpose ⟨2, ![128, n]⟩ [1, 0] W h) (ix2 p q)
      = ∑ k : Fin 128, A (ix2 p k) * W (ix2 q k) := by
  subst hD
  rw [StackMember.dotGeneral_plain_apply]
  exact Finset.sum_congr rfl fun k _ => by rw [transpose_ix2_apply]

/-- A vector made a one-row matrix and then laid along every row reads, at (p, q), its entry q. -/
private theorem rowBias_apply {m n : ℕ} (b : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  have hq := q.isLt
  refine (broadcastInDim_apply _ h2 _ (ix2 p q) (ix2 (0 : Fin 1) q) (fun a => ?_)).trans ?_
  · match a with
    | ⟨0, _⟩ => rfl
    | ⟨1, _⟩ =>
      show q.val = if n = 1 then 0 else q.val
      split
      · omega
      · rfl
  · refine broadcastInDim_apply _ h1 b (ix2 (0 : Fin 1) q) (ix1 q) (fun a => ?_)
    match a with
    | ⟨0, _⟩ =>
      show q.val = if n = 1 then 0 else q.val
      split
      · omega
      · rfl

/-- the hidden layer, index by index, is the reference's two products and bias -/
theorem sage128_eq (A X : FVec Ideal S50000x128 .f32) (Wl : FVec Ideal S128x128 .f32) (b : FVec Ideal S128 .f32)
    (Wr : FVec Ideal S128x128 .f32) :
    sage128 A X Wl (Cert.KernelOut.asRow128 b) Wr = Cert.ReferenceIdeal.Stages.lin128 (F := Ideal) A X Wl b Wr := by
  funext i
  obtain ⟨p, q, rfl⟩ : ∃ (p : Fin 50000) (q : Fin 128), i = ix2 p q := ⟨i 0, i 1, eq_ix2 i⟩
  have eA := dot_transposed_apply Cert.ReferenceIdeal.dot_S50000x128_S128x128_S50000x128_1_0_0_1_n_n rfl A Wl
    Cert.ReferenceIdeal.Facts₀.transposes_S128x128_S128x128_1_0 p q
  have eX := dot_transposed_apply Cert.ReferenceIdeal.dot_S50000x128_S128x128_S50000x128_1_0_0_1_n_n rfl X Wr
    Cert.ReferenceIdeal.Facts₀.transposes_S128x128_S128x128_1_0 p q
  have eb := rowBias_apply b Cert.ReferenceIdeal.Facts₀.bcast_S128_S1x128_1
    Cert.ReferenceIdeal.Facts₀.bcast_S1x128_S50000x128_0_1 p q
  have er : Cert.KernelOut.asRow128 b (ix2 (0 : Fin 1) q) = b (ix1 q) := shapeCast_a_1a_apply b _ 0 q
  unfold Cert.ReferenceIdeal.Stages.lin128 Cert.ReferenceIdeal.Stages.alongRows
  rw [addf_apply, addf_apply, eA, eX, eb, ← er]
  rfl

/-- the output layer likewise -/
theorem sage16_eq (A X : FVec Ideal S50000x128 .f32) (Wl : FVec Ideal S16x128 .f32) (b : FVec Ideal S16 .f32)
    (Wr : FVec Ideal S16x128 .f32) :
    sage16 A X Wl (Cert.KernelOut.asRow16 b) Wr = Cert.ReferenceIdeal.Stages.lin16 (F := Ideal) A X Wl b Wr := by
  funext i
  obtain ⟨p, q, rfl⟩ : ∃ (p : Fin 50000) (q : Fin 16), i = ix2 p q := ⟨i 0, i 1, eq_ix2 i⟩
  have eA := dot_transposed_apply Cert.ReferenceIdeal.dot_S50000x128_S128x16_S50000x16_1_0_0_1_n_n rfl A Wl
    Cert.ReferenceIdeal.Facts₀.transposes_S16x128_S128x16_1_0 p q
  have eX := dot_transposed_apply Cert.ReferenceIdeal.dot_S50000x128_S128x16_S50000x16_1_0_0_1_n_n rfl X Wr
    Cert.ReferenceIdeal.Facts₀.transposes_S16x128_S128x16_1_0 p q
  have eb := rowBias_apply b Cert.ReferenceIdeal.Facts₀.bcast_S16_S1x16_1
    Cert.ReferenceIdeal.Facts₀.bcast_S1x16_S50000x16_0_1 p q
  have er : Cert.KernelOut.asRow16 b (ix2 (0 : Fin 1) q) = b (ix1 q) := shapeCast_a_1a_apply b _ 0 q
  unfold Cert.ReferenceIdeal.Stages.lin16
  rw [addf_apply, addf_apply, eA, eX, eb, ← er]
  rfl

/-! ## The row-wise log-softmax -/

/-- A per-node vector made a column reads, at (r, 0), its entry r. -/
private theorem column_apply (v : (⟨1, ![50000]⟩ : Shape).Idx → EReal)
    (h : (⟨1, ![50000]⟩ : Shape).BroadcastsInDim ⟨2, ![50000, 1]⟩ ![0]) (r : Fin 50000) (u : Fin 1) :
    broadcastInDim ⟨2, ![50000, 1]⟩ ![0] h v (ix2 r u) = v (ix1 r) :=
  broadcastInDim_apply _ h v (ix2 r u) (ix1 r) (fun a => match a with | ⟨0, _⟩ => rfl)

/-- A column laid along every class reads, at (r, c), its entry (r, 0). -/
private theorem alongCols_apply (y : (⟨2, ![50000, 1]⟩ : Shape).Idx → EReal)
    (h : (⟨2, ![50000, 1]⟩ : Shape).BroadcastsInDim ⟨2, ![50000, 16]⟩ ![0, 1]) (r : Fin 50000) (c : Fin 16) :
    broadcastInDim ⟨2, ![50000, 16]⟩ ![0, 1] h y (ix2 r c) = y (ix2 r (0 : Fin 1)) :=
  broadcastInDim_apply _ h y (ix2 r c) (ix2 r (0 : Fin 1)) (fun a => match a with | ⟨0, _⟩ => rfl | ⟨1, _⟩ => rfl)

/-- The class axis dropped: the witness that names the inserted index. -/
private theorem dropsClasses : S50000x16.Reduces [1] S50000 :=
  ⟨Cert.ReferenceIdeal.Facts₀.reducesTo_S50000x16_S50000_d1.1, Nat.one_pos,
    Cert.ReferenceIdeal.Facts₀.reducesTo_S50000x16_S50000_d1.2⟩

/-- Node r with class k inserted is the index (r, k). -/
private theorem lift_row (r : Fin 50000) (k : Fin 16) : dropsClasses.lift (ix1 r) k = ix2 r k := by
  funext a
  apply Fin.ext
  match a with
  | ⟨0, _⟩ => rfl
  | ⟨1, _⟩ => rfl

/-- The host's maximum over the classes, from a splat word: the fold of max over the row from that word's value. -/
private theorem rowFold_apply (Z : FVec Ideal S50000x16 .f32) (w : BitVec 32) (r : Fin 50000) :
    Host.reduce FloatOps.maximumf Z (constant (F := Ideal) S_ .f32 w) Cert.ReferenceIdeal.Facts₀.reducesTo_S50000x16_S50000_d1
        Cert.ReferenceIdeal.Facts₀.h_S_ (ix1 r)
      = (Finset.univ : Finset (Fin 16)).fold max (Ideal.ofBits .f32 w) (fun k => Z (ix2 r k)) := by
  rw [Host.reduce_eq_fold_single FloatOps.maximumf Z _ _ dropsClasses _ (ix1 r)]
  have hl : (Z ∘ dropsClasses.lift (ix1 r)) = fun k : Fin 16 => Z (ix2 r k) :=
    funext fun k => congrArg Z (lift_row r k)
  rw [hl]
  rfl

/-- The host's sum over the classes from the zero word: the sum over the row. -/
private theorem rowSum_apply (Y : FVec Ideal S50000x16 .f32) (r : Fin 50000) :
    Host.reduceAdd Y (constant (F := Ideal) S_ .f32 0x00000000#32) Cert.ReferenceIdeal.Facts₀.reducesTo_S50000x16_S50000_d1
        Cert.ReferenceIdeal.Facts₀.h_S_ (ix1 r)
      = ∑ k : Fin 16, Y (ix2 r k) := by
  show Ideal.hostReduceAdd Cert.ReferenceIdeal.Facts₀.reducesTo_S50000x16_S50000_d1 Y (Ideal.ofBits .f32 0x00000000#32) (ix1 r) = _
  rw [Ideal.hostReduceAdd_single _ dropsClasses, Ideal.ofBits_zero_f32, zero_add]
  exact Finset.sum_congr rfl fun k _ => congrArg Y (lift_row r k)

/-- The host's logarithm and exponential are entrywise the extended reals'. -/
private theorem hostLog_apply {s : Shape} (x : FVec Ideal s .f32) (i : s.Idx) : Host.log x i = Ideal.log (x i) := rfl
private theorem hostExp_apply {s : Shape} (x : FVec Ideal s .f32) (i : s.Idx) : Host.exp x i = Ideal.exp (x i) := rfl

/-- the row-wise log-softmax, index by index, is the reference's -/
theorem logSoftmax_eq (Z : FVec Ideal S50000x16 .f32) :
    logSoftmax Z = Cert.ReferenceIdeal.Stages.logSoftmax (F := Ideal) Z := by
  funext i
  obtain ⟨r, c, rfl⟩ : ∃ (r : Fin 50000) (c : Fin 16), i = ix2 r c := ⟨i 0, i 1, eq_ix2 i⟩
  -- one more maximum with −∞ leaves the fold from −∞ as it is
  have hmax : max (Ideal.ofBits .f32 0xFF800000#32) (rowMax Z r) = rowMax Z r :=
    max_eq_right ((Finset.le_fold_max _).2 (Or.inl le_rfl))
  have hmx : maximumf (broadcastInDim S50000 ![] Cert.ReferenceIdeal.Facts₀.bcast_S_S50000 (constant (F := Ideal) S_ .f32 0xFF800000#32))
      (Host.reduce FloatOps.maximumf Z (constant S_ .f32 0xFF800000#32) Cert.ReferenceIdeal.Facts₀.reducesTo_S50000x16_S50000_d1
        Cert.ReferenceIdeal.Facts₀.h_S_) (ix1 r) = rowMax Z r := by
    rw [maximumf_apply, rowFold_apply]
    exact hmax
  unfold Cert.ReferenceIdeal.Stages.logSoftmax Cert.ReferenceIdeal.Stages.alongClasses
  simp only [subf_apply]
  generalize maximumf (broadcastInDim S50000 ![] Cert.ReferenceIdeal.Facts₀.bcast_S_S50000 (constant (F := Ideal) S_ .f32 0xFF800000#32))
      (Host.reduce FloatOps.maximumf Z (constant S_ .f32 0xFF800000#32) Cert.ReferenceIdeal.Facts₀.reducesTo_S50000x16_S50000_d1
        Cert.ReferenceIdeal.Facts₀.h_S_) = M at hmx ⊢
  rw [alongCols_apply, column_apply, alongCols_apply, hostLog_apply, column_apply, rowSum_apply]
  have hterm : ∀ k : Fin 16,
      Host.exp (subf Z (broadcastInDim S50000x16 ![0, 1] Cert.ReferenceIdeal.Facts₀.bcast_S50000x1_S50000x16_0_1
        (broadcastInDim S50000x1 ![0] Cert.ReferenceIdeal.Facts₀.bcast_S50000_S50000x1_0 M))) (ix2 r k)
        = Ideal.exp (Z (ix2 r k) - rowMax Z r) := fun k => by
    rw [hostExp_apply, subf_apply, alongCols_apply, column_apply, hmx]
  rw [Finset.sum_congr rfl fun k _ => hterm k, hmx]
  rfl

end Cert.Bridge

end
-- ==== Proof.LibAllReal.lean ====
/-
  ARRAYS OF REALS. At the ideal values a float is an extended real; an array is "all real" when no entry is an infinity or
  the junk value. This file states that notion and its closure under the host operations read at the ideal values, for any
  shapes and any dimension records: an operation that only READS its operand somewhere (a gather, a broadcast, a reshape, a
  select) keeps it; sums, differences, products and maxima of reals are reals; a finite sum of reals is a real (a scatter
  with addition, a dot product); a quotient by a nonzero real and the reciprocal square root of a positive real are reals;
  a constant whose f32 pattern has an exponent field that is not all ones is a real.
-/
import Idealize.ShloMosaic.PureOps.Ideal
import Idealize.ShloMosaic.PureOps.Ideal.Laws
import Idealize.ShloMosaic.PureOps.ShapeOps
import Idealize.ShloMosaic.PureOps.Contract
import Mathlib.Data.EReal.Basic
import Mathlib.Data.EReal.Operations
import Mathlib.Data.EReal.Inv
import Mathlib.Algebra.BigOperators.Group.Finset.Defs

noncomputable section

namespace Cert.LibAllReal

open Idealize.ShloMosaic
open scoped BigOperators

/-- Every entry is a real number. -/
def AllReal {S : Shape} (v : S.Idx → EReal) : Prop := ∀ y, ∃ r : ℝ, v y = (r : EReal)

/-! ## Reals among the extended reals -/

/-- A finite sum of reals is a real. -/
theorem real_sum {ι : Type} (s : Finset ι) (f : ι → EReal) (hf : ∀ i ∈ s, ∃ r : ℝ, f i = (r : EReal)) :
    ∃ r : ℝ, ∑ i ∈ s, f i = (r : EReal) :=
  Finset.sum_induction f (fun x => ∃ r : ℝ, x = (r : EReal))
    (by rintro _ _ ⟨a, rfl⟩ ⟨b, rfl⟩; exact ⟨a + b, (EReal.coe_add a b).symm⟩) ⟨0, EReal.coe_zero.symm⟩ hf

/-- An f32 pattern whose exponent field is not all ones denotes a real (a zero, a subnormal or a normal number). -/
theorem ofBits_f32_real (w : BitVec 32) (h : (w.extractLsb' 23 8).toNat ≠ 2 ^ 8 - 1) :
    ∃ r : ℝ, Ideal.ofBits .f32 w = (r : EReal) := by
  show ∃ r : ℝ, Ideal.ieee 8 23 w = (r : EReal)
  unfold Ideal.ieee
  dsimp only
  rw [if_neg h]
  split <;> exact ⟨_, rfl⟩

/-- A quotient of a real by a nonzero real is a real. -/
theorem real_div {x y : EReal} (hx : ∃ r : ℝ, x = (r : EReal)) (hy : ∃ r : ℝ, y = (r : EReal)) (h0 : y ≠ 0) :
    ∃ r : ℝ, Ideal.div x y = (r : EReal) := by
  obtain ⟨p, rfl⟩ := hx
  obtain ⟨q, rfl⟩ := hy
  have hq : q ≠ 0 := fun e => h0 (by rw [e]; rfl)
  exact ⟨p * (1 / q), by rw [Ideal.div_coe hq, EReal.coe_mul]⟩

/-- The reciprocal square root of a positive real is a real. -/
theorem real_rsqrt {x : EReal} (hx : ∃ r : ℝ, x = (r : EReal)) (h0 : 0 < x) : ∃ r : ℝ, Ideal.rsqrt x = (r : EReal) := by
  obtain ⟨p, rfl⟩ := hx
  have hp : 0 < p := EReal.coe_pos.1 h0
  refine ⟨(Real.sqrt p)⁻¹, ?_⟩
  rw [Ideal.rsqrt_coe, if_neg (not_lt.2 hp.le), if_neg hp.ne']

/-! ## Operations that read their operand -/

section Reads
variable {s si t : Shape} {w : Nat}

/-- A gather reads the operand at some index for each result index. -/
theorem AllReal.gather {x : s.Idx → EReal} (hx : AllReal x) (d : GatherDims s si t) (idx : IVec si w) :
    AllReal (Host.gather d x idx) := fun j => hx _

/-- A broadcast reads the operand at the index the result index keeps. -/
theorem AllReal.broadcastInDim {x : s.Idx → EReal} (hx : AllReal x) (dims : Fin s.rank → Fin t.rank)
    (h : s.BroadcastsInDim t dims) : AllReal (broadcastInDim t dims h x) := fun j => hx _

/-- A reshape reads the operand at the index of the same row-major position. -/
theorem AllReal.shapeCast {x : s.Idx → EReal} (hx : AllReal x) (h : s.ShapeCasts t) :
    AllReal (shapeCast t x h) := fun j => hx _

/-- A select takes, entry by entry, one of two reals. -/
theorem AllReal.select {a b : s.Idx → EReal} (ha : AllReal a) (hb : AllReal b) (c : IVec s 1) :
    AllReal (select c a b) := fun j => by
  show ∃ r : ℝ, Scalar.select (c j) (a j) (b j) = (r : EReal)
  unfold Scalar.select
  split
  · exact ha j
  · exact hb j

end Reads

/-! ## Arithmetic, entry by entry -/

section Arith
variable {s : Shape} {φ : FTy}

theorem AllReal.mulf {a b : FVec Ideal s φ} (ha : AllReal a) (hb : AllReal b) : AllReal (mulf a b) := fun j => by
  obtain ⟨p, hp⟩ := ha j
  obtain ⟨q, hq⟩ := hb j
  exact ⟨p * q, by show a j * b j = _; rw [hp, hq, EReal.coe_mul]⟩

theorem AllReal.addf {a b : FVec Ideal s φ} (ha : AllReal a) (hb : AllReal b) : AllReal (addf a b) := fun j => by
  obtain ⟨p, hp⟩ := ha j
  obtain ⟨q, hq⟩ := hb j
  exact ⟨p + q, by show a j + b j = _; rw [hp, hq, EReal.coe_add]⟩

theorem AllReal.subf {a b : FVec Ideal s φ} (ha : AllReal a) (hb : AllReal b) : AllReal (subf a b) := fun j => by
  obtain ⟨p, hp⟩ := ha j
  obtain ⟨q, hq⟩ := hb j
  exact ⟨p - q, by show a j - b j = _; rw [hp, hq, EReal.coe_sub]⟩

theorem AllReal.maximumf {a b : FVec Ideal s φ} (ha : AllReal a) (hb : AllReal b) : AllReal (maximumf a b) := fun j => by
  show ∃ r : ℝ, max (a j) (b j) = (r : EReal)
  rcases max_choice (a j) (b j) with e | e <;> rw [e]
  · exact ha j
  · exact hb j

/-- A quotient by an array of nonzero reals. -/
theorem AllReal.divf_of_ne_zero {a b : FVec Ideal s φ} (ha : AllReal a) (hb : AllReal b) (h0 : ∀ y, b y ≠ 0) :
    AllReal (Host.divf a b) := fun j => real_div (ha j) (hb j) (h0 j)

/-- A quotient by an array of reals that are at least 1. -/
theorem AllReal.divf {a b : FVec Ideal s φ} (ha : AllReal a) (hb : AllReal b) (h1 : ∀ y, (1 : EReal) ≤ b y) :
    AllReal (Host.divf a b) :=
  AllReal.divf_of_ne_zero ha hb fun y e => by
    have h := h1 y
    rw [e] at h
    exact absurd h (by norm_num)

/-- The reciprocal square root of an array of positive reals. -/
theorem AllReal.rsqrt {a : FVec Ideal s φ} (ha : AllReal a) (hpos : ∀ y, (0 : EReal) < a y) :
    AllReal (Host.rsqrt a) := fun j => real_rsqrt (ha j) (hpos j)

end Arith

/-! ## Constants -/

section Constants
variable (S : Shape)

/-- A splat of an f32 pattern whose exponent field is not all ones. -/
theorem AllReal.constant_of_finite (w : BitVec 32) (h : (w.extractLsb' 23 8).toNat ≠ 2 ^ 8 - 1) :
    AllReal (constant (F := Ideal) S .f32 w) := fun _ => ofBits_f32_real w h

/-- 0.0 -/
theorem AllReal.constant_zero : AllReal (constant (F := Ideal) S .f32 0x00000000#32) :=
  AllReal.constant_of_finite S _ (by decide)
/-- 1.0 -/
theorem AllReal.constant_one : AllReal (constant (F := Ideal) S .f32 0x3F800000#32) :=
  AllReal.constant_of_finite S _ (by decide)
/-- 2.0 -/
theorem AllReal.constant_two : AllReal (constant (F := Ideal) S .f32 0x40000000#32) :=
  AllReal.constant_of_finite S _ (by decide)
/-- the small positive number 0x3727C5AC (about 1e-5) -/
theorem AllReal.constant_eps : AllReal (constant (F := Ideal) S .f32 0x3727C5AC#32) :=
  AllReal.constant_of_finite S _ (by decide)

end Constants

/-! ## Finite sums: a scatter with addition, a dot product -/

section Sums

/-- A scatter with addition gives, at each entry, the operand's entry plus a finite sum of update entries. -/
theorem AllReal.scatterAdd {s si u : Shape} {w : Nat} {φ : FTy} {x : FVec Ideal s φ} {upd : FVec Ideal u φ}
    (hx : AllReal x) (hu : AllReal upd) (d : ScatterDims s si u) (idx : IVec si w) :
    AllReal (Host.scatterAdd d x idx upd) := fun i => by
  show ∃ r : ℝ, x i + ∑ j ∈ Finset.univ.filter (fun j => d.resultIdx? j idx = some i), upd j = (r : EReal)
  obtain ⟨p, hp⟩ := hx i
  obtain ⟨q, hq⟩ := real_sum _ upd (fun j _ => hu j)
  exact ⟨p + q, by rw [hp, hq, EReal.coe_add]⟩

/-- A dot product gives, at each entry, a finite sum of products of the operands' entries. -/
theorem AllReal.dotGeneral {sl sr so : Shape} {φ₁ φ₂ : FTy} {l : FVec Ideal sl φ₁} {r : FVec Ideal sr φ₂}
    (hl : AllReal l) (hr : AllReal r) (d : DotDims sl sr so) (prec : Option ContractPrecision) :
    AllReal (Host.dotGeneral d prec l r) := fun j => by
  show ∃ q : ℝ, FloatOps.dotGeneral d prec .single l r j = (q : EReal)
  rw [Ideal.dotGeneral_apply]
  refine real_sum _ _ (fun k _ => ?_)
  obtain ⟨p, hp⟩ := hl (d.lhsIdx j k)
  obtain ⟨q, hq⟩ := hr (d.rhsIdx j k)
  exact ⟨p * q, by rw [hp, hq, EReal.coe_mul]⟩

end Sums

/-! ## Further operations: a transpose, a concatenation, an integer conversion, a sum-reduction, and more arithmetic -/

section More
variable {s t : Shape} {φ : FTy}

/-- A transpose reads the operand at the permuted index. -/
theorem AllReal.transpose {x : s.Idx → EReal} (hx : AllReal x) (perm : List (Fin s.rank)) (h : s.Transposes perm t) :
    AllReal (transpose t perm x h) := fun j => hx _

/-- A concatenation reads, at each index, one of the listed arrays. -/
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := fun j => by
  unfold Idealize.ShloMosaic.concatenate
  dsimp only
  exact hxs _ (List.getElem_mem _) _

/-- A signed integer converted to a float is a real. -/
theorem AllReal.sitofp {w : Nat} (x : IVec s w) : AllReal (sitofp (F := Ideal) φ x) :=
  fun j => ⟨((x j).toInt : ℝ), rfl⟩

theorem AllReal.negf {a : FVec Ideal s φ} (ha : AllReal a) : AllReal (negf a) := fun j => by
  obtain ⟨p, hp⟩ := ha j
  exact ⟨-p, by show -(a j) = _; rw [hp, EReal.coe_neg]⟩

theorem AllReal.hostNegf {a : FVec Ideal s φ} (ha : AllReal a) : AllReal (Host.negf a) := fun j => by
  obtain ⟨p, hp⟩ := ha j
  exact ⟨-p, by show -(a j) = _; rw [hp, EReal.coe_neg]⟩

theorem AllReal.minimumf {a b : FVec Ideal s φ} (ha : AllReal a) (hb : AllReal b) : AllReal (minimumf a b) := fun j => by
  show ∃ r : ℝ, min (a j) (b j) = (r : EReal)
  rcases min_choice (a j) (b j) with e | e <;> rw [e]
  · exact ha j
  · exact hb j

/-- The exponential of a real is a real. -/
theorem AllReal.exp {a : FVec Ideal s φ} (ha : AllReal a) : AllReal (Host.exp a) := fun j => by
  obtain ⟨p, hp⟩ := ha j
  exact ⟨Real.exp p, by show Ideal.exp (a j) = _; rw [hp]; rfl⟩

/-- A sum-reduction gives, at each entry, the initial value plus a finite sum of operand entries. -/
theorem AllReal.reduceAdd {axes : List (Fin s.rank)} {u : Shape} {x : FVec Ideal s φ} {init : u.Idx → Ideal φ}
    (hx : AllReal x) (hi : AllReal init) (h : s.ReducesTo axes t) (hu : 0 < u.numel) :
    AllReal (Host.reduceAdd x init h hu) := fun j => by
  show ∃ r : ℝ, init (Shape.Idx.first hu) + ∑ i ∈ Finset.univ.filter (fun i => h.drop i = j), x i = (r : EReal)
  obtain ⟨p, hp⟩ := hi (Shape.Idx.first hu)
  obtain ⟨q, hq⟩ := real_sum _ x (fun i _ => hx i)
  exact ⟨p + q, by rw [hp, hq, EReal.coe_add]⟩

end More

end Cert.LibAllReal

end
-- ==== Proof.BridgeNorm.lean ====
/-
  Batch normalisation two ways. The kernel's program takes the mean as S/n and the variance as Q/n − (S/n)² from the
  column sums S and sums of squares Q, and multiplies by the reciprocal square root; the reference takes the mean of the
  squared deviations and divides by the square root. For a hidden layer of real numbers these agree: over the reals
  (1/n)∑(h − μ)² = (1/n)∑h² − μ², the variance is nonnegative so v + ε is a positive real, and for a positive real p and
  any extended real y the quotient y / √p is the product y · (√p)⁻¹.
-/
import proofs.«172143_j85615878078999_1_alg».proof.Proof.KStages
import proofs.«172143_j85615878078999_1_alg».proof.Proof.LibAllReal
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

namespace Cert.Bridge

open Idealize.ShloMosaic Idealize.ShloMosaic.ValueIdx Cert.Layers Cert.LibAllReal
open Cert.ReferenceIdeal (S50000x128 S128x128 S128 S16x128 S16 S_ S50000x16)
open scoped BigOperators

variable [Cert.KernelIdeal.Facts] [Cert.ReferenceIdeal.Facts]

/-! ## The constants -/

/-- the number of nodes, 50000, as its pattern denotes it -/
private theorem ofBits_nodes : Ideal.ofBits .f32 0x47435000#32 = ((50000 : ℝ) : EReal) := by
  simp [Ideal.ofBits, Ideal.ieee, -EReal.coe_mul]; norm_num

/-- the small number added to the variance is a positive real: 10995116 · 2⁻⁴⁰ -/
private theorem eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## Rows and broadcasts read at an index -/

/-- a per-feature vector as a one-row matrix reads the vector -/
private theorem asRow_apply (v : FVec Ideal S128 .f32) (q : Fin 128) :
    Cert.KernelOut.asRow128 v (ix2 (0 : Fin 1) q) = v (ix1 q) :=
  shapeCast_a_1a_apply v _ 0 q

/-- a scalar along a one-row matrix reads the scalar -/
private theorem splatRow_apply (a : FVec Ideal S_ .f32) (j : Cert.KernelIdeal.S1x128.Idx) :
    Cert.KernelOut.splatRow128 a j = a ix0 :=
  broadcastInDim_scalar_apply _ a j

/-- a per-feature vector laid along every node's row reads the vector at the column -/
private theorem alongRows_apply (v : FVec Ideal S128 .f32) (p : Fin 50000) (q : Fin 128) :
    Cert.ReferenceIdeal.Stages.alongRows (F := Ideal) v (ix2 p q) = v (ix1 q) := by
  unfold Cert.ReferenceIdeal.Stages.alongRows
  rw [broadcastInDim_oneRow_apply]
  refine broadcastInDim_apply _ _ v _ (ix1 q) fun a => ?_
  match a with
  | ⟨0, _⟩ => rfl

/-! ## The stages read at a column -/

/-- a per-feature vector as the one row of a matrix reads the vector -/
private theorem rowOf_apply (v : FVec Ideal S128 .f32) (q : Fin 128)
    (h : S128.BroadcastsInDim Cert.ReferenceIdeal.S1x128 ![1]) :
    broadcastInDim Cert.ReferenceIdeal.S1x128 ![1] h v (ix2 (0 : Fin 1) q) = v (ix1 q) :=
  broadcastInDim_apply _ _ v _ (ix1 q) fun a => match a with | ⟨0, _⟩ => rfl

/-- the host's sum over the nodes, from zero, at a column: the sum of the column -/
private theorem colReduce_apply (G : FVec Ideal S50000x128 .f32) (q : Fin 128) :
    Host.reduceAdd (F := Ideal) G (constant (F := Ideal) S_ .f32 0x00000000#32)
        Cert.ReferenceIdeal.Facts₀.reducesTo_S50000x128_S128_d0 Cert.ReferenceIdeal.Facts₀.h_S_ (ix1 q)
      = ∑ k : Fin 50000, G (ix2 k q) := by
  rw [hostReduceAdd_apply, Ideal.hostReduceAdd_single _ (by decide : S50000x128.Reduces [0] S128)]
  show Ideal.ofBits .f32 0x00000000#32 + _ = _
  rw [Ideal.ofBits_zero_f32, zero_add]
  refine Finset.sum_congr rfl fun k _ => congrArg G (funext fun a => ?_)
  match a with
  | ⟨0, _⟩ => rfl
  | ⟨1, _⟩ => rfl

/-- the kernel's mean at a column: the column's sum over the number of nodes -/
private theorem kmean_apply (H : FVec Ideal S50000x128 .f32) (q : Fin 128) :
    Cert.KernelOut.mean H (ix2 (0 : Fin 1) q)
      = Ideal.div (∑ i : Fin 50000, H (ix2 i q)) (Ideal.ofBits .f32 0x47435000#32) := by
  unfold Cert.KernelOut.mean
  rw [hostDivf_apply, splatRow_apply]
  rfl

/-- the kernel's variance at a column: the column's sum of squares over the number of nodes, less the squared mean -/
private theorem kvar_apply (H : FVec Ideal S50000x128 .f32) (q : Fin 128) :
    Cert.KernelOut.var H (ix2 (0 : Fin 1) q)
      = Ideal.div (∑ i : Fin 50000, H (ix2 i q) * H (ix2 i q)) (Ideal.ofBits .f32 0x47435000#32)
        - Cert.KernelOut.mean H (ix2 (0 : Fin 1) q) * Cert.KernelOut.mean H (ix2 (0 : Fin 1) q) := by
  unfold Cert.KernelOut.var
  rw [subf_apply, mulf_apply, hostDivf_apply, splatRow_apply]
  rfl

/-- the reference's mean at a column: the column's sum over the number of nodes -/
private theorem rmean_apply (H : FVec Ideal S50000x128 .f32) (q : Fin 128) :
    Cert.ReferenceIdeal.Stages.colMean (F := Ideal) H (ix1 q)
      = Ideal.div (∑ i : Fin 50000, H (ix2 i q)) (Ideal.ofBits .f32 0x47435000#32) := by
  unfold Cert.ReferenceIdeal.Stages.colMean
  rw [hostDivf_apply, colReduce_apply, broadcastInDim_scalar_apply]
  rfl

/-- the divisor of the reference's variance is the number of nodes -/
private theorem varDenom_apply : Cert.ReferenceIdeal.Stages.varDenom (F := Ideal) ix0 = ((50000 : ℝ) : EReal) := by
  unfold Cert.ReferenceIdeal.Stages.varDenom
  rw [subf_apply]
  show Ideal.ofBits .f32 0x47435000#32 - (((0#32 : BitVec 32).toInt : ℝ) : EReal) = _
  rw [ofBits_nodes]
  simp

/-- a one-row matrix laid along every node's row reads the row -/
private theorem bcastRows_apply (y : FVec Ideal Cert.ReferenceIdeal.S1x128 .f32) (p : Fin 50000) (q : Fin 128) :
    broadcastInDim S50000x128 ![0, 1] Cert.ReferenceIdeal.Facts₀.bcast_S1x128_S50000x128_0_1 y (ix2 p q)
      = y (ix2 (0 : Fin 1) q) :=
  broadcastInDim_oneRow_apply _ y p q

/-- a column's sum of squared differences from a row -/
private theorem devSq_sum (H : FVec Ideal S50000x128 .f32) (y : FVec Ideal Cert.ReferenceIdeal.S1x128 .f32) (q : Fin 128) :
    ∑ k : Fin 50000,
        mulf (subf H (broadcastInDim S50000x128 ![0, 1] Cert.ReferenceIdeal.Facts₀.bcast_S1x128_S50000x128_0_1 y))
          (subf H (broadcastInDim S50000x128 ![0, 1] Cert.ReferenceIdeal.Facts₀.bcast_S1x128_S50000x128_0_1 y)) (ix2 k q)
      = ∑ k : Fin 50000, (H (ix2 k q) - y (ix2 (0 : Fin 1) q)) * (H (ix2 k q) - y (ix2 (0 : Fin 1) q)) :=
  Finset.sum_congr rfl fun k _ => by rw [mulf_apply, subf_apply, bcastRows_apply]

/-- the reference's variance at a column: the column's sum of squared deviations from the mean over the number of nodes -/
private theorem rvar_apply (H : FVec Ideal S50000x128 .f32) (q : Fin 128) :
    Cert.ReferenceIdeal.Stages.colVar (F := Ideal) H (ix1 q)
      = Ideal.div (∑ i : Fin 50000,
            (H (ix2 i q) - Ideal.div (∑ k : Fin 50000, H (ix2 k q)) (Ideal.ofBits .f32 0x47435000#32))
          * (H (ix2 i q) - Ideal.div (∑ k : Fin 50000, H (ix2 k q)) (Ideal.ofBits .f32 0x47435000#32)))
          ((50000 : ℝ) : EReal) := by
  have hc : FloatOps.cmpf (F := Ideal) (φ := .f32) .ogt ((50000 : ℝ) : EReal)
      (constant (F := Ideal) S_ .f32 0x00000000#32 ix0) = 1#1 := by
    show Ideal.cmp .ogt _ (Ideal.ofBits .f32 0x00000000#32) = 1#1
    have h0 : (0 : EReal) < ((50000 : ℝ) : EReal) := EReal.coe_pos.2 (by norm_num)
    rw [Ideal.ofBits_zero_f32]
    simp [Ideal.cmp, h0]
  unfold Cert.ReferenceIdeal.Stages.colVar
  dsimp only
  rw [select_apply, broadcastInDim_scalar_apply, cmpf_apply, varDenom_apply, hc, select_one, hostDivf_apply,
    colReduce_apply, broadcastInDim_scalar_apply, varDenom_apply, devSq_sum, hostDivf_apply, rowOf_apply,
    colReduce_apply, broadcastInDim_scalar_apply]
  rfl

/-! ## The algebra over the reals -/

/-- a finite sum of reals, read among the extended reals, is the real sum -/
private theorem coe_sum {ι : Type} (s : Finset ι) (f : ι → ℝ) :
    ∑ i ∈ s, ((f i : ℝ) : EReal) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- the mean of the squared deviations from the mean is the mean of the squares less the squared mean -/
private theorem var_real {n : ℕ} (c : ℝ) (hc : c ≠ 0) (hn : (n : ℝ) = c) (h : Fin n → ℝ) :
    (∑ i, (h i - (∑ k, h k) * (1 / c)) * (h i - (∑ k, h k) * (1 / c))) * (1 / c)
      = (∑ i, h i * h i) * (1 / c) - ((∑ k, h k) * (1 / c)) * ((∑ k, h k) * (1 / c)) := by
  have e : ∀ i, (h i - (∑ k, h k) * (1 / c)) * (h i - (∑ k, h k) * (1 / c))
      = h i * h i - (2 * ((∑ k, h k) * (1 / c))) * h i + ((∑ k, h k) * (1 / c)) * ((∑ k, h k) * (1 / c)) :=
    fun i => by ring
  rw [Finset.sum_congr rfl fun i _ => e i, Finset.sum_add_distrib, Finset.sum_sub_distrib, ← Finset.mul_sum,
    Finset.sum_const, Finset.card_univ, Fintype.card_fin, nsmul_eq_mul, hn]
  generalize ∑ k, h k = s
  generalize ∑ i, h i * h i = Q
  field_simp
  ring

/-- a mean of squares is not negative -/
private theorem var_nonneg {n : ℕ} (c : ℝ) (hc : 0 < c) (m : ℝ) (h : Fin n → ℝ) :
    0 ≤ (∑ i, (h i - m) * (h i - m)) * (1 / c) :=
  mul_nonneg (Finset.sum_nonneg fun i _ => mul_self_nonneg _) (by positivity)

/-! ## One column of a real hidden layer -/

/-- Per column of a hidden layer of reals: the two means are one real and the two variances one real that is not negative. -/
private theorem column_facts (H : FVec Ideal S50000x128 .f32) (hH : AllReal H) (q : Fin 128) :
    ∃ m v : ℝ, 0 ≤ v
      ∧ Cert.KernelOut.mean H (ix2 (0 : Fin 1) q) = (m : EReal)
      ∧ Cert.ReferenceIdeal.Stages.colMean (F := Ideal) H (ix1 q) = (m : EReal)
      ∧ Cert.KernelOut.var H (ix2 (0 : Fin 1) q) = (v : EReal)
      ∧ Cert.ReferenceIdeal.Stages.colVar (F := Ideal) H (ix1 q) = (v : EReal) := by
  choose h hh using fun i : Fin 50000 => hH (ix2 i q)
  have h5 : (50000 : ℝ) ≠ 0 := by norm_num
  have hS : ∑ i : Fin 50000, H (ix2 i q) = ((∑ i, h i : ℝ) : EReal) := by
    rw [← coe_sum]; exact Finset.sum_congr rfl fun i _ => hh i
  have hQ : ∑ i : Fin 50000, H (ix2 i q) * H (ix2 i q) = ((∑ i, h i * h i : ℝ) : EReal) := by
    rw [← coe_sum]; exact Finset.sum_congr rfl fun i _ => by rw [hh i, EReal.coe_mul]
  have hm : Ideal.div (∑ i : Fin 50000, H (ix2 i q)) (Ideal.ofBits .f32 0x47435000#32)
      = (((∑ i, h i) * (1 / 50000) : ℝ) : EReal) := by
    rw [hS, ofBits_nodes, Ideal.div_coe h5, ← EReal.coe_mul]
  have hD : ∑ i : Fin 50000, (H (ix2 i q) - (((∑ k, h k) * (1 / 50000) : ℝ) : EReal))
        * (H (ix2 i q) - (((∑ k, h k) * (1 / 50000) : ℝ) : EReal))
      = ((∑ i, (h i - (∑ k, h k) * (1 / 50000)) * (h i - (∑ k, h k) * (1 / 50000)) : ℝ) : EReal) := by
    rw [← coe_sum]; exact Finset.sum_congr rfl fun i _ => by rw [hh i, ← EReal.coe_sub, ← EReal.coe_mul]
  refine ⟨(∑ i, h i) * (1 / 50000),
    (∑ i, (h i - (∑ k, h k) * (1 / 50000)) * (h i - (∑ k, h k) * (1 / 50000))) * (1 / 50000),
    var_nonneg _ (by norm_num) _ _, ?_, ?_, ?_, ?_⟩
  · rw [kmean_apply, hm]
  · rw [rmean_apply, hm]
  · rw [kvar_apply, kmean_apply, hm, hQ, ofBits_nodes, Ideal.div_coe h5, ← EReal.coe_mul, ← EReal.coe_mul,
      ← EReal.coe_sub, var_real 50000 h5 (by norm_num)]
  · rw [rvar_apply, hm, hD, Ideal.div_coe h5, ← EReal.coe_mul]

/-! ## The two activations at an entry -/

/-- from the normalised value n, a slope s and the layer's input x: n where it is not negative, else s·n, plus x -/
private def act (n s x : EReal) : EReal :=
  Scalar.select (FloatOps.cmpf (F := Ideal) (φ := .f32) .oge n (Ideal.ofBits .f32 0x00000000#32)) n (s * n) + x

/-- the kernel's activation at an entry, from its mean, variance, scale, shift and slope rows -/
private theorem kside (H X : FVec Ideal S50000x128 .f32) (μ v g b s : Row128.Idx → EReal) (p : Fin 50000) (q : Fin 128) :
    Cert.Layers.normAct H X μ v g b s (ix2 p q)
      = act ((g (ix2 (0 : Fin 1) q) * (H (ix2 p q) - μ (ix2 (0 : Fin 1) q)))
            * Ideal.rsqrt (v (ix2 (0 : Fin 1) q) + Ideal.ofBits .f32 0x3727C5AC#32) + b (ix2 (0 : Fin 1) q))
          (s (ix2 (0 : Fin 1) q)) (X (ix2 p q)) := rfl

/-- the reference's activation at an entry -/
private theorem rside (H X : FVec Ideal S50000x128 .f32) (γ β : FVec Ideal S128 .f32) (a : FVec Ideal S_ .f32)
    (p : Fin 50000) (q : Fin 128) :
    Cert.ReferenceIdeal.Stages.normAct (F := Ideal) H X γ β a (ix2 p q)
      = act (Ideal.div
              (Cert.ReferenceIdeal.Stages.alongRows (F := Ideal) γ (ix2 p q)
                * (H (ix2 p q) - Cert.ReferenceIdeal.Stages.alongRows (F := Ideal)
                    (Cert.ReferenceIdeal.Stages.colMean (F := Ideal) H) (ix2 p q)))
              (Cert.ReferenceIdeal.Stages.alongRows (F := Ideal)
                (Host.sqrt (addf (Cert.ReferenceIdeal.Stages.colVar (F := Ideal) H)
                  (broadcastInDim S128 ![] Cert.ReferenceIdeal.Facts₀.bcast_S_S128
                    (constant (F := Ideal) S_ .f32 0x3727C5AC#32)))) (ix2 p q))
            + Cert.ReferenceIdeal.Stages.alongRows (F := Ideal) β (ix2 p q))
          (broadcastInDim S50000x128 ![] Cert.ReferenceIdeal.Facts₀.bcast_S_S50000x128 a (ix2 p q)) (X (ix2 p q)) := rfl

/-- for a hidden layer of reals the kernel's normalised activation is the reference's -/
theorem hidden2_eq (H X : FVec Ideal S50000x128 .f32) (γ β : FVec Ideal S128 .f32) (a : FVec Ideal S_ .f32)
    (hH : AllReal H) :
    Cert.KernelOut.hidden2 H X γ β a = Cert.ReferenceIdeal.Stages.normAct (F := Ideal) H X γ β a := by
  funext i
  obtain ⟨p, q, rfl⟩ : ∃ (p : Fin 50000) (q : Fin 128), i = ix2 p q := ⟨i 0, i 1, eq_ix2 i⟩
  obtain ⟨m, v, hv, hkm, hrm, hkv, hrv⟩ := column_facts H hH q
  obtain ⟨e, he, hee⟩ := eps_pos
  have hp : 0 < v + e := add_pos_of_nonneg_of_pos hv he
  have hs : Real.sqrt (v + e) ≠ 0 := (Real.sqrt_pos.2 hp).ne'
  -- the reference's square root of the variance plus the small number, at the column
  have hsq : Cert.ReferenceIdeal.Stages.alongRows (F := Ideal)
      (Host.sqrt (addf (Cert.ReferenceIdeal.Stages.colVar (F := Ideal) H)
        (broadcastInDim S128 ![] Cert.ReferenceIdeal.Facts₀.bcast_S_S128
          (constant (F := Ideal) S_ .f32 0x3727C5AC#32)))) (ix2 p q) = ((Real.sqrt (v + e) : ℝ) : EReal) := by
    rw [alongRows_apply]
    show Ideal.sqrt (Cert.ReferenceIdeal.Stages.colVar (F := Ideal) H (ix1 q) + Ideal.ofBits .f32 0x3727C5AC#32) = _
    rw [hrv, hee, ← EReal.coe_add, Ideal.sqrt_coe, if_neg (not_lt.2 hp.le)]
  -- the kernel's reciprocal square root there
  have hrs : Ideal.rsqrt (Cert.KernelOut.var H (ix2 (0 : Fin 1) q) + Ideal.ofBits .f32 0x3727C5AC#32)
      = (((1 / Real.sqrt (v + e) : ℝ)) : EReal) := by
    rw [hkv, hee, ← EReal.coe_add, Ideal.rsqrt_coe, if_neg (not_lt.2 hp.le), if_neg hp.ne', one_div]
  show Cert.Layers.normAct H X (Cert.KernelOut.mean H) (Cert.KernelOut.var H) (Cert.KernelOut.asRow128 γ)
      (Cert.KernelOut.asRow128 β) (Cert.KernelOut.splatRow128 a) (ix2 p q) = _
  rw [kside, rside, hrs, hsq, Ideal.div_coe hs, asRow_apply, asRow_apply, splatRow_apply, hkm, alongRows_apply,
    alongRows_apply, alongRows_apply, hrm, broadcastInDim_scalar_apply]

end Cert.Bridge

end
-- ==== Proof.Reals.lean ====
/-
  Real inputs give a real hidden layer: the neighbour mean of a real array is real (a gather reads, a scatter with addition
  sums finitely many reals, and the clipped in-degree is a real that is at least one), and the SAGE layer of real arrays
  is real (finite sums of products).
-/
import proofs.«172143_j85615878078999_1_alg».proof.Proof.RefStages
import proofs.«172143_j85615878078999_1_alg».proof.Proof.LibAllReal

noncomputable section

namespace Cert.Bridge

open Idealize.ShloMosaic Cert.LibAllReal
open Cert.ReferenceIdeal (S50000x128 S2x800000 S128x128 S128 S_)

variable [Cert.ReferenceIdeal.Facts]

/-- the f32 pattern of one denotes the extended real one: sign clear, exponent field 127, fraction zero, so 2^23 · 2^(-23) -/
private theorem ofBits_one : Ideal.ofBits .f32 0x3F800000#32 = (1 : EReal) := by
  show Ideal.ieee 8 23 (0x3F800000#32 : BitVec 32) = 1
  unfold Ideal.ieee
  simp
  rw [← EReal.coe_mul, ← EReal.coe_one]
  congr 1
  norm_num

/-- a maximum whose first operand is one at an entry is at least one there -/
private theorem one_le_maximumf {s : Shape} (a b : FVec Ideal s .f32) (j : s.Idx) (ha : a j = (1 : EReal)) :
    (1 : EReal) ≤ maximumf a b j := by
  show (1 : EReal) ≤ max (a j) (b j)
  rw [ha]
  exact le_max_left _ _

/-- a broadcast of an array whose entries are at least one has entries at least one: each entry is read from the operand -/
private theorem one_le_broadcastInDim {s t : Shape} (x : FVec Ideal s .f32) (dims : Fin s.rank → Fin t.rank)
    (h : s.BroadcastsInDim t dims) (hx : ∀ j, (1 : EReal) ≤ x j) (y : t.Idx) :
    (1 : EReal) ≤ broadcastInDim t dims h x y := hx _

/-- the in-degree clipped below at one is an array of reals -/
private theorem allReal_degClip (ei : (⟨S2x800000, .i32⟩ : BufTy).Contents (Elt Ideal)) :
    AllReal (Cert.ReferenceIdeal.Stages.degClip (F := Ideal) ei) := by
  unfold Cert.ReferenceIdeal.Stages.degClip
  refine AllReal.maximumf ?_ ?_
  · exact AllReal.broadcastInDim (AllReal.constant_one _) _ _
  · exact AllReal.scatterAdd (AllReal.broadcastInDim (AllReal.constant_zero _) _ _)
      (AllReal.broadcastInDim (AllReal.constant_one _) _ _) _ _

/-- each clipped in-degree is at least one: it is a maximum whose first operand is one -/
private theorem one_le_degClip (ei : (⟨S2x800000, .i32⟩ : BufTy).Contents (Elt Ideal)) (j) :
    (1 : EReal) ≤ Cert.ReferenceIdeal.Stages.degClip (F := Ideal) ei j := by
  unfold Cert.ReferenceIdeal.Stages.degClip
  exact one_le_maximumf _ _ j ofBits_one

/-- the neighbour mean of a real array is real -/
theorem allReal_nbrMean (x : FVec Ideal S50000x128 .f32) (ei : (⟨S2x800000, .i32⟩ : BufTy).Contents (Elt Ideal))
    (hx : AllReal x) : AllReal (Cert.ReferenceIdeal.Stages.nbrMean (F := Ideal) x ei) := by
  unfold Cert.ReferenceIdeal.Stages.nbrMean
  refine AllReal.divf ?_ ?_ ?_
  · unfold Cert.ReferenceIdeal.Stages.nbrSum
    exact AllReal.scatterAdd (AllReal.broadcastInDim (AllReal.constant_zero _) _ _) (AllReal.gather hx _ _) _ _
  · unfold Cert.ReferenceIdeal.Stages.degCol
    exact AllReal.broadcastInDim (AllReal.broadcastInDim (allReal_degClip ei) _ _) _ _
  · unfold Cert.ReferenceIdeal.Stages.degCol
    exact one_le_broadcastInDim _ _ _ (one_le_broadcastInDim _ _ _ (one_le_degClip ei))

/-- the hidden SAGE layer of real arrays is real -/
theorem allReal_lin128 (A X : FVec Ideal S50000x128 .f32) (Wl : FVec Ideal S128x128 .f32) (b : FVec Ideal S128 .f32)
    (Wr : FVec Ideal S128x128 .f32) (hA : AllReal A) (hX : AllReal X) (hWl : AllReal Wl) (hb : AllReal b) (hWr : AllReal Wr) :
    AllReal (Cert.ReferenceIdeal.Stages.lin128 (F := Ideal) A X Wl b Wr) := by
  unfold Cert.ReferenceIdeal.Stages.lin128 Cert.ReferenceIdeal.Stages.alongRows
  refine AllReal.addf (AllReal.addf ?_ ?_) ?_
  · exact AllReal.dotGeneral hA (AllReal.transpose hWl _ _) _ _
  · exact AllReal.broadcastInDim (AllReal.broadcastInDim hb _ _) _ _
  · exact AllReal.dotGeneral hX (AllReal.transpose hWr _ _) _ _

end Cert.Bridge

end
-- ==== Proof.Network.lean ====
/-
  The two networks are one function of real inputs. Layer by layer: the hidden SAGE layer read index by index is the
  reference's products and bias; it is an array of reals when the node features and the layer's weights are, so the two
  batch normalisations agree on it; the output layer and the log-softmax agree on any extended reals. The neighbour means
  are the same host operations on both sides.
-/
import proofs.«172143_j85615878078999_1_alg».proof.Proof.KStages
import proofs.«172143_j85615878078999_1_alg».proof.Proof.BridgeLinear
import proofs.«172143_j85615878078999_1_alg».proof.Proof.BridgeNorm
import proofs.«172143_j85615878078999_1_alg».proof.Proof.Reals

noncomputable section

namespace Cert.Bridge

open Idealize.ShloMosaic Cert.Layers Cert.LibAllReal
open Cert.ReferenceIdeal (S50000x128 S2x800000 S128x128 S128 S16x128 S16 S_ S50000x16)

variable [Cert.KernelIdeal.Facts] [Cert.ReferenceIdeal.Facts]

/-- On real node features and real first-layer weights the kernel's network is the reference's. -/
theorem out_eq (x : FVec Ideal S50000x128 .f32) (ei : (⟨S2x800000, .i32⟩ : BufTy).Contents (Elt Ideal))
    (Wl1 : FVec Ideal S128x128 .f32) (bl1 : FVec Ideal S128 .f32) (Wr1 : FVec Ideal S128x128 .f32)
    (Wl2 : FVec Ideal S16x128 .f32) (bl2 : FVec Ideal S16 .f32) (Wr2 : FVec Ideal S16x128 .f32)
    (γ β : FVec Ideal S128 .f32) (a : FVec Ideal S_ .f32)
    (hx : AllReal x) (hWl1 : AllReal Wl1) (hbl1 : AllReal bl1) (hWr1 : AllReal Wr1) :
    Cert.KernelOut.out x ei Wl1 bl1 Wr1 Wl2 bl2 Wr2 γ β a
      = Cert.ReferenceIdeal.Stages.out (F := Ideal) x ei Wl1 bl1 Wr1 Wl2 bl2 Wr2 γ β a := by
  have hH : AllReal (Cert.ReferenceIdeal.Stages.lin128 (F := Ideal) (Cert.ReferenceIdeal.Stages.nbrMean (F := Ideal) x ei) x Wl1 bl1 Wr1) :=
    allReal_lin128 _ _ _ _ _ (allReal_nbrMean x ei hx) hx hWl1 hbl1 hWr1
  unfold Cert.KernelOut.out Cert.ReferenceIdeal.Stages.out Cert.KernelOut.hidden
  dsimp only
  rw [sage128_eq, hidden2_eq _ _ _ _ _ hH, sage16_eq, logSoftmax_eq]

end Cert.Bridge

end
-- ==== Proof.Finite.lean ====
/-
  The precondition says of every float argument that each entry's absolute value is below +∞: each entry is then a real
  number (an extended real whose absolute value is not +∞ is neither infinity).
-/
import proofs.«172143_j85615878078999_1_alg».proof.Defs
import proofs.«172143_j85615878078999_1_alg».proof.Proof.Gen.Pre_finite_inputs
import proofs.«172143_j85615878078999_1_alg».proof.Proof.LibAllReal
import Idealize.ShloMosaic.Lib.ReduceAll
import Idealize.ShloMosaic.Lib.ValueIdx

noncomputable section

namespace Cert.Bridge

open Idealize.ShloMosaic Idealize.SL.Sem Cert.LibAllReal

variable [Cert.KernelIdeal.Facts] [Cert.Pre_finite_inputs.Facts]

/-- the scalar shape has one index -/
private instance subsingleton_scalar_idx : Subsingleton Cert.Pre_finite_inputs.S_.Idx :=
  ⟨fun a b => funext fun d => d.elim0⟩

/-- the f32 pattern with exponent field all ones, fraction zero and sign clear denotes +∞ -/
private theorem ofBits_inf : Ideal.ofBits .f32 0x7F800000#32 = (⊤ : EReal) := by
  simp [Ideal.ofBits, Ideal.ieee]

/-- a one-bit word made from a Boolean is one exactly when the Boolean is true -/
private theorem ofBool_eq_one_iff (b : Bool) : BitVec.ofBool b = 1#1 ↔ b = true := by cases b <;> decide

/-- an extended real whose absolute value max x (−x) is below +∞ is a real: max ⊥ ⊤ = ⊤ and max ⊤ ⊥ = ⊤ are not below ⊤ -/
private theorem real_of_abs_lt_top (x : EReal) (h : max x (-x) < ⊤) : ∃ r : ℝ, x = (r : EReal) := by
  induction x using EReal.rec with
  | bot => simp at h
  | coe r => exact ⟨r, rfl⟩
  | top => simp at h

/-- if the conjunction over all entries of "|v| < top", with top the splat of +∞, is one, every entry of v is a real -/
private theorem allReal_of_all_lt_inf {s t u : Shape} [Subsingleton t.Idx] {axes : List (Fin s.rank)}
    (v top : FVec Ideal s .f32) (htop : ∀ y, top y = Ideal.ofBits .f32 0x7F800000#32)
    (init : u.Idx → BitVec 1) (hr : s.ReducesTo axes t) (hu : 0 < u.numel) (j : t.Idx)
    (e : Host.reduce IntOp.andi (cmpf .olt (Host.absf v) top) init hr hu j = 1#1) : AllReal v := by
  intro y
  have hy : Ideal.cmp .olt (max (v y) (-(v y))) (top y) = 1#1 :=
    Host.reduce_andi_all (cmpf .olt (Host.absf v) top) init hr hu j e y
  rw [htop y, ofBits_inf] at hy
  refine real_of_abs_lt_top (v y) ?_
  simpa [Ideal.cmp, ofBool_eq_one_iff] using hy

/-- a conjunction of two one-bit scalars that is one has both conjuncts one -/
private theorem andi_split {a b : IVec Cert.Pre_finite_inputs.S_ 1} {i : Cert.Pre_finite_inputs.S_.Idx}
    (h : andi a b i = 1#1) : a i = 1#1 ∧ b i = 1#1 := IntOp.andi_eq_one.1 h

/-- under the precondition the node features, the hidden layer's two weight matrices and its bias are arrays of reals -/
theorem allReal_of_pre (m : (ℓ : Loc Cert.KernelIdeal.nD Cert.KernelIdeal.τ Cert.KernelIdeal.sig) → Buf (Elt Ideal) ℓ)
    (h : Cert.Pre_KernelIdeal m) (c : Dev Cert.KernelIdeal.nD) :
    AllReal (m ((c.tc : Thread Cert.KernelIdeal.nD Cert.KernelIdeal.τ).loc Cert.KernelIdeal.main_arg0))
    ∧ AllReal (m ((c.tc : Thread Cert.KernelIdeal.nD Cert.KernelIdeal.τ).loc Cert.KernelIdeal.main_arg2))
    ∧ AllReal (m ((c.tc : Thread Cert.KernelIdeal.nD Cert.KernelIdeal.τ).loc Cert.KernelIdeal.main_arg3))
    ∧ AllReal (m ((c.tc : Thread Cert.KernelIdeal.nD Cert.KernelIdeal.τ).loc Cert.KernelIdeal.main_arg4)) := by
  have e := congrFun (h c) ValueIdx.ix0
  dsimp only [Cert.Pre_finite_inputs.fn, Cert.Pre_finite_inputs.fn_part1, Cert.Pre_finite_inputs.fn_part2] at e
  obtain ⟨e, -⟩ := andi_split e
  obtain ⟨e, -⟩ := andi_split e
  obtain ⟨e, -⟩ := andi_split e
  obtain ⟨e, -⟩ := andi_split e
  obtain ⟨e, -⟩ := andi_split e
  obtain ⟨e, -⟩ := andi_split e
  obtain ⟨e, h4⟩ := andi_split e
  obtain ⟨e, h3⟩ := andi_split e
  obtain ⟨h0, h2⟩ := andi_split e
  exact ⟨allReal_of_all_lt_inf _ _ (fun _ => rfl) _ _ _ _ h0, allReal_of_all_lt_inf _ _ (fun _ => rfl) _ _ _ _ h2,
    allReal_of_all_lt_inf _ _ (fun _ => rfl) _ _ _ _ h3, allReal_of_all_lt_inf _ _ (fun _ => rfl) _ _ _ _ h4⟩

end Cert.Bridge

end
-- ==== Proof.lean ====
/-
  A two-layer GraphSAGE network with batch normalisation, a leaky rectifier with residual, and a log-softmax over
  sixteen classes, on a graph of 50000 nodes and 800000 edges: the kernel's program (three kernels among host operations)
  against its reference, equal as extended reals under the precondition that every float input is finite.

  The kernel's program ends with its result buffer at a composition of whole-array layers (Proof/KStages.lean): the regions'
  result arrays are opened block by block (Proof/Region0.lean, Region1.lean, Region2.lean), the host operations between
  them are read off the boundaries' contents (Proof/KHost.lean), and the run names the result buffer (Proof/KRun.lean). The
  reference's run (Proof/RefRun.lean) ends at the composition of Proof/RefStages.lean. The two compositions are one
  function of real inputs (Proof/Network.lean): the SAGE layers and the log-softmax agree on all extended reals
  (Proof/BridgeLinear.lean); the batch statistics agree because the hidden layer is an array of reals (Proof/Reals.lean,
  Proof/Finite.lean), where (1/n)∑(h − μ)² = (1/n)∑h² − μ² and y / √p = y · (√p)⁻¹ for a positive real p
  (Proof/BridgeNorm.lean). The ideal pass rewrote nothing, so the preservation claim is trivial.
-/
import proofs.«172143_j85615878078999_1_alg».proof.Defs
import proofs.«172143_j85615878078999_1_alg».proof.Proof.Gen.Kernel
import proofs.«172143_j85615878078999_1_alg».proof.Proof.Gen.Kernel.Frame
import proofs.«172143_j85615878078999_1_alg».proof.Proof.Gen.KernelIdeal
import proofs.«172143_j85615878078999_1_alg».proof.Proof.Gen.KernelIdeal.Frame
import proofs.«172143_j85615878078999_1_alg».proof.Proof.Gen.ReferenceIdeal
import proofs.«172143_j85615878078999_1_alg».proof.Proof.Gen.Pre_finite_inputs
import proofs.«172143_j85615878078999_1_alg».proof.Proof.KRun
import proofs.«172143_j85615878078999_1_alg».proof.Proof.KHost
import proofs.«172143_j85615878078999_1_alg».proof.Proof.RefRun
import proofs.«172143_j85615878078999_1_alg».proof.Proof.Network
import proofs.«172143_j85615878078999_1_alg».proof.Proof.Finite
import Idealize.ShloMosaic.Adequacy
import Idealize.ShloMosaic.Init

noncomputable section

namespace Cert.Proof

open Idealize.ShloMosaic Idealize.SL.Sem

/-- The kernel's program runs and leaves its arguments: the generated frame. -/
theorem frame_k : Cert.frame_Kernel := fun m ρ _ => Cert.Kernel.Gen.frame m ρ

/-- Its idealization likewise. -/
theorem frame_ki : Cert.frame_KernelIdeal := fun m ρ _ => Cert.KernelIdeal.Gen.frame m ρ

/-- The reference runs and leaves its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's network of the
    arguments, which on the finite inputs the precondition admits is the reference's network. -/
theorem algebraic : Cert.algebraic_KernelIdeal_ReferenceIdeal := by
  intro m ρ m' ρ' hpre hagree
  refine ⟨fun c => Cert.KernelOut.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.HostValue.result_eq m ρ c), (h c).2⟩)
      (Cert.KernelIdeal.Valued.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    obtain ⟨r0, r2, r3, r4⟩ := Cert.Bridge.allReal_of_pre m hpre c
    rw [e0, e1, e2, e3, e4, e5, e6, e7, e8, e9, e10]
    exact (Cert.Bridge.out_eq _ _ _ _ _ _ _ _ _ _ _ r0 r2 r3 r4).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
